-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S1000000x128 .f32) (main_arg1 : IVec S1000000 32) (main_arg2 : IVec S1000000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S_ : Shape := ⟨0, ![]⟩
abbrev S50000x128 : Shape := ⟨2, ![50000, 128]⟩
abbrev S1000000x1 : Shape := ⟨2, ![1000000, 1]⟩
abbrev S50000x1 : Shape := ⟨2, ![50000, 1]⟩
abbrev S1x128 : Shape := ⟨2, ![1, 128]⟩
abbrev S2x512x128 : Shape := ⟨3, ![2, 512, 128]⟩
abbrev S2x1x128 : Shape := ⟨3, ![2, 1, 128]⟩
abbrev S2x1x512 : Shape := ⟨3, ![2, 1, 512]⟩
abbrev S4000x128 : Shape := ⟨2, ![4000, 128]⟩
abbrev S4000x1 : Shape := ⟨2, ![4000, 1]⟩
abbrev S1x512x128 : Shape := ⟨3, ![1, 512, 128]⟩
abbrev S1x1x128 : Shape := ⟨3, ![1, 1, 128]⟩
abbrev S1x1x512 : Shape := ⟨3, ![1, 1, 512]⟩
abbrev S512x128 : Shape := ⟨2, ![512, 128]⟩
abbrev S1x512 : Shape := ⟨2, ![1, 512]⟩
abbrev S4000x512 : Shape := ⟨2, ![4000, 512]⟩
abbrev S512 : Shape := ⟨1, ![512]⟩
abbrev S1x500 : Shape := ⟨2, ![1, 500]⟩
abbrev S500 : Shape := ⟨1, ![500]⟩
abbrev S500x1 : Shape := ⟨2, ![500, 1]⟩
abbrev S500x128 : Shape := ⟨2, ![500, 128]⟩
abbrev S8000x128 : Shape := ⟨2, ![8000, 128]⟩

abbrev nBuf : Space → Nat
  | .hbm => 91
  | .vmem => 21
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S1000000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .f32⟩
  | .hbm, ⟨12, _⟩ => ⟨S50000x128, .f32⟩
  | .hbm, ⟨13, _⟩ => ⟨S1000000x1, .i32⟩
  | .hbm, ⟨14, _⟩ => ⟨S50000x128, .f32⟩
  | .hbm, ⟨15, _⟩ => ⟨S_, .f32⟩
  | .hbm, ⟨16, _⟩ => ⟨S1000000x1, .f32⟩
  | .hbm, ⟨17, _⟩ => ⟨S_, .f32⟩
  | .hbm, ⟨18, _⟩ => ⟨S50000x1, .f32⟩
  | .hbm, ⟨19, _⟩ => ⟨S1000000x1, .i32⟩
  | .hbm, ⟨20, _⟩ => ⟨S50000x1, .f32⟩
  | .hbm, ⟨21, _⟩ => ⟨S_, .f32⟩
  | .hbm, ⟨22, _⟩ => ⟨S50000x1, .f32⟩
  | .hbm, ⟨23, _⟩ => ⟨S50000x1, .f32⟩
  | .hbm, ⟨24, _⟩ => ⟨S50000x128, .f32⟩
  | .hbm, ⟨25, _⟩ => ⟨S50000x128, .f32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S50000x128, .f32⟩
  | .hbm, ⟨30, _⟩ => ⟨S1000000x1, .i32⟩
  | .hbm, ⟨31, _⟩ => ⟨S2x512x128, .f32⟩
  | .hbm, ⟨32, _⟩ => ⟨S2x1x128, .f32⟩
  | .hbm, ⟨33, _⟩ => ⟨S2x1x512, .f32⟩
  | .hbm, ⟨34, _⟩ => ⟨S1x512x128, .f32⟩
  | .hbm, ⟨35, _⟩ => ⟨S512x128, .f32⟩
  | .hbm, ⟨36, _⟩ => ⟨S1x512x128, .f32⟩
  | .hbm, ⟨37, _⟩ => ⟨S512x128, .f32⟩
  | .hbm, ⟨38, _⟩ => ⟨S512x128, .f32⟩
  | .hbm, ⟨39, _⟩ => ⟨S1x1x128, .f32⟩
  | .hbm, ⟨40, _⟩ => ⟨S1x128, .f32⟩
  | .hbm, ⟨41, _⟩ => ⟨S1x1x128, .f32⟩
  | .hbm, ⟨42, _⟩ => ⟨S1x128, .f32⟩
  | .hbm, ⟨43, _⟩ => ⟨S1x128, .f32⟩
  | .hbm, ⟨44, _⟩ => ⟨S1x1x512, .f32⟩
  | .hbm, ⟨45, _⟩ => ⟨S1x512, .f32⟩
  | .hbm, ⟨46, _⟩ => ⟨S1x1x512, .f32⟩
  | .hbm, ⟨47, _⟩ => ⟨S1x512, .f32⟩
  | .hbm, ⟨48, _⟩ => ⟨S1x512, .f32⟩
  | .hbm, ⟨49, _⟩ => ⟨S1x500, .f32⟩
  | .hbm, ⟨50, _⟩ => ⟨S500, .f32⟩
  | .hbm, ⟨51, _⟩ => ⟨S500x1, .f32⟩
  | .hbm, ⟨52, _⟩ => ⟨S500x128, .f32⟩
  | .hbm, ⟨53, _⟩ => ⟨S_, .f32⟩
  | .hbm, ⟨54, _⟩ => ⟨S500x1, .f32⟩
  | .hbm, ⟨55, _⟩ => ⟨S500x1, .f32⟩
  | .hbm, ⟨56, _⟩ => ⟨S500x128, .f32⟩
  | .hbm, ⟨57, _⟩ => ⟨S500x128, .f32⟩
  | .hbm, ⟨58, _⟩ => ⟨S500x128, .f32⟩
  | .hbm, ⟨59, _⟩ => ⟨S1x128, .f32⟩
  | .hbm, ⟨60, _⟩ => ⟨S500x128, .f32⟩
  | .hbm, ⟨61, _⟩ => ⟨S500x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S_, .i32⟩
  | .hbm, ⟨69, _⟩ => ⟨S1000000, .i32⟩
  | .hbm, ⟨70, _⟩ => ⟨S1000000, .i1⟩
  | .hbm, ⟨71, _⟩ => ⟨S_, .i32⟩
  | .hbm, ⟨72, _⟩ => ⟨S1000000, .i32⟩
  | .hbm, ⟨73, _⟩ => ⟨S1000000, .i32⟩
  | .hbm, ⟨74, _⟩ => ⟨S1000000, .i32⟩
  | .hbm, ⟨75, _⟩ => ⟨S1000000x1, .i32⟩
  | .hbm, ⟨76, _⟩ => ⟨S1000000x128, .f32⟩
  | .hbm, ⟨77, _⟩ => ⟨S_, .i32⟩
  | .hbm, ⟨78, _⟩ => ⟨S1000000, .i32⟩
  | .hbm, ⟨79, _⟩ => ⟨S1000000, .i1⟩
  | .hbm, ⟨80, _⟩ => ⟨S_, .i32⟩
  | .hbm, ⟨81, _⟩ => ⟨S1000000, .i32⟩
  | .hbm, ⟨82, _⟩ => ⟨S1000000, .i32⟩
  | .hbm, ⟨83, _⟩ => ⟨S1000000, .i32⟩
  | .hbm, ⟨84, _⟩ => ⟨S1000000x1, .i32⟩
  | .hbm, ⟨85, _⟩ => ⟨S1000000x128, .f32⟩
  | .hbm, ⟨86, _⟩ => ⟨S1000000x128, .f32⟩
  | .hbm, ⟨87, _⟩ => ⟨S1000000x128, .f32⟩
  | .hbm, ⟨88, _⟩ => ⟨S1000000x128, .f32⟩
  | .hbm, ⟨89, _⟩ => ⟨S1000000x128, .bf16⟩
  | .hbm, ⟨90, _⟩ => ⟨S1000000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .i32⟩
  | .local _ .vmem, ⟨3, _⟩ => ⟨S4000x1, .i32⟩
  | .local _ .vmem, ⟨4, _⟩ => ⟨S1x512x128, .f32⟩
  | .local _ .vmem, ⟨5, _⟩ => ⟨S1x512x128, .f32⟩
  | .local _ .vmem, ⟨6, _⟩ => ⟨S1x1x128, .f32⟩
  | .local _ .vmem, ⟨7, _⟩ => ⟨S1x1x128, .f32⟩
  | .local _ .vmem, ⟨8, _⟩ => ⟨S1x1x512, .f32⟩
  | .local _ .vmem, ⟨9, _⟩ => ⟨S1x1x512, .f32⟩
  | .local _ .vmem, ⟨10, _⟩ => ⟨S512x128, .f32⟩
  | .local _ .vmem, ⟨11, _⟩ => ⟨S1x128, .f32⟩
  | .local _ .vmem, ⟨12, _⟩ => ⟨S1x512, .f32⟩
  | .local _ .vmem, ⟨13, _⟩ => ⟨S8000x128, .f32⟩
  | .local _ .vmem, ⟨14, _⟩ => ⟨S8000x128, .f32⟩
  | .local _ .vmem, ⟨15, _⟩ => ⟨S8000x128, .bf16⟩
  | .local _ .vmem, ⟨16, _⟩ => ⟨S8000x128, .bf16⟩
  | .local _ .vmem, ⟨17, _⟩ => ⟨S128x128, .f32⟩
  | .local _ .vmem, ⟨18, _⟩ => ⟨S128, .f32⟩
  | .local _ .vmem, ⟨19, _⟩ => ⟨S8000x128, .f32⟩
  | .local _ .vmem, ⟨20, _⟩ => ⟨S8000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c : Ref sig .tc := ⟨.hbm, 68, rfl⟩
abbrev main_v49 : Ref sig .tc := ⟨.hbm, 69, rfl⟩
abbrev main_v50 : Ref sig .tc := ⟨.hbm, 70, rfl⟩
abbrev main_c_5 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_6 : Ref sig .tc := ⟨.hbm, 77, rfl⟩
abbrev main_v56 : Ref sig .tc := ⟨.hbm, 78, rfl⟩
abbrev main_v57 : Ref sig .tc := ⟨.hbm, 79, rfl⟩
abbrev main_c_7 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v35 : BitVec 1 := Scalar.cmpi .eq arg1 c124_i32
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S50000x128 : S_.BroadcastsInDim S50000x128 (![] : Fin 0 → Fin S50000x128.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S1000000_S1000000x1 : S1000000.ShapeCasts S1000000x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x512_d1_w32 : S4000x512.Iotas .tc 32 [1]
  broadcasts_S4000x1_S4000x512 : S4000x1.Broadcasts S4000x512
  natLt_1_32 : 1 < 32
  bitsLt_bf16_f32 : FTy.bits .bf16 < FTy.bits .f32
  reduces_S4000x128_S128 : S4000x128.Reduces [0] S128
  shapeCasts_S128_S1x128 : S128.ShapeCasts S1x128
  reduces_S4000x512_S512 : S4000x512.Reduces [0] S512
  shapeCasts_S512_S1x512 : S512.ShapeCasts S1x512
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  slices_S2x512x128_S1x512x128_0_0_0 : S2x512x128.Slices ![0, 0, 0] S1x512x128
  slices_S2x512x128_S1x512x128_1_0_0 : S2x512x128.Slices ![1, 0, 0] S1x512x128
  slices_S2x1x128_S1x1x128_0_0_0 : S2x1x128.Slices ![0, 0, 0] S1x1x128
  slices_S2x1x128_S1x1x128_1_0_0 : S2x1x128.Slices ![1, 0, 0] S1x1x128
  slices_S2x1x512_S1x1x512_0_0_0 : S2x1x512.Slices ![0, 0, 0] S1x1x512
  slices_S2x1x512_S1x1x512_1_0_0 : S2x1x512.Slices ![1, 0, 0] S1x1x512
  slices_S1x512_S1x500_0_0 : S1x512.Slices ![0, 0] S1x500
  shapeCasts_S1x500_S500 : S1x500.ShapeCasts S500
  bcast_S500_S500x1_0 : S500.BroadcastsInDim S500x1 (![0] : Fin 1 → Fin S500x1.rank)
  slices_S512x128_S500x128_0_0 : S512x128.Slices ![0, 0] S500x128
  bcast_S_S500x1 : S_.BroadcastsInDim S500x1 (![] : Fin 0 → Fin S500x1.rank)
  bcast_S500x1_S500x128_0_1 : S500x1.BroadcastsInDim S500x128 (![0, 1] : Fin 2 → Fin S500x128.rank)
  bcast_S1x128_S500x128_0_1 : S1x128.BroadcastsInDim S500x128 (![0, 1] : Fin 2 → Fin S500x128.rank)
  bcast_S_S1x128 : S_.BroadcastsInDim S1x128 (![] : Fin 0 → Fin S1x128.rank)
  bcast_S_S1000000 : S_.BroadcastsInDim S1000000 (![] : Fin 0 → Fin S1000000.rank)
  bcast_S1x128_S1000000x128_0_1 : S1x128.BroadcastsInDim S1000000x128 (![0, 1] : Fin 2 → Fin S1000000x128.rank)
  inb_S8000x128_S8000x128_0_0 : ∀ a, (![0, 0] : Fin 2 → Nat) a + S8000x128.size a ≤ S8000x128.size a
  h_S8000x128 : 0 < S8000x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  broadcasts_S1x128_S8000x128 : S1x128.Broadcasts S8000x128
  shapeCasts_S8000x128_S8000x128 : S8000x128.ShapeCasts S8000x128
  scatter_S50000x128_S1000000x1_S1000000x128_1_0_0_1_wf : ScatterDims.WF S50000x128 S1000000x1 S1000000x128 [1] [0] [0] 1
  scatter_S50000x1_S1000000x1_S1000000x1_1_0_0_1_wf : ScatterDims.WF S50000x1 S1000000x1 S1000000x1 [1] [0] [0] 1
  dot_S50000x128_S128x128_S50000x128_1_0_0_1_n_n_wf : DotDims.WF S50000x128 S128x128 S50000x128 [1] [0] [0] [1] [] []
  dot_S4000x512_S4000x128_S512x128_0_0_1_1_n_n_wf : DotDims.WF S4000x512 S4000x128 S512x128 [0] [0] [1] [1] [] []
  dot_S500x128_S128x128_S500x128_1_0_0_1_n_n_wf : DotDims.WF S500x128 S128x128 S500x128 [1] [0] [0] [1] [] []
  dot_S1x128_S128x128_S1x128_1_0_0_1_n_n_wf : DotDims.WF S1x128 S128x128 S1x128 [1] [0] [0] [1] [] []
  gather_S50000x128_S1000000x1_S1000000x128_1_0_n_n_0_1_1128_wf : GatherDims.WF S50000x128 S1000000x1 S1000000x128 [1] [0] [] [0] [] 1 ![1, 128]
  gather_S500x128_S1000000x1_S1000000x128_1_0_n_n_0_1_1128_wf : GatherDims.WF S500x128 S1000000x1 S1000000x128 [1] [0] [] [0] [] 1 ![1, 128]
  dot_S8000x128_S128x128_S8000x128_1_0_0_1_n_n_wf : DotDims.WF S8000x128 S128x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S1000000x128.size a
  hwx0_0 : ∀ i : grid0.Coords, EltTy.bits .f32 = 32 ∨ (Rect.block (s := S1000000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S1000000x1.size a
  hwx0_1 : ∀ i : grid0.Coords, EltTy.bits .i32 = 32 ∨ (Rect.block (s := S1000000x1) S4000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S2x512x128.size a
  hwx0_2 : ∀ i : grid0.Coords, EltTy.bits .f32 = 32 ∨ (Rect.block (s := S2x512x128) S1x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S2x1x512.size a
  hwx0_4 : ∀ i : grid0.Coords, EltTy.bits .f32 = 32 ∨ (Rect.block (s := S2x1x512) S1x1x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1000000x128.size a
  hwx1_0 : ∀ i : grid1.Coords, EltTy.bits .f32 = 32 ∨ (Rect.block (s := S1000000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S1000000x128.size a
  hwx1_1 : ∀ i : grid1.Coords, EltTy.bits .bf16 = 32 ∨ (Rect.block (s := S1000000x128) S8000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x128.size a ≤ S1000000x128.size a
  hwx1_4 : ∀ i : grid1.Coords, EltTy.bits .f32 = 32 ∨ (Rect.block (s := S1000000x128) S8000x128.size (cc1_transform_4 i) (hinb1_4 i)).WholeWords (EltTy.packing .f32)

variable [Facts₀]

def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S4000x512_S4000x128_S512x128_0_0_1_1_n_n : DotDims S4000x512 S4000x128 S512x128 where
  lhsContracting := [0]
  rhsContracting := [0]
  lhsNonContracting := [1]
  rhsNonContracting := [1]
  lhsBatch := []
  rhsBatch := []
  wf := dot_S4000x512_S4000x128_S512x128_0_0_1_1_n_n_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def gather_S500x128_S1000000x1_S1000000x128_1_0_n_n_0_1_1128 : GatherDims S500x128 S1000000x1 S1000000x128 where
  offsetDims := [1]
  collapsedSliceDims := [0]
  operandBatchingDims := []
  startIndicesBatchingDims := []
  startIndexMap := [0]
  indexVectorDim := 1
  sliceSizes := ![1, 128]
  wf := gather_S500x128_S1000000x1_S1000000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16_0) S1x512x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_2) S1x1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v67) S8000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S1x128 : Shape := ⟨2, ![1, 128]⟩
abbrev S_ : Shape := ⟨0, ![]⟩
abbrev S50000x128 : Shape := ⟨2, ![50000, 128]⟩
abbrev S1000000x1 : Shape := ⟨2, ![1000000, 1]⟩
abbrev S50000x1 : Shape := ⟨2, ![50000, 1]⟩
abbrev S500x128 : Shape := ⟨2, ![500, 128]⟩
abbrev S500x1 : Shape := ⟨2, ![500, 1]⟩

abbrev nBuf : Space → Nat
  | .hbm => 87
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S1000000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1000000x128, .f32⟩
  | .hbm, ⟨12, _⟩ => ⟨S1x128, .f32⟩
  | .hbm, ⟨13, _⟩ => ⟨S1000000x128, .f32⟩
  | .hbm, ⟨14, _⟩ => ⟨S1000000x128, .f32⟩
  | .hbm, ⟨15, _⟩ => ⟨S_, .f32⟩
  | .hbm, ⟨16, _⟩ => ⟨S50000x128, .f32⟩
  | .hbm, ⟨17, _⟩ => ⟨S1000000x1, .i32⟩
  | .hbm, ⟨18, _⟩ => ⟨S50000x128, .f32⟩
  | .hbm, ⟨19, _⟩ => ⟨S_, .f32⟩
  | .hbm, ⟨20, _⟩ => ⟨S1000000x1, .f32⟩
  | .hbm, ⟨21, _⟩ => ⟨S_, .f32⟩
  | .hbm, ⟨22, _⟩ => ⟨S50000x1, .f32⟩
  | .hbm, ⟨23, _⟩ => ⟨S1000000x1, .i32⟩
  | .hbm, ⟨24, _⟩ => ⟨S50000x1, .f32⟩
  | .hbm, ⟨25, _⟩ => ⟨S_, .f32⟩
  | .hbm, ⟨26, _⟩ => ⟨S50000x1, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S500x128, .f32⟩
  | .hbm, ⟨36, _⟩ => ⟨S1000000x1, .i32⟩
  | .hbm, ⟨37, _⟩ => ⟨S500x128, .f32⟩
  | .hbm, ⟨38, _⟩ => ⟨S_, .f32⟩
  | .hbm, ⟨39, _⟩ => ⟨S1000000x1, .f32⟩
  | .hbm, ⟨40, _⟩ => ⟨S_, .f32⟩
  | .hbm, ⟨41, _⟩ => ⟨S500x1, .f32⟩
  | .hbm, ⟨42, _⟩ => ⟨S1000000x1, .i32⟩
  | .hbm, ⟨43, _⟩ => ⟨S500x1, .f32⟩
  | .hbm, ⟨44, _⟩ => ⟨S_, .f32⟩
  | .hbm, ⟨45, _⟩ => ⟨S500x1, .f32⟩
  | .hbm, ⟨46, _⟩ => ⟨S500x1, .f32⟩
  | .hbm, ⟨47, _⟩ => ⟨S500x128, .f32⟩
  | .hbm, ⟨48, _⟩ => ⟨S500x128, .f32⟩
  | .hbm, ⟨49, _⟩ => ⟨S500x128, .f32⟩
  | .hbm, ⟨50, _⟩ => ⟨S1x128, .f32⟩
  | .hbm, ⟨51, _⟩ => ⟨S500x128, .f32⟩
  | .hbm, ⟨52, _⟩ => ⟨S500x128, .f32⟩
  | .hbm, ⟨53, _⟩ => ⟨S_, .f32⟩
  | .hbm, ⟨54, _⟩ => ⟨S128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S_, .i32⟩
  | .hbm, ⟨63, _⟩ => ⟨S1000000, .i32⟩
  | .hbm, ⟨64, _⟩ => ⟨S1000000, .i1⟩
  | .hbm, ⟨65, _⟩ => ⟨S_, .i32⟩
  | .hbm, ⟨66, _⟩ => ⟨S1000000, .i32⟩
  | .hbm, ⟨67, _⟩ => ⟨S1000000, .i32⟩
  | .hbm, ⟨68, _⟩ => ⟨S1000000, .i32⟩
  | .hbm, ⟨69, _⟩ => ⟨S1000000x1, .i32⟩
  | .hbm, ⟨70, _⟩ => ⟨S1000000x128, .f32⟩
  | .hbm, ⟨71, _⟩ => ⟨S1000000x128, .f32⟩
  | .hbm, ⟨72, _⟩ => ⟨S_, .i32⟩
  | .hbm, ⟨73, _⟩ => ⟨S1000000, .i32⟩
  | .hbm, ⟨74, _⟩ => ⟨S1000000, .i1⟩
  | .hbm, ⟨75, _⟩ => ⟨S_, .i32⟩
  | .hbm, ⟨76, _⟩ => ⟨S1000000, .i32⟩
  | .hbm, ⟨77, _⟩ => ⟨S1000000, .i32⟩
  | .hbm, ⟨78, _⟩ => ⟨S1000000, .i32⟩
  | .hbm, ⟨79, _⟩ => ⟨S1000000x1, .i32⟩
  | .hbm, ⟨80, _⟩ => ⟨S1000000x128, .f32⟩
  | .hbm, ⟨81, _⟩ => ⟨S1000000x128, .f32⟩
  | .hbm, ⟨82, _⟩ => ⟨S1000000x128, .f32⟩
  | .hbm, ⟨83, _⟩ => ⟨S1000000x128, .f32⟩
  | .hbm, ⟨84, _⟩ => ⟨S_, .f32⟩
  | .hbm, ⟨85, _⟩ => ⟨S1000000x128, .f32⟩
  | .hbm, ⟨86, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S50000x128 : S_.BroadcastsInDim S50000x128 (![] : Fin 0 → Fin S50000x128.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S_S500x128 : S_.BroadcastsInDim S500x128 (![] : Fin 0 → Fin S500x128.rank)
  bcast_S_S500x1 : S_.BroadcastsInDim S500x1 (![] : Fin 0 → Fin S500x1.rank)
  bcast_S500x1_S500x128_0_1 : S500x1.BroadcastsInDim S500x128 (![0, 1] : Fin 2 → Fin S500x128.rank)
  bcast_S1x128_S500x128_0_1 : S1x128.BroadcastsInDim S500x128 (![0, 1] : Fin 2 → Fin S500x128.rank)
  reducesTo_S1000000x128_S128_d0 : S1000000x128.ReducesTo [0] S128
  h_S_ : 0 < S_.numel
  bcast_S_S1x128 : S_.BroadcastsInDim S1x128 (![] : Fin 0 → Fin S1x128.rank)
  bcast_S_S1000000 : S_.BroadcastsInDim S1000000 (![] : Fin 0 → Fin S1000000.rank)
  bcast_S_S1000000x128 : S_.BroadcastsInDim S1000000x128 (![] : Fin 0 → Fin S1000000x128.rank)
  dot_S1000000x128_S128x128_S1000000x128_1_0_0_1_n_n_wf : DotDims.WF S1000000x128 S128x128 S1000000x128 [1] [0] [0] [1] [] []
  scatter_S50000x128_S1000000x1_S1000000x128_1_0_0_1_wf : ScatterDims.WF S50000x128 S1000000x1 S1000000x128 [1] [0] [0] 1
  scatter_S50000x1_S1000000x1_S1000000x1_1_0_0_1_wf : ScatterDims.WF S50000x1 S1000000x1 S1000000x1 [1] [0] [0] 1
  dot_S50000x128_S128x128_S50000x128_1_0_0_1_n_n_wf : DotDims.WF S50000x128 S128x128 S50000x128 [1] [0] [0] [1] [] []
  scatter_S500x128_S1000000x1_S1000000x128_1_0_0_1_wf : ScatterDims.WF S500x128 S1000000x1 S1000000x128 [1] [0] [0] 1
  scatter_S500x1_S1000000x1_S1000000x1_1_0_0_1_wf : ScatterDims.WF S500x1 S1000000x1 S1000000x1 [1] [0] [0] 1
  dot_S500x128_S128x128_S500x128_1_0_0_1_n_n_wf : DotDims.WF S500x128 S128x128 S500x128 [1] [0] [0] [1] [] []
  dot_S1x128_S128x128_S1x128_1_0_0_1_n_n_wf : DotDims.WF S1x128 S128x128 S1x128 [1] [0] [0] [1] [] []
  gather_S50000x128_S1000000x1_S1000000x128_1_0_n_n_0_1_1128_wf : GatherDims.WF S50000x128 S1000000x1 S1000000x128 [1] [0] [] [0] [] 1 ![1, 128]
  gather_S500x128_S1000000x1_S1000000x128_1_0_n_n_0_1_1128_wf : GatherDims.WF S500x128 S1000000x1 S1000000x128 [1] [0] [] [0] [] 1 ![1, 128]

variable [Facts₀]

def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S500x128_S1000000x1_S1000000x128_1_0_0_1 : ScatterDims S500x128 S1000000x1 S1000000x128 where
  updateWindowDims := [1]
  insertedWindowDims := [0]
  scatterDimsToOperandDims := [0]
  indexVectorDim := 1
  wf := scatter_S500x128_S1000000x1_S1000000x128_1_0_0_1_wf
def scatter_S500x1_S1000000x1_S1000000x1_1_0_0_1 : ScatterDims S500x1 S1000000x1 S1000000x1 where
  updateWindowDims := [1]
  insertedWindowDims := [0]
  scatterDimsToOperandDims := [0]
  indexVectorDim := 1
  wf := scatter_S500x1_S1000000x1_S1000000x1_1_0_0_1_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def gather_S500x128_S1000000x1_S1000000x128_1_0_n_n_0_1_1128 : GatherDims S500x128 S1000000x1 S1000000x128 where
  offsetDims := [1]
  collapsedSliceDims := [0]
  operandBatchingDims := []
  startIndicesBatchingDims := []
  startIndexMap := [0]
  indexVectorDim := 1
  sliceSizes := ![1, 128]
  wf := gather_S500x128_S1000000x1_S1000000x128_1_0_n_n_0_1_1128_wf

class Facts : Prop extends Facts₀ where

variable [Facts]
-- ==== Proof.K.R0Base.lean ====
/-
  Region 0 is the per-core pass over the entries: the grid is 2 cores × 125 steps, a step reads a block of 4000 rows of
  the values and of the row indices, and three scratch accumulators (the 512×128 one-hot sums, the 1×128 plain sums, the
  1×512 one-hot counts) are carried from step to step: zeroed at a core's first step, added to at every step, copied to the
  three output blocks at the core's last step.  This module holds what the three control cases share: a window's block at
  a point, the two conditions in closed form over the grid (step 0 of a core; step 124 of a core), where the output
  windows are idle, the memrefs a point runs on, and the region's invariant with the scratch buffers named.
-/
import proofs.«401576_j111669149722_3_alg».proof.Proof.Gen.Kernel.Launch
import proofs.«401576_j111669149722_3_alg».proof.Proof.Gen.Kernel.Skeleton
import proofs.«401576_j111669149722_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The values' staging buffer holds the point's block of 4000 rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The row indices' staging buffer holds the point's block of 4000 indices at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The two conditions, in closed form over the grid -/

/-- "This is a core's first step": the reset of the accumulators is taken. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 125 = 0 :=
  (by decide +kernel : ∀ t : Fin grid0.N, cond0_0 (grid0.coords t) ↔ t.val % 125 = 0)

/-- "This is a core's last step": the accumulators are copied out. -/
abbrev cond0_1 (i : grid0.Coords) : Prop := k0_cond2 i = 1#1
theorem hcond0_1 : ∀ t : Fin cfg0.N, cond0_1 (grid0.coords t) ↔ t.val % 125 = 124 :=
  (by decide +kernel : ∀ t : Fin grid0.N, cond0_1 (grid0.coords t) ↔ t.val % 125 = 124)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from a core's last step the three outputs are idle and not written back. -/
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
/-- At a core's last step they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The memrefs a point runs on -/

abbrev VO0_2 : View sig .tc .vmem S1x512x128 .f32 := (Memref.whole cc0_stg2_0 : Memref sig .tc .vmem S1x512x128 .f32).view
abbrev VO0_3 : View sig .tc .vmem S1x1x128 .f32 := (Memref.whole cc0_stg3_0 : Memref sig .tc .vmem S1x1x128 .f32).view
abbrev VO0_4 : View sig .tc .vmem S1x1x512 .f32 := (Memref.whole cc0_stg4_0 : Memref sig .tc .vmem S1x1x512 .f32).view
abbrev ms0_0 (t : Fin cfg0.N) : Memref sig .tc .vmem S4000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4000x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)
/-- The three accumulators: whole scoped buffers of the kernel's own. -/
abbrev scM0_0 : Memref sig .tc .vmem S512x128 .f32 := Memref.whole cc0_scratch0
abbrev scM0_1 : Memref sig .tc .vmem S1x128 .f32 := Memref.whole cc0_scratch1
abbrev scM0_2 : Memref sig .tc .vmem S1x512 .f32 := Memref.whole cc0_scratch2
abbrev VS0_0 : View sig .tc .vmem S512x128 .f32 := scM0_0.view
abbrev VS0_1 : View sig .tc .vmem S1x128 .f32 := scM0_1.view
abbrev VS0_2 : View sig .tc .vmem S1x512 .f32 := scM0_2.view

/-- The scoped buffers of the core that region 0 never touches (the other region's staging buffers), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant of region 0 with the three accumulators as memrefs owned at some contents, the untouched
    scoped buffers and the generator register beside them. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ rest0 (F := F) c) ∗ (∃ r, prngReg c r)) := by
  unfold Pipeline.ΦA rest0; rw [scopedRest0_eq]; simp only [scM0_0, scM0_1, scM0_2, owns_whole]; try rfl

end Cert.Kernel.Fr

end
-- ==== Proof.K.R0RunA.lean ====
/-
  Region 0 at a core's FIRST step: the three accumulators are zeroed and then this block's one-hot sums, plain sums and one-hot counts are added to the zeros; the output blocks are left as found.
-/
import proofs.«401576_j111669149722_3_alg».proof.Proof.K.R0Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the step's stores leave in each accumulator (and, at a core's last step, in each output block), with the
    proof that on whole memrefs the kernel function runs to the continuation holding exactly those pieces written. -/
noncomputable def kernelRun0_A (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S1x512x128 .f32) (harg4 : arg4.IsWhole) (arg5 : Memref sig .tc .vmem S1x1x128 .f32) (harg5 : arg5.IsWhole) (arg6 : Memref sig .tc .vmem S1x1x512 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S1x512 .f32) (harg9 : arg9.IsWhole) (hc0 : cond0_0 i) (hc1 : ¬cond0_1 i)
    (x0 : Vec F S4000x128 .f32) (x1 : Vec F S4000x1 .i32) :
    Σ' (L2 : List (View.Piece (Elt F) S1x512x128 .f32)), Σ' (L3 : List (View.Piece (Elt F) S1x1x128 .f32)), Σ' (L4 : List (View.Piece (Elt F) S1x1x512 .f32)), Σ' (LS0 : List (View.Piece (Elt F) S512x128 .f32)), Σ' (LS1 : List (View.Piece (Elt F) S1x128 .f32)), { LS2 : List (View.Piece (Elt F) S1x512 .f32) //
      ∀ (xi2 : Vec F S1x512x128 .f32) (xi3 : Vec F S1x1x128 .f32) (xi4 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__row_seg_kernel i arg2 harg2 arg3 harg3 arg4 harg4 arg5 harg5 arg6 harg6 arg7 harg7 arg8 harg8 arg9 harg9) K } := by
  refine ⟨[], [], [], ?_, ?_, ?_, fun xi2 xi3 xi4 E K => ?run⟩
  case run =>
    simp only [cc0__row_seg_kernel_eq_skeleton]; unfold cc0__row_seg_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Fr

end
-- ==== Proof.K.R0RunB.lean ====
/-
  Region 0 at a MIDDLE step of a core: this block's one-hot sums, plain sums and one-hot counts are added to what the step before left in the three accumulators; the output blocks are left as found.
-/
import proofs.«401576_j111669149722_3_alg».proof.Proof.K.R0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the step's stores leave in each accumulator (and, at a core's last step, in each output block), with the
    proof that on whole memrefs the kernel function runs to the continuation holding exactly those pieces written. -/
noncomputable def kernelRun0_B (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S1x512x128 .f32) (harg4 : arg4.IsWhole) (arg5 : Memref sig .tc .vmem S1x1x128 .f32) (harg5 : arg5.IsWhole) (arg6 : Memref sig .tc .vmem S1x1x512 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S1x512 .f32) (harg9 : arg9.IsWhole) (hc0 : ¬cond0_0 i) (hc1 : ¬cond0_1 i)
    (x0 : Vec F S4000x128 .f32) (x1 : Vec F S4000x1 .i32) (xs0 : Vec F S512x128 .f32) (xs1 : Vec F S1x128 .f32) (xs2 : Vec F S1x512 .f32) :
    Σ' (L2 : List (View.Piece (Elt F) S1x512x128 .f32)), Σ' (L3 : List (View.Piece (Elt F) S1x1x128 .f32)), Σ' (L4 : List (View.Piece (Elt F) S1x1x512 .f32)), Σ' (LS0 : List (View.Piece (Elt F) S512x128 .f32)), Σ' (LS1 : List (View.Piece (Elt F) S1x128 .f32)), { LS2 : List (View.Piece (Elt F) S1x512 .f32) //
      ∀ (xi2 : Vec F S1x512x128 .f32) (xi3 : Vec F S1x1x128 .f32) (xi4 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__row_seg_kernel i arg2 harg2 arg3 harg3 arg4 harg4 arg5 harg5 arg6 harg6 arg7 harg7 arg8 harg8 arg9 harg9) K } := by
  refine ⟨[], [], [], ?_, ?_, ?_, fun xi2 xi3 xi4 E K => ?run⟩
  case run =>
    simp only [cc0__row_seg_kernel_eq_skeleton]; unfold cc0__row_seg_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Fr

end
-- ==== Proof.K.R0RunC.lean ====
/-
  Region 0 at a core's LAST step: the accumulators take this block's contributions as at a middle step, and are then copied whole into the three output blocks.
-/
import proofs.«401576_j111669149722_3_alg».proof.Proof.K.R0RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the step's stores leave in each accumulator (and, at a core's last step, in each output block), with the
    proof that on whole memrefs the kernel function runs to the continuation holding exactly those pieces written. -/
noncomputable def kernelRun0_C (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S1x512x128 .f32) (harg4 : arg4.IsWhole) (arg5 : Memref sig .tc .vmem S1x1x128 .f32) (harg5 : arg5.IsWhole) (arg6 : Memref sig .tc .vmem S1x1x512 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S1x512 .f32) (harg9 : arg9.IsWhole) (hc0 : ¬cond0_0 i) (hc1 : cond0_1 i)
    (x0 : Vec F S4000x128 .f32) (x1 : Vec F S4000x1 .i32) (xs0 : Vec F S512x128 .f32) (xs1 : Vec F S1x128 .f32) (xs2 : Vec F S1x512 .f32) :
    Σ' (L2 : List (View.Piece (Elt F) S1x512x128 .f32)), Σ' (L3 : List (View.Piece (Elt F) S1x1x128 .f32)), Σ' (L4 : List (View.Piece (Elt F) S1x1x512 .f32)), Σ' (LS0 : List (View.Piece (Elt F) S512x128 .f32)), Σ' (LS1 : List (View.Piece (Elt F) S1x128 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__row_seg_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__row_seg_kernel_eq_skeleton]; unfold cc0__row_seg_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.Kernel.Fr

end
-- ==== Proof.K.R0Frame.lean ====
/-
  Region 0, point by point.  At a point the kernel function runs in one of three ways (a core's first step, a middle
  step, a core's last step); each leaves pieces in the three accumulators, and the last step also in the three output
  blocks.  `outsAt0` follows the accumulators (and the output blocks) through the 250 points by recursion: a first step
  starts from zeros, every other step from what the point before left.  The region's invariant holds the accumulators at
  exactly those contents between points, which is what lets the last step's copy-out be named.
-/
import proofs.«401576_j111669149722_3_alg».proof.Proof.K.R0RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The three runs at a grid point -/

/-- The run of case A at point `t`, on the point's own memrefs. -/
noncomputable abbrev stepA (c : Dev nD) (t : Fin cfg0.N) (h0 : t.val % 125 = 0) (h1 : ¬t.val % 125 = 124) (x0 : Vec F S4000x128 .f32) (x1 : Vec F S4000x1 .i32) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) x0 x1

/-- What case A leaves in accumulator 0: its pieces read back. -/
def soutA_0 (c : Dev nD) (t : Fin cfg0.N) (h0 : t.val % 125 = 0) (h1 : ¬t.val % 125 = 124) (x0 : Vec F S4000x128 .f32) (x1 : Vec F S4000x1 .i32) : Vec F S512x128 .f32 :=
  VS0_0.read (Elt F) (VS0_0.writes (Elt F) VS0_0.junk (stepA c t h0 h1 x0 x1).2.2.2.1)
/-- Those pieces tile the accumulator. -/
theorem scoverA_0 (c : Dev nD) (t : Fin cfg0.N) (h0 : t.val % 125 = 0) (h1 : ¬t.val % 125 = 124) (x0 : Vec F S4000x128 .f32) (x1 : Vec F S4000x1 .i32) (y : S512x128.Idx) :
    ∃ pc ∈ (stepA (F := F) c t h0 h1 x0 x1).2.2.2.1, y ∈ pc.1.set :=
  View.cover_of_tiledL (stepA (F := F) c t h0 h1 x0 x1).2.2.2.1 S512x128.size (by sl_kernel_rfl) y

/-- What case A leaves in accumulator 1: its pieces read back. -/
def soutA_1 (c : Dev nD) (t : Fin cfg0.N) (h0 : t.val % 125 = 0) (h1 : ¬t.val % 125 = 124) (x0 : Vec F S4000x128 .f32) (x1 : Vec F S4000x1 .i32) : Vec F S1x128 .f32 :=
  VS0_1.read (Elt F) (VS0_1.writes (Elt F) VS0_1.junk (stepA c t h0 h1 x0 x1).2.2.2.2.1)
/-- Those pieces tile the accumulator. -/
theorem scoverA_1 (c : Dev nD) (t : Fin cfg0.N) (h0 : t.val % 125 = 0) (h1 : ¬t.val % 125 = 124) (x0 : Vec F S4000x128 .f32) (x1 : Vec F S4000x1 .i32) (y : S1x128.Idx) :
    ∃ pc ∈ (stepA (F := F) c t h0 h1 x0 x1).2.2.2.2.1, y ∈ pc.1.set :=
  View.cover_of_tiledL (stepA (F := F) c t h0 h1 x0 x1).2.2.2.2.1 S1x128.size (by sl_kernel_rfl) y

/-- What case A leaves in accumulator 2: its pieces read back. -/
def soutA_2 (c : Dev nD) (t : Fin cfg0.N) (h0 : t.val % 125 = 0) (h1 : ¬t.val % 125 = 124) (x0 : Vec F S4000x128 .f32) (x1 : Vec F S4000x1 .i32) : Vec F S1x512 .f32 :=
  VS0_2.read (Elt F) (VS0_2.writes (Elt F) VS0_2.junk (stepA c t h0 h1 x0 x1).2.2.2.2.2.1)
/-- Those pieces tile the accumulator. -/
theorem scoverA_2 (c : Dev nD) (t : Fin cfg0.N) (h0 : t.val % 125 = 0) (h1 : ¬t.val % 125 = 124) (x0 : Vec F S4000x128 .f32) (x1 : Vec F S4000x1 .i32) (y : S1x512.Idx) :
    ∃ pc ∈ (stepA (F := F) c t h0 h1 x0 x1).2.2.2.2.2.1, y ∈ pc.1.set :=
  View.cover_of_tiledL (stepA (F := F) c t h0 h1 x0 x1).2.2.2.2.2.1 S1x512.size (by sl_kernel_rfl) y

/-- The run of case B at point `t`, on the point's own memrefs. -/
noncomputable abbrev stepB (c : Dev nD) (t : Fin cfg0.N) (h0 : ¬t.val % 125 = 0) (h1 : ¬t.val % 125 = 124) (x0 : Vec F S4000x128 .f32) (x1 : Vec F S4000x1 .i32) (xs0 : Vec F S512x128 .f32) (xs1 : Vec F S1x128 .f32) (xs2 : Vec F S1x512 .f32) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) x0 x1 xs0 xs1 xs2

/-- What case B leaves in accumulator 0: its pieces read back. -/
def soutB_0 (c : Dev nD) (t : Fin cfg0.N) (h0 : ¬t.val % 125 = 0) (h1 : ¬t.val % 125 = 124) (x0 : Vec F S4000x128 .f32) (x1 : Vec F S4000x1 .i32) (xs0 : Vec F S512x128 .f32) (xs1 : Vec F S1x128 .f32) (xs2 : Vec F S1x512 .f32) : Vec F S512x128 .f32 :=
  VS0_0.read (Elt F) (VS0_0.writes (Elt F) VS0_0.junk (stepB c t h0 h1 x0 x1 xs0 xs1 xs2).2.2.2.1)
/-- Those pieces tile the accumulator. -/
theorem scoverB_0 (c : Dev nD) (t : Fin cfg0.N) (h0 : ¬t.val % 125 = 0) (h1 : ¬t.val % 125 = 124) (x0 : Vec F S4000x128 .f32) (x1 : Vec F S4000x1 .i32) (xs0 : Vec F S512x128 .f32) (xs1 : Vec F S1x128 .f32) (xs2 : Vec F S1x512 .f32) (y : S512x128.Idx) :
    ∃ pc ∈ (stepB (F := F) c t h0 h1 x0 x1 xs0 xs1 xs2).2.2.2.1, y ∈ pc.1.set :=
  View.cover_of_tiledL (stepB (F := F) c t h0 h1 x0 x1 xs0 xs1 xs2).2.2.2.1 S512x128.size (by sl_kernel_rfl) y

/-- What case B leaves in accumulator 1: its pieces read back. -/
def soutB_1 (c : Dev nD) (t : Fin cfg0.N) (h0 : ¬t.val % 125 = 0) (h1 : ¬t.val % 125 = 124) (x0 : Vec F S4000x128 .f32) (x1 : Vec F S4000x1 .i32) (xs0 : Vec F S512x128 .f32) (xs1 : Vec F S1x128 .f32) (xs2 : Vec F S1x512 .f32) : Vec F S1x128 .f32 :=
  VS0_1.read (Elt F) (VS0_1.writes (Elt F) VS0_1.junk (stepB c t h0 h1 x0 x1 xs0 xs1 xs2).2.2.2.2.1)
/-- Those pieces tile the accumulator. -/
theorem scoverB_1 (c : Dev nD) (t : Fin cfg0.N) (h0 : ¬t.val % 125 = 0) (h1 : ¬t.val % 125 = 124) (x0 : Vec F S4000x128 .f32) (x1 : Vec F S4000x1 .i32) (xs0 : Vec F S512x128 .f32) (xs1 : Vec F S1x128 .f32) (xs2 : Vec F S1x512 .f32) (y : S1x128.Idx) :
    ∃ pc ∈ (stepB (F := F) c t h0 h1 x0 x1 xs0 xs1 xs2).2.2.2.2.1, y ∈ pc.1.set :=
  View.cover_of_tiledL (stepB (F := F) c t h0 h1 x0 x1 xs0 xs1 xs2).2.2.2.2.1 S1x128.size (by sl_kernel_rfl) y

/-- What case B leaves in accumulator 2: its pieces read back. -/
def soutB_2 (c : Dev nD) (t : Fin cfg0.N) (h0 : ¬t.val % 125 = 0) (h1 : ¬t.val % 125 = 124) (x0 : Vec F S4000x128 .f32) (x1 : Vec F S4000x1 .i32) (xs0 : Vec F S512x128 .f32) (xs1 : Vec F S1x128 .f32) (xs2 : Vec F S1x512 .f32) : Vec F S1x512 .f32 :=
  VS0_2.read (Elt F) (VS0_2.writes (Elt F) VS0_2.junk (stepB c t h0 h1 x0 x1 xs0 xs1 xs2).2.2.2.2.2.1)
/-- Those pieces tile the accumulator. -/
theorem scoverB_2 (c : Dev nD) (t : Fin cfg0.N) (h0 : ¬t.val % 125 = 0) (h1 : ¬t.val % 125 = 124) (x0 : Vec F S4000x128 .f32) (x1 : Vec F S4000x1 .i32) (xs0 : Vec F S512x128 .f32) (xs1 : Vec F S1x128 .f32) (xs2 : Vec F S1x512 .f32) (y : S1x512.Idx) :
    ∃ pc ∈ (stepB (F := F) c t h0 h1 x0 x1 xs0 xs1 xs2).2.2.2.2.2.1, y ∈ pc.1.set :=
  View.cover_of_tiledL (stepB (F := F) c t h0 h1 x0 x1 xs0 xs1 xs2).2.2.2.2.2.1 S1x512.size (by sl_kernel_rfl) y

/-- The run of case C at point `t`, on the point's own memrefs. -/
noncomputable abbrev stepC (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) x0 x1 xs0 xs1 xs2

/-- What case C leaves in accumulator 0: its pieces read back. -/
def soutC_0 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) : Vec F S512x128 .f32 :=
  VS0_0.read (Elt F) (VS0_0.writes (Elt F) VS0_0.junk (stepC c t h0 h1 x0 x1 xs0 xs1 xs2).2.2.2.1)
/-- Those pieces tile the accumulator. -/
theorem scoverC_0 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) (y : S512x128.Idx) :
    ∃ pc ∈ (stepC (F := F) c t h0 h1 x0 x1 xs0 xs1 xs2).2.2.2.1, y ∈ pc.1.set :=
  View.cover_of_tiledL (stepC (F := F) c t h0 h1 x0 x1 xs0 xs1 xs2).2.2.2.1 S512x128.size (by sl_kernel_rfl) y

/-- What case C leaves in accumulator 1: its pieces read back. -/
def soutC_1 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) : Vec F S1x128 .f32 :=
  VS0_1.read (Elt F) (VS0_1.writes (Elt F) VS0_1.junk (stepC c t h0 h1 x0 x1 xs0 xs1 xs2).2.2.2.2.1)
/-- Those pieces tile the accumulator. -/
theorem scoverC_1 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) (y : S1x128.Idx) :
    ∃ pc ∈ (stepC (F := F) c t h0 h1 x0 x1 xs0 xs1 xs2).2.2.2.2.1, y ∈ pc.1.set :=
  View.cover_of_tiledL (stepC (F := F) c t h0 h1 x0 x1 xs0 xs1 xs2).2.2.2.2.1 S1x128.size (by sl_kernel_rfl) y

/-- What case C leaves in accumulator 2: its pieces read back. -/
def soutC_2 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) : Vec F S1x512 .f32 :=
  VS0_2.read (Elt F) (VS0_2.writes (Elt F) VS0_2.junk (stepC c t h0 h1 x0 x1 xs0 xs1 xs2).2.2.2.2.2.1)
/-- Those pieces tile the accumulator. -/
theorem scoverC_2 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) (y : S1x512.Idx) :
    ∃ pc ∈ (stepC (F := F) c t h0 h1 x0 x1 xs0 xs1 xs2).2.2.2.2.2.1, y ∈ pc.1.set :=
  View.cover_of_tiledL (stepC (F := F) c t h0 h1 x0 x1 xs0 xs1 xs2).2.2.2.2.2.1 S1x512.size (by sl_kernel_rfl) y

/-- What a core's last step leaves in output block 2: its pieces read back. -/
def outC_2 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) : Vec F S1x512x128 .f32 :=
  VO0_2.read (Elt F) (VO0_2.writes (Elt F) VO0_2.junk (stepC c t h0 h1 x0 x1 xs0 xs1 xs2).1)
theorem coverC_2 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) (y : S1x512x128.Idx) :
    ∃ pc ∈ (stepC (F := F) c t h0 h1 x0 x1 xs0 xs1 xs2).1, y ∈ pc.1.set :=
  View.cover_of_tiledL (stepC (F := F) c t h0 h1 x0 x1 xs0 xs1 xs2).1 S1x512x128.size (by sl_kernel_rfl) y
/-- Away from a core's last step output block 2 is idle: a placeholder nothing consults. -/
def idle_2 : Vec F S1x512x128 .f32 := VO0_2.read (Elt F) VO0_2.junk

/-- What a core's last step leaves in output block 3: its pieces read back. -/
def outC_3 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) : Vec F S1x1x128 .f32 :=
  VO0_3.read (Elt F) (VO0_3.writes (Elt F) VO0_3.junk (stepC c t h0 h1 x0 x1 xs0 xs1 xs2).2.1)
theorem coverC_3 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) (y : S1x1x128.Idx) :
    ∃ pc ∈ (stepC (F := F) c t h0 h1 x0 x1 xs0 xs1 xs2).2.1, y ∈ pc.1.set :=
  View.cover_of_tiledL (stepC (F := F) c t h0 h1 x0 x1 xs0 xs1 xs2).2.1 S1x1x128.size (by sl_kernel_rfl) y
/-- Away from a core's last step output block 3 is idle: a placeholder nothing consults. -/
def idle_3 : Vec F S1x1x128 .f32 := VO0_3.read (Elt F) VO0_3.junk

/-- What a core's last step leaves in output block 4: its pieces read back. -/
def outC_4 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) : Vec F S1x1x512 .f32 :=
  VO0_4.read (Elt F) (VO0_4.writes (Elt F) VO0_4.junk (stepC c t h0 h1 x0 x1 xs0 xs1 xs2).2.2.1)
theorem coverC_4 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) (y : S1x1x512.Idx) :
    ∃ pc ∈ (stepC (F := F) c t h0 h1 x0 x1 xs0 xs1 xs2).2.2.1, y ∈ pc.1.set :=
  View.cover_of_tiledL (stepC (F := F) c t h0 h1 x0 x1 xs0 xs1 xs2).2.2.1 S1x1x512.size (by sl_kernel_rfl) y
/-- Away from a core's last step output block 4 is idle: a placeholder nothing consults. -/
def idle_4 : Vec F S1x1x512 .f32 := VO0_4.read (Elt F) VO0_4.junk

/-! ## The accumulation through the points -/

/-- The three output blocks and the three accumulators after a point. -/
abbrev Six (F : FTy → Type) [FloatOps F] : Type := Vec F S1x512x128 .f32 × Vec F S1x1x128 .f32 × Vec F S1x1x512 .f32 × Vec F S512x128 .f32 × Vec F S1x128 .f32 × Vec F S1x512 .f32

def tupA (c : Dev nD) (t : Fin cfg0.N) (h0 : t.val % 125 = 0) (h1 : ¬t.val % 125 = 124) : Six F :=
  (idle_2, idle_3, idle_4, soutA_0 c t h0 h1 (iblk0 V c 0 t) (iblk0 V c 1 t), soutA_1 c t h0 h1 (iblk0 V c 0 t) (iblk0 V c 1 t), soutA_2 c t h0 h1 (iblk0 V c 0 t) (iblk0 V c 1 t))
def tupB (c : Dev nD) (t : Fin cfg0.N) (h0 : ¬t.val % 125 = 0) (h1 : ¬t.val % 125 = 124) (p : Six F) : Six F :=
  (idle_2, idle_3, idle_4, soutB_0 c t h0 h1 (iblk0 V c 0 t) (iblk0 V c 1 t) p.2.2.2.1 p.2.2.2.2.1 p.2.2.2.2.2, soutB_1 c t h0 h1 (iblk0 V c 0 t) (iblk0 V c 1 t) p.2.2.2.1 p.2.2.2.2.1 p.2.2.2.2.2, soutB_2 c t h0 h1 (iblk0 V c 0 t) (iblk0 V c 1 t) p.2.2.2.1 p.2.2.2.2.1 p.2.2.2.2.2)
def tupC (c : Dev nD) (t : Fin cfg0.N) (h0 : ¬t.val % 125 = 0) (h1 : t.val % 125 = 124) (p : Six F) : Six F :=
  (outC_2 c t h0 h1 (iblk0 V c 0 t) (iblk0 V c 1 t) p.2.2.2.1 p.2.2.2.2.1 p.2.2.2.2.2, outC_3 c t h0 h1 (iblk0 V c 0 t) (iblk0 V c 1 t) p.2.2.2.1 p.2.2.2.2.1 p.2.2.2.2.2, outC_4 c t h0 h1 (iblk0 V c 0 t) (iblk0 V c 1 t) p.2.2.2.1 p.2.2.2.2.1 p.2.2.2.2.2,
   soutC_0 c t h0 h1 (iblk0 V c 0 t) (iblk0 V c 1 t) p.2.2.2.1 p.2.2.2.2.1 p.2.2.2.2.2, soutC_1 c t h0 h1 (iblk0 V c 0 t) (iblk0 V c 1 t) p.2.2.2.1 p.2.2.2.2.1 p.2.2.2.2.2, soutC_2 c t h0 h1 (iblk0 V c 0 t) (iblk0 V c 1 t) p.2.2.2.1 p.2.2.2.2.1 p.2.2.2.2.2)

/-- THE ACCUMULATION: what the output blocks and the accumulators hold after point `n`. -/
def outsAt0 (c : Dev nD) : (n : ℕ) → n < cfg0.N → Six F
  | 0, hn => tupA V c ⟨0, hn⟩ (Nat.zero_mod _) (by show ¬(0 % 125 = 124); decide)
  | n + 1, hn =>
    if h0 : (n + 1) % 125 = 0 then
      if h1 : (n + 1) % 125 = 124 then False.elim (by omega)
      else tupA V c ⟨n + 1, hn⟩ h0 h1
    else
      if h1 : (n + 1) % 125 = 124 then tupC V c ⟨n + 1, hn⟩ h0 h1 (outsAt0 c n (Nat.lt_of_succ_lt hn))
      else tupB V c ⟨n + 1, hn⟩ h0 h1 (outsAt0 c n (Nat.lt_of_succ_lt hn))

theorem outsAt0_A (c : Dev nD) (t : Fin cfg0.N) (h0 : t.val % 125 = 0) (h1 : ¬t.val % 125 = 124) :
    outsAt0 V c t.val t.isLt = tupA V c t h0 h1 := by
  obtain ⟨n, hn⟩ := t
  cases n with
  | zero => exact rfl
  | succ n => exact (dif_pos h0).trans ((dif_neg h1).trans rfl)
theorem outsAt0_B (c : Dev nD) (t : Fin cfg0.N) (h0 : ¬t.val % 125 = 0) (h1 : ¬t.val % 125 = 124) :
    outsAt0 V c t.val t.isLt = tupB V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem outsAt0_C (c : Dev nD) (t : Fin cfg0.N) (h0 : ¬t.val % 125 = 0) (h1 : t.val % 125 = 124) :
    outsAt0 V c t.val t.isLt = tupC V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point the class's invariant (every accumulator at anything); after point `n` the accumulators at
    what that point left, the untouched scoped buffers and the generator register beside them. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2.1) ∗ owns (c : Thread nD τ) scM0_2 fullShare ((outsAt0 V c n hn).2.2.2.2.2) ∗ rest0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2.1) ∗ owns (c : Thread nD τ) scM0_2 fullShare ((outsAt0 V c n hn).2.2.2.2.2) ∗ rest0 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2.1) ∗ owns (c : Thread nD τ) scM0_2 fullShare ((outsAt0 V c (n - 1) (by omega)).2.2.2.2.2) ∗ rest0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t
    ∗ (dat0 V c).leavesExact 2 t ∗ (dat0 V c).leavesExact 3 t ∗ (dat0 V c).leavesExact 4 t)

set_option maxHeartbeats 8000000 in
/-- The body at any point: the closed forms say which of the three ways the point runs; the invariant hands the run the
    accumulators at what the point before left (at anything at the grid's first point) and takes them
    back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 250 := lt_of_lt_of_eq t.isLt (show cfg0.N = 250 from N_0)
  by_cases h0 : t.val % 125 = 0
  · by_cases h1 : t.val % 125 = 124
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold tupA soutA_0 soutA_1 soutA_2; (try dsimp only)
      by_cases hz : t.val = 0
      · rw [PhiS_castSucc V c t, PhiS_zero V c _ _ hz, PhiA0_eq]
        iintro ⟨⟨⟨HS0, HS1, HS2, Hrest⟩, Hg⟩, Ho, ⟨%d0, H0⟩, ⟨%d1, H1⟩, ⟨%d2, H2⟩, ⟨%d3, H3⟩, ⟨%d4, H4⟩⟩
        iapply ((stepA (F := F) c t h0 h1 (iblk0 V c 0 t) (iblk0 V c 1 t)).2.2.2.2.2.2 _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hrest Hg]
        · isplitl [HS0 HS1 HS2 Hrest]
          · isplitl [HS0]
            · unfold owns; iexists _; isplitr
              swap; · iexact HS0
              ipureintro; exact View.read_writes_of_cover _ _ _ _ _ (scoverA_0 c t h0 h1 _ _)
            isplitl [HS1]
            · unfold owns; iexists _; isplitr
              swap; · iexact HS1
              ipureintro; exact View.read_writes_of_cover _ _ _ _ _ (scoverA_1 c t h0 h1 _ _)
            isplitl [HS2]
            · unfold owns; iexists _; isplitr
              swap; · iexact HS2
              ipureintro; exact View.read_writes_of_cover _ _ _ _ _ (scoverA_2 c t h0 h1 _ _)
            iexact Hrest
          iexact Hg
        isplitl [Ho]; · iexact Ho
        isplitl [H0]; · iexact H0
        isplitl [H1]; · iexact H1
        isplitl [H2]; · iexists _; iexact H2
        isplitl [H3]; · iexists _; iexact H3
        iexists _; iexact H4
      · rw [PhiS_castSucc V c t, PhiS_pos V c _ _ hz]
        iintro ⟨⟨⟨HS0, HS1, HS2, Hrest⟩, Hg⟩, Ho, ⟨%d0, H0⟩, ⟨%d1, H1⟩, ⟨%d2, H2⟩, ⟨%d3, H3⟩, ⟨%d4, H4⟩⟩
        iapply ((stepA (F := F) c t h0 h1 (iblk0 V c 0 t) (iblk0 V c 1 t)).2.2.2.2.2.2 _ _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hrest Hg]
        · isplitl [HS0 HS1 HS2 Hrest]
          · isplitl [HS0]
            · unfold owns; iexists _; isplitr
              swap; · iexact HS0
              ipureintro; exact View.read_writes_of_cover _ _ _ _ _ (scoverA_0 c t h0 h1 _ _)
            isplitl [HS1]
            · unfold owns; iexists _; isplitr
              swap; · iexact HS1
              ipureintro; exact View.read_writes_of_cover _ _ _ _ _ (scoverA_1 c t h0 h1 _ _)
            isplitl [HS2]
            · unfold owns; iexists _; isplitr
              swap; · iexact HS2
              ipureintro; exact View.read_writes_of_cover _ _ _ _ _ (scoverA_2 c t h0 h1 _ _)
            iexact Hrest
          iexact Hg
        isplitl [Ho]; · iexact Ho
        isplitl [H0]; · iexact H0
        isplitl [H1]; · iexact H1
        isplitl [H2]; · iexists _; iexact H2
        isplitl [H3]; · iexists _; iexact H3
        iexists _; iexact H4
  · have hz : t.val ≠ 0 := fun e => h0 (by rw [e])
    by_cases h1 : t.val % 125 = 124
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold tupC outC_2 outC_3 outC_4 soutC_0 soutC_1 soutC_2; (try dsimp only)
      rw [PhiS_castSucc V c t, PhiS_pos V c _ _ hz]
      iintro ⟨⟨⟨HS0, HS1, HS2, Hrest⟩, Hg⟩, Ho, ⟨%d0, H0⟩, ⟨%d1, H1⟩, ⟨%d2, H2⟩, ⟨%d3, H3⟩, ⟨%d4, H4⟩⟩
      iapply ((stepC (F := F) c t h0 h1 (iblk0 V c 0 t) (iblk0 V c 1 t) _ _ _).2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      isplitl [HS2]; · iexact HS2
      iintro ⟨H0, H1, ⟨%e2, H2⟩, ⟨%e3, H3⟩, ⟨%e4, H4⟩, ⟨%es0, HS0⟩, ⟨%es1, HS1⟩, ⟨%es2, HS2⟩⟩
      isplitl [HS0 HS1 HS2 Hrest Hg]
      · isplitl [HS0 HS1 HS2 Hrest]
        · isplitl [HS0]
          · unfold owns; iexists _; isplitr
            swap; · iexact HS0
            ipureintro; exact View.read_writes_of_cover _ _ _ _ _ (scoverC_0 c t h0 h1 _ _ _ _ _)
          isplitl [HS1]
          · unfold owns; iexists _; isplitr
            swap; · iexact HS1
            ipureintro; exact View.read_writes_of_cover _ _ _ _ _ (scoverC_1 c t h0 h1 _ _ _ _ _)
          isplitl [HS2]
          · unfold owns; iexists _; isplitr
            swap; · iexact HS2
            ipureintro; exact View.read_writes_of_cover _ _ _ _ _ (scoverC_2 c t h0 h1 _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC_2 c t h0 h1 _ _ _ _ _)
      isplitl [H3]
      · unfold owns; iexists _; isplitr
        swap; · iexact H3
        ipureintro; exact View.read_writes_of_cover _ _ _ _ _ (coverC_3 c t h0 h1 _ _ _ _ _)
      unfold owns; iexists _; isplitr
      swap; · iexact H4
      ipureintro; exact View.read_writes_of_cover _ _ _ _ _ (coverC_4 c t h0 h1 _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold tupB soutB_0 soutB_1 soutB_2; (try dsimp only)
      rw [PhiS_castSucc V c t, PhiS_pos V c _ _ hz]
      iintro ⟨⟨⟨HS0, HS1, HS2, Hrest⟩, Hg⟩, Ho, ⟨%d0, H0⟩, ⟨%d1, H1⟩, ⟨%d2, H2⟩, ⟨%d3, H3⟩, ⟨%d4, H4⟩⟩
      iapply ((stepB (F := F) c t h0 h1 (iblk0 V c 0 t) (iblk0 V c 1 t) _ _ _).2.2.2.2.2.2 _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0]
          · unfold owns; iexists _; isplitr
            swap; · iexact HS0
            ipureintro; exact View.read_writes_of_cover _ _ _ _ _ (scoverB_0 c t h0 h1 _ _ _ _ _)
          isplitl [HS1]
          · unfold owns; iexists _; isplitr
            swap; · iexact HS1
            ipureintro; exact View.read_writes_of_cover _ _ _ _ _ (scoverB_1 c t h0 h1 _ _ _ _ _)
          isplitl [HS2]
          · unfold owns; iexists _; isplitr
            swap; · iexact HS2
            ipureintro; exact View.read_writes_of_cover _ _ _ _ _ (scoverB_2 c t h0 h1 _ _ _ _ _)
          iexact Hrest
        iexact Hg
      isplitl [Ho]; · iexact Ho
      isplitl [H0]; · iexact H0
      isplitl [H1]; · iexact H1
      isplitl [H2]; · iexists _; iexact H2
      isplitl [H3]; · iexists _; iexact H3
      iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulators' named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 250 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HS1, HS2, Hrest⟩, Hg⟩
  isplitl [HS0 HS1 HS2 Hrest]
  · isplitl [HS0]; · iexists _; iexact HS0
    isplitl [HS1]; · iexists _; iexact HS1
    isplitl [HS2]; · iexists _; iexact HS2
    iexact Hrest
  iexact Hg

end

end Cert.Kernel.Fr

end
-- ==== Proof.K.R1Frame.lean ====
/-
  Region 1 is the combine: at each of 125 points it takes a block of 8000 rows of the values, the same rows of the
  pre-gathered table term, the whole 128×128 weight and the bias, and stores one block of the result,
  (values · weight + bias + table term) · ¼.  Nothing is carried between points, so what a point writes back is one
  function of the point's four input blocks.
-/
import proofs.«401576_j111669149722_3_alg».proof.Proof.Gen.Kernel.Launch
import proofs.«401576_j111669149722_3_alg».proof.Proof.Gen.Kernel.Skeleton
import proofs.«401576_j111669149722_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output block -/

abbrev r1_big : Rect S8000x128 := Rect.unit (s := S8000x128) ![0, 0] S8000x128.size inb_S8000x128_S8000x128_0_0
abbrev r1_w : Rect S128x128 := Rect.unit (s := S128x128) ![0, 0] S128x128.size inb_S128x128_S128x128_0_0
abbrev r1_b : Rect S128 := Rect.unit (s := S128) ![0] S128.size inb_S128_S128_0

/-- The output block after the body, from the four input blocks: its one store as a piece. -/
def out1_4 (x0 : Vec F S8000x128 .f32) (x1 : Vec F S8000x128 .bf16) (x2 : Vec F S128x128 .f32) (x3 : Vec F S128 .f32) : Vec F S8000x128 .f32 :=
  View.canon [⟨r1_big, k1_pay1 (View.ld x0 r1_big) (View.ld x2 r1_w) (View.ld x3 r1_b) (View.ld x1 r1_big)⟩]

theorem cover1_4 (p0 : Vec F S8000x128 .f32) (y : S8000x128.Idx) :
    ∃ pc ∈ ([⟨r1_big, p0⟩] : List (View.Piece (Elt F) S8000x128 .f32)), y ∈ pc.1.set :=
  View.cover_of_tiled [⟨r1_big, p0⟩] S8000x128.size (by rfl) y

set_option maxHeartbeats 2000000 in
/-- The kernel function on whole staging memrefs, the inputs' at their contents and the output's at anything, runs to the
    continuation holding the inputs' as they were and the output's at `out1_4` of the inputs'. -/
theorem sound_kernel1 (c : Dev nD) (E : Set ℕ) (i : grid1.Coords) (arg1 : Memref sig .tc .vmem S8000x128 .f32) (harg1 : arg1.IsWhole) (arg2 : Memref sig .tc .vmem S8000x128 .bf16) (harg2 : arg2.IsWhole) (arg3 : Memref sig .tc .vmem S128x128 .f32) (harg3 : arg3.IsWhole) (arg4 : Memref sig .tc .vmem S128 .f32) (harg4 : arg4.IsWhole) (arg5 : Memref sig .tc .vmem S8000x128 .f32) (harg5 : arg5.IsWhole)
    (x0 : Vec F S8000x128 .f32) (x1 : Vec F S8000x128 .bf16) (x2 : Vec F S128x128 .f32) (x3 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data and the body obligation -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end

end Cert.Kernel.Fr

end
-- ==== Proof.K.Run.lean ====
/-
  The whole program as four segments: the host operations before the first kernel (the point-axis table and the
  reshaped row indices), region 0 (the per-core camera-axis sums), the host operations between the kernels (the two
  cores' parts added, the camera-axis table, the global-mean row, the two gathers and their sum), and region 1 (the
  combine).  The contents of the core's unscoped buffers are followed from the launch memory through the four segments;
  at the end every unscoped buffer holds what that fold says, which gives both the frame (no argument array is written)
  and the result array as what region 1's write-backs leave.
-/
import proofs.«401576_j111669149722_3_alg».proof.Proof.K.R0Frame
import proofs.«401576_j111669149722_3_alg».proof.Proof.K.R1Frame
import proofs.«401576_j111669149722_3_alg».proof.Proof.Gen.Kernel.Regions
import Idealize.ShloMosaic.Lib.Pipeline.RegionsLoop

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: the result array at what its write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No segment writes an argument -/

theorem W1_keep (c : Dev nD) (r : Ref sig .tc) (h : r ∉ hostOps0_W) : W1 m ρ c (Proc.devRef .tc r) = m ((c : Thread nD τ).loc r) :=
  (StableHlo.after_of_writes_sub hostOps0 _ hostOps0_writes h).trans rfl
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
/-- A buffer that is no array of either region and that no host operation writes ends as launched. -/
theorem W4_keep (c : Dev nD) (r : Ref sig .tc) (h4 : ∀ w, Pipeline.arrRef spec1 w ≠ r) (h3 : r ∉ hostOps1_W)
    (h2 : ∀ w, Pipeline.arrRef spec0 w ≠ r) (h1 : r ∉ hostOps0_W) : W4 m ρ c (Proc.devRef .tc r) = m ((c : Thread nD τ).loc r) :=
  (W4_of_ne m ρ c r h4).trans ((W3_keep m ρ c r h3).trans ((W2_of_ne m ρ c r h2).trans (W1_keep m ρ c r h1)))

/-- The values are read by both regions and written by neither. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_keep m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_keep m ρ c main_arg0 (by decide)
/-- The combine's weight and bias are read by region 1 only. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 2).trans (((dat1 (V3 m ρ) c).arrAt_in 2 rfl _).trans (A_eq1 (V3 m ρ) c 2))
    _ = W2 m ρ c (Proc.devRef .tc main_arg3) := W3_keep m ρ c main_arg3 (by decide)
    _ = W1 m ρ c (Proc.devRef .tc main_arg3) := W2_of_ne m ρ c main_arg3 (by decide)
    _ = m ((c : Thread nD τ).loc main_arg3) := W1_keep m ρ c main_arg3 (by decide)
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 3).trans (((dat1 (V3 m ρ) c).arrAt_in 3 rfl _).trans (A_eq1 (V3 m ρ) c 3))
    _ = W2 m ρ c (Proc.devRef .tc main_arg4) := W3_keep m ρ c main_arg4 (by decide)
    _ = W1 m ρ c (Proc.devRef .tc main_arg4) := W2_of_ne m ρ c main_arg4 (by decide)
    _ = m ((c : Thread nD τ).loc main_arg4) := W1_keep m ρ c main_arg4 (by decide)
theorem W4_main_arg1 (c : Dev nD) : W4 m ρ c (Proc.devRef .tc main_arg1) = m ((c : Thread nD τ).loc main_arg1) := W4_keep m ρ c main_arg1 (by decide) (by decide) (by decide) (by decide)
theorem W4_main_arg2 (c : Dev nD) : W4 m ρ c (Proc.devRef .tc main_arg2) = m ((c : Thread nD τ).loc main_arg2) := W4_keep m ρ c main_arg2 (by decide) (by decide) (by decide) (by decide)
theorem W4_main_arg5 (c : Dev nD) : W4 m ρ c (Proc.devRef .tc main_arg5) = m ((c : Thread nD τ).loc main_arg5) := W4_keep m ρ c main_arg5 (by decide) (by decide) (by decide) (by decide)
theorem W4_main_arg6 (c : Dev nD) : W4 m ρ c (Proc.devRef .tc main_arg6) = m ((c : Thread nD τ).loc main_arg6) := W4_keep m ρ c main_arg6 (by decide) (by decide) (by decide) (by decide)
theorem W4_main_arg7 (c : Dev nD) : W4 m ρ c (Proc.devRef .tc main_arg7) = m ((c : Thread nD τ).loc main_arg7) := W4_keep m ρ c main_arg7 (by decide) (by decide) (by decide) (by decide)
theorem W4_main_arg8 (c : Dev nD) : W4 m ρ c (Proc.devRef .tc main_arg8) = m ((c : Thread nD τ).loc main_arg8) := W4_keep m ρ c main_arg8 (by decide) (by decide) (by decide) (by decide)
theorem W4_main_arg9 (c : Dev nD) : W4 m ρ c (Proc.devRef .tc main_arg9) = m ((c : Thread nD τ).loc main_arg9) := W4_keep m ρ c main_arg9 (by decide) (by decide) (by decide) (by decide)
theorem W4_main_arg10 (c : Dev nD) : W4 m ρ c (Proc.devRef .tc main_arg10) = m ((c : Thread nD τ).loc main_arg10) := W4_keep m ρ c main_arg10 (by decide) (by decide) (by decide) (by decide)

/-- The result array ends at what region 1's write-backs leave. -/
theorem W4_main_v67 (c : Dev nD) : W4 m ρ c (Proc.devRef .tc main_v67) = (dat1 (V3 m ρ) c).arrAt 4 cfg1.N := W4_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: its arrays split out of the unscoped buffers and put back at the exit contents;
    the generator register and the scoped rest into the invariant (which names the accumulators between points) and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (show (pdats m ρ 0 c).Φ (Fin.last _) ⊢ Pipeline.ΦA spec0 c from hout0 (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state, entered from the contents after the host operations between the kernels. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds every unscoped buffer of the core at what the fold through the four segments says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array and the eleven argument arrays at the end of every execution. -/
theorem run_result : θ_run defs (onTc (τ := τ) (main (F := F))) ⟨m, fun _ => 0, ρ⟩ (fun r => ∀ c : Dev nD,
      r.2.mem ((c.tc : Thread nD τ).loc main_v67) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_v67 (by decide))).trans (W4_main_v67 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c)⟩) (run_all m ρ)

/-- The frame: every execution terminates, nothing faulting, and the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_result m ρ)

end Cert.Kernel.Fr

end
-- ==== Proof.KI.R0Base.lean ====
/-
  Region 0 is the per-core pass over the entries: the grid is 2 cores × 125 steps, a step reads a block of 4000 rows of
  the values and of the row indices, and three scratch accumulators (the 512×128 one-hot sums, the 1×128 plain sums, the
  1×512 one-hot counts) are carried from step to step: zeroed at a core's first step, added to at every step, copied to the
  three output blocks at the core's last step.  This module holds what the three control cases share: a window's block at
  a point, the two conditions in closed form over the grid (step 0 of a core; step 124 of a core), where the output
  windows are idle, the memrefs a point runs on, and the region's invariant with the scratch buffers named.
-/
import proofs.«401576_j111669149722_3_alg».proof.Proof.Gen.KernelIdeal.Launch
import proofs.«401576_j111669149722_3_alg».proof.Proof.Gen.KernelIdeal.Skeleton
import proofs.«401576_j111669149722_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The values' staging buffer holds the point's block of 4000 rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The row indices' staging buffer holds the point's block of 4000 indices at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The two conditions, in closed form over the grid -/

/-- "This is a core's first step": the reset of the accumulators is taken. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 125 = 0 :=
  (by decide +kernel : ∀ t : Fin grid0.N, cond0_0 (grid0.coords t) ↔ t.val % 125 = 0)

/-- "This is a core's last step": the accumulators are copied out. -/
abbrev cond0_1 (i : grid0.Coords) : Prop := k0_cond2 i = 1#1
theorem hcond0_1 : ∀ t : Fin cfg0.N, cond0_1 (grid0.coords t) ↔ t.val % 125 = 124 :=
  (by decide +kernel : ∀ t : Fin grid0.N, cond0_1 (grid0.coords t) ↔ t.val % 125 = 124)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from a core's last step the three outputs are idle and not written back. -/
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
/-- At a core's last step they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The memrefs a point runs on -/

abbrev VO0_2 : View sig .tc .vmem S1x512x128 .f32 := (Memref.whole cc0_stg2_0 : Memref sig .tc .vmem S1x512x128 .f32).view
abbrev VO0_3 : View sig .tc .vmem S1x1x128 .f32 := (Memref.whole cc0_stg3_0 : Memref sig .tc .vmem S1x1x128 .f32).view
abbrev VO0_4 : View sig .tc .vmem S1x1x512 .f32 := (Memref.whole cc0_stg4_0 : Memref sig .tc .vmem S1x1x512 .f32).view
abbrev ms0_0 (t : Fin cfg0.N) : Memref sig .tc .vmem S4000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4000x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)
/-- The three accumulators: whole scoped buffers of the kernel's own. -/
abbrev scM0_0 : Memref sig .tc .vmem S512x128 .f32 := Memref.whole cc0_scratch0
abbrev scM0_1 : Memref sig .tc .vmem S1x128 .f32 := Memref.whole cc0_scratch1
abbrev scM0_2 : Memref sig .tc .vmem S1x512 .f32 := Memref.whole cc0_scratch2
abbrev VS0_0 : View sig .tc .vmem S512x128 .f32 := scM0_0.view
abbrev VS0_1 : View sig .tc .vmem S1x128 .f32 := scM0_1.view
abbrev VS0_2 : View sig .tc .vmem S1x512 .f32 := scM0_2.view

/-- The scoped buffers of the core that region 0 never touches (the other region's staging buffers), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant of region 0 with the three accumulators as memrefs owned at some contents, the untouched
    scoped buffers and the generator register beside them. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ rest0 (F := F) c) ∗ (∃ r, prngReg c r)) := by
  unfold Pipeline.ΦA rest0; rw [scopedRest0_eq]; simp only [scM0_0, scM0_1, scM0_2, owns_whole]; try rfl

end Cert.KernelIdeal.Fr

end
-- ==== Proof.KI.R0RunA.lean ====
/-
  Region 0 at a core's FIRST step: the three accumulators are zeroed and then this block's one-hot sums, plain sums and one-hot counts are added to the zeros; the output blocks are left as found.
-/
import proofs.«401576_j111669149722_3_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the step's stores leave in each accumulator (and, at a core's last step, in each output block), with the
    proof that on whole memrefs the kernel function runs to the continuation holding exactly those pieces written. -/
noncomputable def kernelRun0_A (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S1x512x128 .f32) (harg4 : arg4.IsWhole) (arg5 : Memref sig .tc .vmem S1x1x128 .f32) (harg5 : arg5.IsWhole) (arg6 : Memref sig .tc .vmem S1x1x512 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S1x512 .f32) (harg9 : arg9.IsWhole) (hc0 : cond0_0 i) (hc1 : ¬cond0_1 i)
    (x0 : Vec F S4000x128 .f32) (x1 : Vec F S4000x1 .i32) :
    Σ' (L2 : List (View.Piece (Elt F) S1x512x128 .f32)), Σ' (L3 : List (View.Piece (Elt F) S1x1x128 .f32)), Σ' (L4 : List (View.Piece (Elt F) S1x1x512 .f32)), Σ' (LS0 : List (View.Piece (Elt F) S512x128 .f32)), Σ' (LS1 : List (View.Piece (Elt F) S1x128 .f32)), { LS2 : List (View.Piece (Elt F) S1x512 .f32) //
      ∀ (xi2 : Vec F S1x512x128 .f32) (xi3 : Vec F S1x1x128 .f32) (xi4 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__row_seg_kernel i arg2 harg2 arg3 harg3 arg4 harg4 arg5 harg5 arg6 harg6 arg7 harg7 arg8 harg8 arg9 harg9) K } := by
  refine ⟨[], [], [], ?_, ?_, ?_, fun xi2 xi3 xi4 E K => ?run⟩
  case run =>
    simp only [cc0__row_seg_kernel_eq_skeleton]; unfold cc0__row_seg_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Fr

end
-- ==== Proof.KI.R0RunB.lean ====
/-
  Region 0 at a MIDDLE step of a core: this block's one-hot sums, plain sums and one-hot counts are added to what the step before left in the three accumulators; the output blocks are left as found.
-/
import proofs.«401576_j111669149722_3_alg».proof.Proof.KI.R0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the step's stores leave in each accumulator (and, at a core's last step, in each output block), with the
    proof that on whole memrefs the kernel function runs to the continuation holding exactly those pieces written. -/
noncomputable def kernelRun0_B (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S1x512x128 .f32) (harg4 : arg4.IsWhole) (arg5 : Memref sig .tc .vmem S1x1x128 .f32) (harg5 : arg5.IsWhole) (arg6 : Memref sig .tc .vmem S1x1x512 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S1x512 .f32) (harg9 : arg9.IsWhole) (hc0 : ¬cond0_0 i) (hc1 : ¬cond0_1 i)
    (x0 : Vec F S4000x128 .f32) (x1 : Vec F S4000x1 .i32) (xs0 : Vec F S512x128 .f32) (xs1 : Vec F S1x128 .f32) (xs2 : Vec F S1x512 .f32) :
    Σ' (L2 : List (View.Piece (Elt F) S1x512x128 .f32)), Σ' (L3 : List (View.Piece (Elt F) S1x1x128 .f32)), Σ' (L4 : List (View.Piece (Elt F) S1x1x512 .f32)), Σ' (LS0 : List (View.Piece (Elt F) S512x128 .f32)), Σ' (LS1 : List (View.Piece (Elt F) S1x128 .f32)), { LS2 : List (View.Piece (Elt F) S1x512 .f32) //
      ∀ (xi2 : Vec F S1x512x128 .f32) (xi3 : Vec F S1x1x128 .f32) (xi4 : Vec F S1x1x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__row_seg_kernel i arg2 harg2 arg3 harg3 arg4 harg4 arg5 harg5 arg6 harg6 arg7 harg7 arg8 harg8 arg9 harg9) K } := by
  refine ⟨[], [], [], ?_, ?_, ?_, fun xi2 xi3 xi4 E K => ?run⟩
  case run =>
    simp only [cc0__row_seg_kernel_eq_skeleton]; unfold cc0__row_seg_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Fr

end
-- ==== Proof.KI.R0RunC.lean ====
/-
  Region 0 at a core's LAST step: the accumulators take this block's contributions as at a middle step, and are then copied whole into the three output blocks.
-/
import proofs.«401576_j111669149722_3_alg».proof.Proof.KI.R0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the step's stores leave in each accumulator (and, at a core's last step, in each output block), with the
    proof that on whole memrefs the kernel function runs to the continuation holding exactly those pieces written. -/
noncomputable def kernelRun0_C (c : Dev nD) (i : grid0.Coords) (arg2 : Memref sig .tc .vmem S4000x128 .f32) (harg2 : arg2.IsWhole) (arg3 : Memref sig .tc .vmem S4000x1 .i32) (harg3 : arg3.IsWhole) (arg4 : Memref sig .tc .vmem S1x512x128 .f32) (harg4 : arg4.IsWhole) (arg5 : Memref sig .tc .vmem S1x1x128 .f32) (harg5 : arg5.IsWhole) (arg6 : Memref sig .tc .vmem S1x1x512 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S1x512 .f32) (harg9 : arg9.IsWhole) (hc0 : ¬cond0_0 i) (hc1 : cond0_1 i)
    (x0 : Vec F S4000x128 .f32) (x1 : Vec F S4000x1 .i32) (xs0 : Vec F S512x128 .f32) (xs1 : Vec F S1x128 .f32) (xs2 : Vec F S1x512 .f32) :
    Σ' (L2 : List (View.Piece (Elt F) S1x512x128 .f32)), Σ' (L3 : List (View.Piece (Elt F) S1x1x128 .f32)), Σ' (L4 : List (View.Piece (Elt F) S1x1x512 .f32)), Σ' (LS0 : List (View.Piece (Elt F) S512x128 .f32)), Σ' (LS1 : List (View.Piece (Elt F) S1x128 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__row_seg_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__row_seg_kernel_eq_skeleton]; unfold cc0__row_seg_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.KernelIdeal.Fr

end
-- ==== Proof.KI.R0Frame.lean ====
/-
  Region 0, point by point.  At a point the kernel function runs in one of three ways (a core's first step, a middle
  step, a core's last step); each leaves pieces in the three accumulators, and the last step also in the three output
  blocks.  `outsAt0` follows the accumulators (and the output blocks) through the 250 points by recursion: a first step
  starts from zeros, every other step from what the point before left.  The region's invariant holds the accumulators at
  exactly those contents between points, which is what lets the last step's copy-out be named.
-/
import proofs.«401576_j111669149722_3_alg».proof.Proof.KI.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The three runs at a grid point -/

/-- The run of case A at point `t`, on the point's own memrefs. -/
noncomputable abbrev stepA (c : Dev nD) (t : Fin cfg0.N) (h0 : t.val % 125 = 0) (h1 : ¬t.val % 125 = 124) (x0 : Vec F S4000x128 .f32) (x1 : Vec F S4000x1 .i32) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) x0 x1

/-- What case A leaves in accumulator 0: its pieces read back. -/
def soutA_0 (c : Dev nD) (t : Fin cfg0.N) (h0 : t.val % 125 = 0) (h1 : ¬t.val % 125 = 124) (x0 : Vec F S4000x128 .f32) (x1 : Vec F S4000x1 .i32) : Vec F S512x128 .f32 :=
  VS0_0.read (Elt F) (VS0_0.writes (Elt F) VS0_0.junk (stepA c t h0 h1 x0 x1).2.2.2.1)
/-- Those pieces tile the accumulator. -/
theorem scoverA_0 (c : Dev nD) (t : Fin cfg0.N) (h0 : t.val % 125 = 0) (h1 : ¬t.val % 125 = 124) (x0 : Vec F S4000x128 .f32) (x1 : Vec F S4000x1 .i32) (y : S512x128.Idx) :
    ∃ pc ∈ (stepA (F := F) c t h0 h1 x0 x1).2.2.2.1, y ∈ pc.1.set :=
  View.cover_of_tiledL (stepA (F := F) c t h0 h1 x0 x1).2.2.2.1 S512x128.size (by sl_kernel_rfl) y

/-- What case A leaves in accumulator 1: its pieces read back. -/
def soutA_1 (c : Dev nD) (t : Fin cfg0.N) (h0 : t.val % 125 = 0) (h1 : ¬t.val % 125 = 124) (x0 : Vec F S4000x128 .f32) (x1 : Vec F S4000x1 .i32) : Vec F S1x128 .f32 :=
  VS0_1.read (Elt F) (VS0_1.writes (Elt F) VS0_1.junk (stepA c t h0 h1 x0 x1).2.2.2.2.1)
/-- Those pieces tile the accumulator. -/
theorem scoverA_1 (c : Dev nD) (t : Fin cfg0.N) (h0 : t.val % 125 = 0) (h1 : ¬t.val % 125 = 124) (x0 : Vec F S4000x128 .f32) (x1 : Vec F S4000x1 .i32) (y : S1x128.Idx) :
    ∃ pc ∈ (stepA (F := F) c t h0 h1 x0 x1).2.2.2.2.1, y ∈ pc.1.set :=
  View.cover_of_tiledL (stepA (F := F) c t h0 h1 x0 x1).2.2.2.2.1 S1x128.size (by sl_kernel_rfl) y

/-- What case A leaves in accumulator 2: its pieces read back. -/
def soutA_2 (c : Dev nD) (t : Fin cfg0.N) (h0 : t.val % 125 = 0) (h1 : ¬t.val % 125 = 124) (x0 : Vec F S4000x128 .f32) (x1 : Vec F S4000x1 .i32) : Vec F S1x512 .f32 :=
  VS0_2.read (Elt F) (VS0_2.writes (Elt F) VS0_2.junk (stepA c t h0 h1 x0 x1).2.2.2.2.2.1)
/-- Those pieces tile the accumulator. -/
theorem scoverA_2 (c : Dev nD) (t : Fin cfg0.N) (h0 : t.val % 125 = 0) (h1 : ¬t.val % 125 = 124) (x0 : Vec F S4000x128 .f32) (x1 : Vec F S4000x1 .i32) (y : S1x512.Idx) :
    ∃ pc ∈ (stepA (F := F) c t h0 h1 x0 x1).2.2.2.2.2.1, y ∈ pc.1.set :=
  View.cover_of_tiledL (stepA (F := F) c t h0 h1 x0 x1).2.2.2.2.2.1 S1x512.size (by sl_kernel_rfl) y

/-- The run of case B at point `t`, on the point's own memrefs. -/
noncomputable abbrev stepB (c : Dev nD) (t : Fin cfg0.N) (h0 : ¬t.val % 125 = 0) (h1 : ¬t.val % 125 = 124) (x0 : Vec F S4000x128 .f32) (x1 : Vec F S4000x1 .i32) (xs0 : Vec F S512x128 .f32) (xs1 : Vec F S1x128 .f32) (xs2 : Vec F S1x512 .f32) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) x0 x1 xs0 xs1 xs2

/-- What case B leaves in accumulator 0: its pieces read back. -/
def soutB_0 (c : Dev nD) (t : Fin cfg0.N) (h0 : ¬t.val % 125 = 0) (h1 : ¬t.val % 125 = 124) (x0 : Vec F S4000x128 .f32) (x1 : Vec F S4000x1 .i32) (xs0 : Vec F S512x128 .f32) (xs1 : Vec F S1x128 .f32) (xs2 : Vec F S1x512 .f32) : Vec F S512x128 .f32 :=
  VS0_0.read (Elt F) (VS0_0.writes (Elt F) VS0_0.junk (stepB c t h0 h1 x0 x1 xs0 xs1 xs2).2.2.2.1)
/-- Those pieces tile the accumulator. -/
theorem scoverB_0 (c : Dev nD) (t : Fin cfg0.N) (h0 : ¬t.val % 125 = 0) (h1 : ¬t.val % 125 = 124) (x0 : Vec F S4000x128 .f32) (x1 : Vec F S4000x1 .i32) (xs0 : Vec F S512x128 .f32) (xs1 : Vec F S1x128 .f32) (xs2 : Vec F S1x512 .f32) (y : S512x128.Idx) :
    ∃ pc ∈ (stepB (F := F) c t h0 h1 x0 x1 xs0 xs1 xs2).2.2.2.1, y ∈ pc.1.set :=
  View.cover_of_tiledL (stepB (F := F) c t h0 h1 x0 x1 xs0 xs1 xs2).2.2.2.1 S512x128.size (by sl_kernel_rfl) y

/-- What case B leaves in accumulator 1: its pieces read back. -/
def soutB_1 (c : Dev nD) (t : Fin cfg0.N) (h0 : ¬t.val % 125 = 0) (h1 : ¬t.val % 125 = 124) (x0 : Vec F S4000x128 .f32) (x1 : Vec F S4000x1 .i32) (xs0 : Vec F S512x128 .f32) (xs1 : Vec F S1x128 .f32) (xs2 : Vec F S1x512 .f32) : Vec F S1x128 .f32 :=
  VS0_1.read (Elt F) (VS0_1.writes (Elt F) VS0_1.junk (stepB c t h0 h1 x0 x1 xs0 xs1 xs2).2.2.2.2.1)
/-- Those pieces tile the accumulator. -/
theorem scoverB_1 (c : Dev nD) (t : Fin cfg0.N) (h0 : ¬t.val % 125 = 0) (h1 : ¬t.val % 125 = 124) (x0 : Vec F S4000x128 .f32) (x1 : Vec F S4000x1 .i32) (xs0 : Vec F S512x128 .f32) (xs1 : Vec F S1x128 .f32) (xs2 : Vec F S1x512 .f32) (y : S1x128.Idx) :
    ∃ pc ∈ (stepB (F := F) c t h0 h1 x0 x1 xs0 xs1 xs2).2.2.2.2.1, y ∈ pc.1.set :=
  View.cover_of_tiledL (stepB (F := F) c t h0 h1 x0 x1 xs0 xs1 xs2).2.2.2.2.1 S1x128.size (by sl_kernel_rfl) y

/-- What case B leaves in accumulator 2: its pieces read back. -/
def soutB_2 (c : Dev nD) (t : Fin cfg0.N) (h0 : ¬t.val % 125 = 0) (h1 : ¬t.val % 125 = 124) (x0 : Vec F S4000x128 .f32) (x1 : Vec F S4000x1 .i32) (xs0 : Vec F S512x128 .f32) (xs1 : Vec F S1x128 .f32) (xs2 : Vec F S1x512 .f32) : Vec F S1x512 .f32 :=
  VS0_2.read (Elt F) (VS0_2.writes (Elt F) VS0_2.junk (stepB c t h0 h1 x0 x1 xs0 xs1 xs2).2.2.2.2.2.1)
/-- Those pieces tile the accumulator. -/
theorem scoverB_2 (c : Dev nD) (t : Fin cfg0.N) (h0 : ¬t.val % 125 = 0) (h1 : ¬t.val % 125 = 124) (x0 : Vec F S4000x128 .f32) (x1 : Vec F S4000x1 .i32) (xs0 : Vec F S512x128 .f32) (xs1 : Vec F S1x128 .f32) (xs2 : Vec F S1x512 .f32) (y : S1x512.Idx) :
    ∃ pc ∈ (stepB (F := F) c t h0 h1 x0 x1 xs0 xs1 xs2).2.2.2.2.2.1, y ∈ pc.1.set :=
  View.cover_of_tiledL (stepB (F := F) c t h0 h1 x0 x1 xs0 xs1 xs2).2.2.2.2.2.1 S1x512.size (by sl_kernel_rfl) y

/-- The run of case C at point `t`, on the point's own memrefs. -/
noncomputable abbrev stepC (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) x0 x1 xs0 xs1 xs2

/-- What case C leaves in accumulator 0: its pieces read back. -/
def soutC_0 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) : Vec F S512x128 .f32 :=
  VS0_0.read (Elt F) (VS0_0.writes (Elt F) VS0_0.junk (stepC c t h0 h1 x0 x1 xs0 xs1 xs2).2.2.2.1)
/-- Those pieces tile the accumulator. -/
theorem scoverC_0 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) (y : S512x128.Idx) :
    ∃ pc ∈ (stepC (F := F) c t h0 h1 x0 x1 xs0 xs1 xs2).2.2.2.1, y ∈ pc.1.set :=
  View.cover_of_tiledL (stepC (F := F) c t h0 h1 x0 x1 xs0 xs1 xs2).2.2.2.1 S512x128.size (by sl_kernel_rfl) y

/-- What case C leaves in accumulator 1: its pieces read back. -/
def soutC_1 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) : Vec F S1x128 .f32 :=
  VS0_1.read (Elt F) (VS0_1.writes (Elt F) VS0_1.junk (stepC c t h0 h1 x0 x1 xs0 xs1 xs2).2.2.2.2.1)
/-- Those pieces tile the accumulator. -/
theorem scoverC_1 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) (y : S1x128.Idx) :
    ∃ pc ∈ (stepC (F := F) c t h0 h1 x0 x1 xs0 xs1 xs2).2.2.2.2.1, y ∈ pc.1.set :=
  View.cover_of_tiledL (stepC (F := F) c t h0 h1 x0 x1 xs0 xs1 xs2).2.2.2.2.1 S1x128.size (by sl_kernel_rfl) y

/-- What case C leaves in accumulator 2: its pieces read back. -/
def soutC_2 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) : Vec F S1x512 .f32 :=
  VS0_2.read (Elt F) (VS0_2.writes (Elt F) VS0_2.junk (stepC c t h0 h1 x0 x1 xs0 xs1 xs2).2.2.2.2.2.1)
/-- Those pieces tile the accumulator. -/
theorem scoverC_2 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) (y : S1x512.Idx) :
    ∃ pc ∈ (stepC (F := F) c t h0 h1 x0 x1 xs0 xs1 xs2).2.2.2.2.2.1, y ∈ pc.1.set :=
  View.cover_of_tiledL (stepC (F := F) c t h0 h1 x0 x1 xs0 xs1 xs2).2.2.2.2.2.1 S1x512.size (by sl_kernel_rfl) y

/-- What a core's last step leaves in output block 2: its pieces read back. -/
def outC_2 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) : Vec F S1x512x128 .f32 :=
  VO0_2.read (Elt F) (VO0_2.writes (Elt F) VO0_2.junk (stepC c t h0 h1 x0 x1 xs0 xs1 xs2).1)
theorem coverC_2 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) (y : S1x512x128.Idx) :
    ∃ pc ∈ (stepC (F := F) c t h0 h1 x0 x1 xs0 xs1 xs2).1, y ∈ pc.1.set :=
  View.cover_of_tiledL (stepC (F := F) c t h0 h1 x0 x1 xs0 xs1 xs2).1 S1x512x128.size (by sl_kernel_rfl) y
/-- Away from a core's last step output block 2 is idle: a placeholder nothing consults. -/
def idle_2 : Vec F S1x512x128 .f32 := VO0_2.read (Elt F) VO0_2.junk

/-- What a core's last step leaves in output block 3: its pieces read back. -/
def outC_3 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) : Vec F S1x1x128 .f32 :=
  VO0_3.read (Elt F) (VO0_3.writes (Elt F) VO0_3.junk (stepC c t h0 h1 x0 x1 xs0 xs1 xs2).2.1)
theorem coverC_3 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) (y : S1x1x128.Idx) :
    ∃ pc ∈ (stepC (F := F) c t h0 h1 x0 x1 xs0 xs1 xs2).2.1, y ∈ pc.1.set :=
  View.cover_of_tiledL (stepC (F := F) c t h0 h1 x0 x1 xs0 xs1 xs2).2.1 S1x1x128.size (by sl_kernel_rfl) y
/-- Away from a core's last step output block 3 is idle: a placeholder nothing consults. -/
def idle_3 : Vec F S1x1x128 .f32 := VO0_3.read (Elt F) VO0_3.junk

/-- What a core's last step leaves in output block 4: its pieces read back. -/
def outC_4 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) : Vec F S1x1x512 .f32 :=
  VO0_4.read (Elt F) (VO0_4.writes (Elt F) VO0_4.junk (stepC c t h0 h1 x0 x1 xs0 xs1 xs2).2.2.1)
theorem coverC_4 (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) (y : S1x1x512.Idx) :
    ∃ pc ∈ (stepC (F := F) c t h0 h1 x0 x1 xs0 xs1 xs2).2.2.1, y ∈ pc.1.set :=
  View.cover_of_tiledL (stepC (F := F) c t h0 h1 x0 x1 xs0 xs1 xs2).2.2.1 S1x1x512.size (by sl_kernel_rfl) y
/-- Away from a core's last step output block 4 is idle: a placeholder nothing consults. -/
def idle_4 : Vec F S1x1x512 .f32 := VO0_4.read (Elt F) VO0_4.junk

/-! ## The accumulation through the points -/

/-- The three output blocks and the three accumulators after a point. -/
abbrev Six (F : FTy → Type) [FloatOps F] : Type := Vec F S1x512x128 .f32 × Vec F S1x1x128 .f32 × Vec F S1x1x512 .f32 × Vec F S512x128 .f32 × Vec F S1x128 .f32 × Vec F S1x512 .f32

def tupA (c : Dev nD) (t : Fin cfg0.N) (h0 : t.val % 125 = 0) (h1 : ¬t.val % 125 = 124) : Six F :=
  (idle_2, idle_3, idle_4, soutA_0 c t h0 h1 (iblk0 V c 0 t) (iblk0 V c 1 t), soutA_1 c t h0 h1 (iblk0 V c 0 t) (iblk0 V c 1 t), soutA_2 c t h0 h1 (iblk0 V c 0 t) (iblk0 V c 1 t))
def tupB (c : Dev nD) (t : Fin cfg0.N) (h0 : ¬t.val % 125 = 0) (h1 : ¬t.val % 125 = 124) (p : Six F) : Six F :=
  (idle_2, idle_3, idle_4, soutB_0 c t h0 h1 (iblk0 V c 0 t) (iblk0 V c 1 t) p.2.2.2.1 p.2.2.2.2.1 p.2.2.2.2.2, soutB_1 c t h0 h1 (iblk0 V c 0 t) (iblk0 V c 1 t) p.2.2.2.1 p.2.2.2.2.1 p.2.2.2.2.2, soutB_2 c t h0 h1 (iblk0 V c 0 t) (iblk0 V c 1 t) p.2.2.2.1 p.2.2.2.2.1 p.2.2.2.2.2)
def tupC (c : Dev nD) (t : Fin cfg0.N) (h0 : ¬t.val % 125 = 0) (h1 : t.val % 125 = 124) (p : Six F) : Six F :=
  (outC_2 c t h0 h1 (iblk0 V c 0 t) (iblk0 V c 1 t) p.2.2.2.1 p.2.2.2.2.1 p.2.2.2.2.2, outC_3 c t h0 h1 (iblk0 V c 0 t) (iblk0 V c 1 t) p.2.2.2.1 p.2.2.2.2.1 p.2.2.2.2.2, outC_4 c t h0 h1 (iblk0 V c 0 t) (iblk0 V c 1 t) p.2.2.2.1 p.2.2.2.2.1 p.2.2.2.2.2,
   soutC_0 c t h0 h1 (iblk0 V c 0 t) (iblk0 V c 1 t) p.2.2.2.1 p.2.2.2.2.1 p.2.2.2.2.2, soutC_1 c t h0 h1 (iblk0 V c 0 t) (iblk0 V c 1 t) p.2.2.2.1 p.2.2.2.2.1 p.2.2.2.2.2, soutC_2 c t h0 h1 (iblk0 V c 0 t) (iblk0 V c 1 t) p.2.2.2.1 p.2.2.2.2.1 p.2.2.2.2.2)

/-- THE ACCUMULATION: what the output blocks and the accumulators hold after point `n`. -/
def outsAt0 (c : Dev nD) : (n : ℕ) → n < cfg0.N → Six F
  | 0, hn => tupA V c ⟨0, hn⟩ (Nat.zero_mod _) (by show ¬(0 % 125 = 124); decide)
  | n + 1, hn =>
    if h0 : (n + 1) % 125 = 0 then
      if h1 : (n + 1) % 125 = 124 then False.elim (by omega)
      else tupA V c ⟨n + 1, hn⟩ h0 h1
    else
      if h1 : (n + 1) % 125 = 124 then tupC V c ⟨n + 1, hn⟩ h0 h1 (outsAt0 c n (Nat.lt_of_succ_lt hn))
      else tupB V c ⟨n + 1, hn⟩ h0 h1 (outsAt0 c n (Nat.lt_of_succ_lt hn))

theorem outsAt0_A (c : Dev nD) (t : Fin cfg0.N) (h0 : t.val % 125 = 0) (h1 : ¬t.val % 125 = 124) :
    outsAt0 V c t.val t.isLt = tupA V c t h0 h1 := by
  obtain ⟨n, hn⟩ := t
  cases n with
  | zero => exact rfl
  | succ n => exact (dif_pos h0).trans ((dif_neg h1).trans rfl)
theorem outsAt0_B (c : Dev nD) (t : Fin cfg0.N) (h0 : ¬t.val % 125 = 0) (h1 : ¬t.val % 125 = 124) :
    outsAt0 V c t.val t.isLt = tupB V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem outsAt0_C (c : Dev nD) (t : Fin cfg0.N) (h0 : ¬t.val % 125 = 0) (h1 : t.val % 125 = 124) :
    outsAt0 V c t.val t.isLt = tupC V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point the class's invariant (every accumulator at anything); after point `n` the accumulators at
    what that point left, the untouched scoped buffers and the generator register beside them. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2.1) ∗ owns (c : Thread nD τ) scM0_2 fullShare ((outsAt0 V c n hn).2.2.2.2.2) ∗ rest0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2.1) ∗ owns (c : Thread nD τ) scM0_2 fullShare ((outsAt0 V c n hn).2.2.2.2.2) ∗ rest0 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2.1) ∗ owns (c : Thread nD τ) scM0_2 fullShare ((outsAt0 V c (n - 1) (by omega)).2.2.2.2.2) ∗ rest0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t
    ∗ (dat0 V c).leavesExact 2 t ∗ (dat0 V c).leavesExact 3 t ∗ (dat0 V c).leavesExact 4 t)

set_option maxHeartbeats 8000000 in
/-- The body at any point: the closed forms say which of the three ways the point runs; the invariant hands the run the
    accumulators at what the point before left (at anything at the grid's first point) and takes them
    back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 250 := lt_of_lt_of_eq t.isLt (show cfg0.N = 250 from N_0)
  by_cases h0 : t.val % 125 = 0
  · by_cases h1 : t.val % 125 = 124
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold tupA soutA_0 soutA_1 soutA_2; (try dsimp only)
      by_cases hz : t.val = 0
      · rw [PhiS_castSucc V c t, PhiS_zero V c _ _ hz, PhiA0_eq]
        iintro ⟨⟨⟨HS0, HS1, HS2, Hrest⟩, Hg⟩, Ho, ⟨%d0, H0⟩, ⟨%d1, H1⟩, ⟨%d2, H2⟩, ⟨%d3, H3⟩, ⟨%d4, H4⟩⟩
        iapply ((stepA (F := F) c t h0 h1 (iblk0 V c 0 t) (iblk0 V c 1 t)).2.2.2.2.2.2 _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hrest Hg]
        · isplitl [HS0 HS1 HS2 Hrest]
          · isplitl [HS0]
            · unfold owns; iexists _; isplitr
              swap; · iexact HS0
              ipureintro; exact View.read_writes_of_cover _ _ _ _ _ (scoverA_0 c t h0 h1 _ _)
            isplitl [HS1]
            · unfold owns; iexists _; isplitr
              swap; · iexact HS1
              ipureintro; exact View.read_writes_of_cover _ _ _ _ _ (scoverA_1 c t h0 h1 _ _)
            isplitl [HS2]
            · unfold owns; iexists _; isplitr
              swap; · iexact HS2
              ipureintro; exact View.read_writes_of_cover _ _ _ _ _ (scoverA_2 c t h0 h1 _ _)
            iexact Hrest
          iexact Hg
        isplitl [Ho]; · iexact Ho
        isplitl [H0]; · iexact H0
        isplitl [H1]; · iexact H1
        isplitl [H2]; · iexists _; iexact H2
        isplitl [H3]; · iexists _; iexact H3
        iexists _; iexact H4
      · rw [PhiS_castSucc V c t, PhiS_pos V c _ _ hz]
        iintro ⟨⟨⟨HS0, HS1, HS2, Hrest⟩, Hg⟩, Ho, ⟨%d0, H0⟩, ⟨%d1, H1⟩, ⟨%d2, H2⟩, ⟨%d3, H3⟩, ⟨%d4, H4⟩⟩
        iapply ((stepA (F := F) c t h0 h1 (iblk0 V c 0 t) (iblk0 V c 1 t)).2.2.2.2.2.2 _ _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hrest Hg]
        · isplitl [HS0 HS1 HS2 Hrest]
          · isplitl [HS0]
            · unfold owns; iexists _; isplitr
              swap; · iexact HS0
              ipureintro; exact View.read_writes_of_cover _ _ _ _ _ (scoverA_0 c t h0 h1 _ _)
            isplitl [HS1]
            · unfold owns; iexists _; isplitr
              swap; · iexact HS1
              ipureintro; exact View.read_writes_of_cover _ _ _ _ _ (scoverA_1 c t h0 h1 _ _)
            isplitl [HS2]
            · unfold owns; iexists _; isplitr
              swap; · iexact HS2
              ipureintro; exact View.read_writes_of_cover _ _ _ _ _ (scoverA_2 c t h0 h1 _ _)
            iexact Hrest
          iexact Hg
        isplitl [Ho]; · iexact Ho
        isplitl [H0]; · iexact H0
        isplitl [H1]; · iexact H1
        isplitl [H2]; · iexists _; iexact H2
        isplitl [H3]; · iexists _; iexact H3
        iexists _; iexact H4
  · have hz : t.val ≠ 0 := fun e => h0 (by rw [e])
    by_cases h1 : t.val % 125 = 124
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold tupC outC_2 outC_3 outC_4 soutC_0 soutC_1 soutC_2; (try dsimp only)
      rw [PhiS_castSucc V c t, PhiS_pos V c _ _ hz]
      iintro ⟨⟨⟨HS0, HS1, HS2, Hrest⟩, Hg⟩, Ho, ⟨%d0, H0⟩, ⟨%d1, H1⟩, ⟨%d2, H2⟩, ⟨%d3, H3⟩, ⟨%d4, H4⟩⟩
      iapply ((stepC (F := F) c t h0 h1 (iblk0 V c 0 t) (iblk0 V c 1 t) _ _ _).2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      isplitl [HS2]; · iexact HS2
      iintro ⟨H0, H1, ⟨%e2, H2⟩, ⟨%e3, H3⟩, ⟨%e4, H4⟩, ⟨%es0, HS0⟩, ⟨%es1, HS1⟩, ⟨%es2, HS2⟩⟩
      isplitl [HS0 HS1 HS2 Hrest Hg]
      · isplitl [HS0 HS1 HS2 Hrest]
        · isplitl [HS0]
          · unfold owns; iexists _; isplitr
            swap; · iexact HS0
            ipureintro; exact View.read_writes_of_cover _ _ _ _ _ (scoverC_0 c t h0 h1 _ _ _ _ _)
          isplitl [HS1]
          · unfold owns; iexists _; isplitr
            swap; · iexact HS1
            ipureintro; exact View.read_writes_of_cover _ _ _ _ _ (scoverC_1 c t h0 h1 _ _ _ _ _)
          isplitl [HS2]
          · unfold owns; iexists _; isplitr
            swap; · iexact HS2
            ipureintro; exact View.read_writes_of_cover _ _ _ _ _ (scoverC_2 c t h0 h1 _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC_2 c t h0 h1 _ _ _ _ _)
      isplitl [H3]
      · unfold owns; iexists _; isplitr
        swap; · iexact H3
        ipureintro; exact View.read_writes_of_cover _ _ _ _ _ (coverC_3 c t h0 h1 _ _ _ _ _)
      unfold owns; iexists _; isplitr
      swap; · iexact H4
      ipureintro; exact View.read_writes_of_cover _ _ _ _ _ (coverC_4 c t h0 h1 _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold tupB soutB_0 soutB_1 soutB_2; (try dsimp only)
      rw [PhiS_castSucc V c t, PhiS_pos V c _ _ hz]
      iintro ⟨⟨⟨HS0, HS1, HS2, Hrest⟩, Hg⟩, Ho, ⟨%d0, H0⟩, ⟨%d1, H1⟩, ⟨%d2, H2⟩, ⟨%d3, H3⟩, ⟨%d4, H4⟩⟩
      iapply ((stepB (F := F) c t h0 h1 (iblk0 V c 0 t) (iblk0 V c 1 t) _ _ _).2.2.2.2.2.2 _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0]
          · unfold owns; iexists _; isplitr
            swap; · iexact HS0
            ipureintro; exact View.read_writes_of_cover _ _ _ _ _ (scoverB_0 c t h0 h1 _ _ _ _ _)
          isplitl [HS1]
          · unfold owns; iexists _; isplitr
            swap; · iexact HS1
            ipureintro; exact View.read_writes_of_cover _ _ _ _ _ (scoverB_1 c t h0 h1 _ _ _ _ _)
          isplitl [HS2]
          · unfold owns; iexists _; isplitr
            swap; · iexact HS2
            ipureintro; exact View.read_writes_of_cover _ _ _ _ _ (scoverB_2 c t h0 h1 _ _ _ _ _)
          iexact Hrest
        iexact Hg
      isplitl [Ho]; · iexact Ho
      isplitl [H0]; · iexact H0
      isplitl [H1]; · iexact H1
      isplitl [H2]; · iexists _; iexact H2
      isplitl [H3]; · iexists _; iexact H3
      iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulators' named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 250 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HS1, HS2, Hrest⟩, Hg⟩
  isplitl [HS0 HS1 HS2 Hrest]
  · isplitl [HS0]; · iexists _; iexact HS0
    isplitl [HS1]; · iexists _; iexact HS1
    isplitl [HS2]; · iexists _; iexact HS2
    iexact Hrest
  iexact Hg

end

end Cert.KernelIdeal.Fr

end
-- ==== Proof.KI.R1Frame.lean ====
/-
  Region 1 is the combine: at each of 125 points it takes a block of 8000 rows of the values, the same rows of the
  pre-gathered table term, the whole 128×128 weight and the bias, and stores one block of the result,
  (values · weight + bias + table term) · ¼.  Nothing is carried between points, so what a point writes back is one
  function of the point's four input blocks.
-/
import proofs.«401576_j111669149722_3_alg».proof.Proof.Gen.KernelIdeal.Launch
import proofs.«401576_j111669149722_3_alg».proof.Proof.Gen.KernelIdeal.Skeleton
import proofs.«401576_j111669149722_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output block -/

abbrev r1_big : Rect S8000x128 := Rect.unit (s := S8000x128) ![0, 0] S8000x128.size inb_S8000x128_S8000x128_0_0
abbrev r1_w : Rect S128x128 := Rect.unit (s := S128x128) ![0, 0] S128x128.size inb_S128x128_S128x128_0_0
abbrev r1_b : Rect S128 := Rect.unit (s := S128) ![0] S128.size inb_S128_S128_0

/-- The output block after the body, from the four input blocks: its one store as a piece. -/
def out1_4 (x0 : Vec F S8000x128 .f32) (x1 : Vec F S8000x128 .bf16) (x2 : Vec F S128x128 .f32) (x3 : Vec F S128 .f32) : Vec F S8000x128 .f32 :=
  View.canon [⟨r1_big, k1_pay1 (View.ld x0 r1_big) (View.ld x2 r1_w) (View.ld x3 r1_b) (View.ld x1 r1_big)⟩]

theorem cover1_4 (p0 : Vec F S8000x128 .f32) (y : S8000x128.Idx) :
    ∃ pc ∈ ([⟨r1_big, p0⟩] : List (View.Piece (Elt F) S8000x128 .f32)), y ∈ pc.1.set :=
  View.cover_of_tiled [⟨r1_big, p0⟩] S8000x128.size (by rfl) y

set_option maxHeartbeats 2000000 in
/-- The kernel function on whole staging memrefs, the inputs' at their contents and the output's at anything, runs to the
    continuation holding the inputs' as they were and the output's at `out1_4` of the inputs'. -/
theorem sound_kernel1 (c : Dev nD) (E : Set ℕ) (i : grid1.Coords) (arg1 : Memref sig .tc .vmem S8000x128 .f32) (harg1 : arg1.IsWhole) (arg2 : Memref sig .tc .vmem S8000x128 .bf16) (harg2 : arg2.IsWhole) (arg3 : Memref sig .tc .vmem S128x128 .f32) (harg3 : arg3.IsWhole) (arg4 : Memref sig .tc .vmem S128 .f32) (harg4 : arg4.IsWhole) (arg5 : Memref sig .tc .vmem S8000x128 .f32) (harg5 : arg5.IsWhole)
    (x0 : Vec F S8000x128 .f32) (x1 : Vec F S8000x128 .bf16) (x2 : Vec F S128x128 .f32) (x3 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data and the body obligation -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end

end Cert.KernelIdeal.Fr

end
-- ==== Proof.KI.Run.lean ====
/-
  The whole program as four segments: the host operations before the first kernel (the point-axis table and the
  reshaped row indices), region 0 (the per-core camera-axis sums), the host operations between the kernels (the two
  cores' parts added, the camera-axis table, the global-mean row, the two gathers and their sum), and region 1 (the
  combine).  The contents of the core's unscoped buffers are followed from the launch memory through the four segments;
  at the end every unscoped buffer holds what that fold says, which gives both the frame (no argument array is written)
  and the result array as what region 1's write-backs leave.
-/
import proofs.«401576_j111669149722_3_alg».proof.Proof.KI.R0Frame
import proofs.«401576_j111669149722_3_alg».proof.Proof.KI.R1Frame
import proofs.«401576_j111669149722_3_alg».proof.Proof.Gen.KernelIdeal.Regions
import Idealize.ShloMosaic.Lib.Pipeline.RegionsLoop

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: the result array at what its write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No segment writes an argument -/

theorem W1_keep (c : Dev nD) (r : Ref sig .tc) (h : r ∉ hostOps0_W) : W1 m ρ c (Proc.devRef .tc r) = m ((c : Thread nD τ).loc r) :=
  (StableHlo.after_of_writes_sub hostOps0 _ hostOps0_writes h).trans rfl
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
/-- A buffer that is no array of either region and that no host operation writes ends as launched. -/
theorem W4_keep (c : Dev nD) (r : Ref sig .tc) (h4 : ∀ w, Pipeline.arrRef spec1 w ≠ r) (h3 : r ∉ hostOps1_W)
    (h2 : ∀ w, Pipeline.arrRef spec0 w ≠ r) (h1 : r ∉ hostOps0_W) : W4 m ρ c (Proc.devRef .tc r) = m ((c : Thread nD τ).loc r) :=
  (W4_of_ne m ρ c r h4).trans ((W3_keep m ρ c r h3).trans ((W2_of_ne m ρ c r h2).trans (W1_keep m ρ c r h1)))

/-- The values are read by both regions and written by neither. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_keep m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_keep m ρ c main_arg0 (by decide)
/-- The combine's weight and bias are read by region 1 only. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 2).trans (((dat1 (V3 m ρ) c).arrAt_in 2 rfl _).trans (A_eq1 (V3 m ρ) c 2))
    _ = W2 m ρ c (Proc.devRef .tc main_arg3) := W3_keep m ρ c main_arg3 (by decide)
    _ = W1 m ρ c (Proc.devRef .tc main_arg3) := W2_of_ne m ρ c main_arg3 (by decide)
    _ = m ((c : Thread nD τ).loc main_arg3) := W1_keep m ρ c main_arg3 (by decide)
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 3).trans (((dat1 (V3 m ρ) c).arrAt_in 3 rfl _).trans (A_eq1 (V3 m ρ) c 3))
    _ = W2 m ρ c (Proc.devRef .tc main_arg4) := W3_keep m ρ c main_arg4 (by decide)
    _ = W1 m ρ c (Proc.devRef .tc main_arg4) := W2_of_ne m ρ c main_arg4 (by decide)
    _ = m ((c : Thread nD τ).loc main_arg4) := W1_keep m ρ c main_arg4 (by decide)
theorem W4_main_arg1 (c : Dev nD) : W4 m ρ c (Proc.devRef .tc main_arg1) = m ((c : Thread nD τ).loc main_arg1) := W4_keep m ρ c main_arg1 (by decide) (by decide) (by decide) (by decide)
theorem W4_main_arg2 (c : Dev nD) : W4 m ρ c (Proc.devRef .tc main_arg2) = m ((c : Thread nD τ).loc main_arg2) := W4_keep m ρ c main_arg2 (by decide) (by decide) (by decide) (by decide)
theorem W4_main_arg5 (c : Dev nD) : W4 m ρ c (Proc.devRef .tc main_arg5) = m ((c : Thread nD τ).loc main_arg5) := W4_keep m ρ c main_arg5 (by decide) (by decide) (by decide) (by decide)
theorem W4_main_arg6 (c : Dev nD) : W4 m ρ c (Proc.devRef .tc main_arg6) = m ((c : Thread nD τ).loc main_arg6) := W4_keep m ρ c main_arg6 (by decide) (by decide) (by decide) (by decide)
theorem W4_main_arg7 (c : Dev nD) : W4 m ρ c (Proc.devRef .tc main_arg7) = m ((c : Thread nD τ).loc main_arg7) := W4_keep m ρ c main_arg7 (by decide) (by decide) (by decide) (by decide)
theorem W4_main_arg8 (c : Dev nD) : W4 m ρ c (Proc.devRef .tc main_arg8) = m ((c : Thread nD τ).loc main_arg8) := W4_keep m ρ c main_arg8 (by decide) (by decide) (by decide) (by decide)
theorem W4_main_arg9 (c : Dev nD) : W4 m ρ c (Proc.devRef .tc main_arg9) = m ((c : Thread nD τ).loc main_arg9) := W4_keep m ρ c main_arg9 (by decide) (by decide) (by decide) (by decide)
theorem W4_main_arg10 (c : Dev nD) : W4 m ρ c (Proc.devRef .tc main_arg10) = m ((c : Thread nD τ).loc main_arg10) := W4_keep m ρ c main_arg10 (by decide) (by decide) (by decide) (by decide)

/-- The result array ends at what region 1's write-backs leave. -/
theorem W4_main_v67 (c : Dev nD) : W4 m ρ c (Proc.devRef .tc main_v67) = (dat1 (V3 m ρ) c).arrAt 4 cfg1.N := W4_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: its arrays split out of the unscoped buffers and put back at the exit contents;
    the generator register and the scoped rest into the invariant (which names the accumulators between points) and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (show (pdats m ρ 0 c).Φ (Fin.last _) ⊢ Pipeline.ΦA spec0 c from hout0 (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state, entered from the contents after the host operations between the kernels. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds every unscoped buffer of the core at what the fold through the four segments says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array and the eleven argument arrays at the end of every execution. -/
theorem run_result : θ_run defs (onTc (τ := τ) (main (F := F))) ⟨m, fun _ => 0, ρ⟩ (fun r => ∀ c : Dev nD,
      r.2.mem ((c.tc : Thread nD τ).loc main_v67) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_v67 (by decide))).trans (W4_main_v67 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c)⟩) (run_all m ρ)

/-- The frame: every execution terminates, nothing faulting, and the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_result m ρ)

end Cert.KernelIdeal.Fr

end
-- ==== Proof.Val.RefChain.lean ====
/-
  The reference's last operations, read at one element.

  The result is ((x0 · x3 + x4) + P + C + G) · ¼ elementwise: the product row of entry n with column e of x3, the bias
  x4 at e, the gathered point-axis table P and camera-axis table C at (n, e), and the one global-mean row G at (0, e),
  the sum scaled by the literal ¼. Here the six pointwise and layout operations that combine them are opened at the index
  (n, e); the two gathered tables and the global row stay closed as the stages that compute them.
-/
import proofs.«401576_j111669149722_3_alg».proof.Proof.Gen.ReferenceIdeal.Read
import Idealize.ShloMosaic.Lib.ValueIdx
import Idealize.ShloMosaic.PureOps.Ideal

noncomputable section

namespace Cert.ReferenceIdeal.RefSide

open Cert.ReferenceIdeal Cert.ReferenceIdeal.Gen Cert.ReferenceIdeal.Read Idealize.ShloMosaic Idealize.ShloMosaic.ValueIdx
  Idealize.ShloMosaic.StableHlo

/-- The product's left factor at (n, e), step k: row n of x0 at column k. -/
theorem lidx_v0_ix (n : Fin 1000000) (e k : Fin 128) : lidx_main_v0 (ix2 n e) k = ix2 n k :=
  funext fun a => Fin.ext (by match a with | ⟨0, _⟩ => rfl | ⟨1, _⟩ => rfl)

/-- The product's right factor at (n, e), step k: row k of x3 at column e. -/
theorem ridx_v0_ix (n : Fin 1000000) (e k : Fin 128) : ridx_main_v0 (ix2 n e) k = ix2 k e :=
  funext fun a => Fin.ext (by match a with | ⟨0, _⟩ => rfl | ⟨1, _⟩ => rfl)

/-- A row broadcast down the entries reads row 0 at the same column. -/
theorem idx_v2_ix (n : Fin 1000000) (e : Fin 128) : idx_main_v2 (ix2 n e) = ix2 (0 : Fin 1) e :=
  funext fun a => Fin.ext (by match a with | ⟨0, _⟩ => rfl | ⟨1, _⟩ => rfl)

/-- The bias as a one-row array reads the bias at the column. -/
theorem idx_v1_ix (e : Fin 128) : idx_main_v1 (ix2 (0 : Fin 1) e) = ix1 e :=
  funext fun a => Fin.ext (by match a with | ⟨0, _⟩ => rfl)

/-- The global row broadcast down the entries reads row 0 at the same column. -/
theorem idx_v57_ix (n : Fin 1000000) (e : Fin 128) : idx_main_v57 (ix2 n e) = ix2 (0 : Fin 1) e :=
  funext fun a => Fin.ext (by match a with | ⟨0, _⟩ => rfl | ⟨1, _⟩ => rfl)

/-- The reference's result at entry n, feature e. -/
theorem ref_apply (x0 : (⟨S1000000x128, .f32⟩ : BufTy).Contents (Elt Ideal)) (x1 x2 : (⟨S1000000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal))
    (n : Fin 1000000) (e : Fin 128) :
    val_main_v60 (F := Ideal) x0 x1 x2 x3 x4 x5 x6 x7 x8 x9 x10 (ix2 n e)
      = (((((∑ k : Fin 128, x0 (ix2 n k) * x3 (ix2 k e)) + x4 (ix1 e))
            + val_main_v47 (F := Ideal) x0 x2 x5 x6 (ix2 n e))
          + val_main_v55 (F := Ideal) x0 x1 x7 x8 (ix2 n e))
        + val_main_v40 (F := Ideal) x0 x9 x10 (ix2 (0 : Fin 1) e)) * Ideal.ofBits .f32 0x3E800000#32 := by
  rw [val_main_v60_apply, val_main_v58_apply, val_main_v56_apply, val_main_v48_apply, val_main_v3_apply,
    val_main_v0_apply, val_main_v2_apply, val_main_v57_apply, val_main_v59_apply, val_main_cst_12_apply,
    idx_v2_ix, val_main_v1_apply, idx_v1_ix, idx_v57_ix]
  simp only [lidx_v0_ix, ridx_v0_ix, Ideal.addf_def, Ideal.mulf_def, Ideal.ofBits_def]

/-- The term the run states for the result is the last stage. -/
alias ref_term_eq := val_main_v60_eq

end Cert.ReferenceIdeal.RefSide

end
-- ==== Proof.Val.Forms.lean ====
/-
  The three sums both programs compute on the camera axis, written once over the entries' own numbering.
  The 1,000,000 entries are visited as 2 halves × 125 blocks × 4000 rows: entry `(h, j, p)` is row
  `(125 h + j) · 4000 + p`.  For a category `r`, `hit w r` is one when the index word `w` is the word of `r` and zero
  otherwise; a category's row sum adds the rows whose index hits it, its count adds the hits, and the plain sum adds all rows.
-/
import Idealize.ShloMosaic.PureOps.Ideal
import Idealize.ShloMosaic.Lib.ValueIdx

noncomputable section

namespace Cert.Forms

open Idealize.ShloMosaic Idealize.ShloMosaic.ValueIdx

/-- Row `p` of block `j` of half `h`, as an entry number. -/
def entry (h : Fin 2) (j : Fin 125) (p : Fin 4000) : Fin 1000000 :=
  ⟨(h.val * 125 + j.val) * 4000 + p.val, by have := h.isLt; have := j.isLt; have := p.isLt; omega⟩

/-- One when the index word is category `r`'s, zero otherwise. -/
def hit (w : BitVec 32) (r : ℕ) : EReal := if w = BitVec.ofNat 32 r then 1 else 0

/-- The sum of the rows of `v` whose index word hits category `r`, at column `d`. -/
def rowSums (v : (⟨2, ![1000000, 128]⟩ : Shape).Idx → EReal) (ri : (⟨1, ![1000000]⟩ : Shape).Idx → BitVec 32) (r : ℕ) (d : Fin 128) : EReal :=
  ∑ h : Fin 2, ∑ j : Fin 125, ∑ p : Fin 4000, hit (ri (ix1 (entry h j p))) r * v (ix2 (entry h j p) d)

/-- The number of entries whose index word hits category `r`. -/
def rowCounts (ri : (⟨1, ![1000000]⟩ : Shape).Idx → BitVec 32) (r : ℕ) : EReal :=
  ∑ h : Fin 2, ∑ j : Fin 125, ∑ p : Fin 4000, hit (ri (ix1 (entry h j p))) r

/-- The sum of all rows of `v` at column `d`. -/
def allSums (v : (⟨2, ![1000000, 128]⟩ : Shape).Idx → EReal) (d : Fin 128) : EReal :=
  ∑ h : Fin 2, ∑ j : Fin 125, ∑ p : Fin 4000, v (ix2 (entry h j p) d)

end Cert.Forms

end
-- ==== Proof.Val.RefSeg.lean ====
/-
  The reference's three sums on the camera axis, read as the closed forms of Forms.lean.

  The two accumulating scatters have the same dimension numbers: update row `a` carries ONE scalar index, read off
  column 0 of the index array, and is added, column by column, into the operand row that index names. With the start
  read signed and not clamped, update element `(a, b)` lands on operand element `(r, c)` exactly when the index of row
  `a` reads `r` and `b = c`; a row whose index is outside the operand is dropped. So the value at `(r, c)` is the
  operand there plus the sum, over the rows whose index reads `r`, of the update at column `c`. This is proved once, over
  symbolic extents. The plain sum is the generated reading of the reduce. All three are then regrouped from the entries'
  flat numbering into halves, blocks and rows.
-/
import proofs.«401576_j111669149722_3_alg».proof.Proof.Gen.ReferenceIdeal.Read
import proofs.«401576_j111669149722_3_alg».proof.Proof.Val.Forms
import Idealize.ShloMosaic.PureOps.Ideal.Laws
import Idealize.ShloMosaic.Lib.ValueIdx
import Idealize.ShloMosaic.Lib.IdealHost
import Mathlib.Algebra.BigOperators.Group.Finset.Basic
import Mathlib.Data.Fintype.BigOperators
import Mathlib.Data.EReal.Basic
import Mathlib.Tactic.SplitIfs

noncomputable section

namespace Cert.ReferenceIdeal.RefSide

open Cert.ReferenceIdeal Cert.ReferenceIdeal.Read Idealize.ShloMosaic Idealize.ShloMosaic.ValueIdx

/-! ## A scatter of rows, each by one scalar index -/

section RowScatter

variable {n0 m n1 : Nat}

/-- The dimension numbers of a scatter of rows: update axis 1 is the window, operand axis 0 is inserted and is the
    one axis the index names, and the index vector lies along axis 1 of the index array (extent one). -/
def rowDims (wf : ScatterDims.WF ⟨2, ![n0, n1]⟩ ⟨2, ![m, 1]⟩ ⟨2, ![m, n1]⟩ [1] [0] [0] 1) :
    ScatterDims ⟨2, ![n0, n1]⟩ ⟨2, ![m, 1]⟩ ⟨2, ![m, n1]⟩ where
  updateWindowDims := [1]
  insertedWindowDims := [0]
  scatterDimsToOperandDims := [0]
  indexVectorDim := 1
  wf := wf

variable (wf : ScatterDims.WF ⟨2, ![n0, n1]⟩ ⟨2, ![m, 1]⟩ ⟨2, ![m, n1]⟩ [1] [0] [0] 1)

/-- On the operand's row axis the window starts at the row's index, read signed off column 0. -/
theorem rowDims_start0 {w : Nat} (j : (⟨2, ![m, n1]⟩ : Shape).Idx) (idx : IVec ⟨2, ![m, 1]⟩ w) :
    (rowDims wf).start j idx 0 = (idx (ix2 (j 0) 0)).toInt := by
  have h0 : (0 : Fin (Shape.rank ⟨2, ![n0, n1]⟩)) ∈ (rowDims wf).scatterDimsToOperandDims := by
    show (0 : Fin 2) ∈ [(0 : Fin 2)]; decide
  unfold ScatterDims.start
  rw [dif_pos h0]
  refine congrArg (fun t => (idx t).toInt) (funext fun b => ?_)
  match b with
  | ⟨0, _⟩ => exact Fin.ext rfl
  | ⟨1, _⟩ => exact Fin.ext rfl

/-- On the column axis the window starts at zero. -/
theorem rowDims_start1 {w : Nat} (j : (⟨2, ![m, n1]⟩ : Shape).Idx) (idx : IVec ⟨2, ![m, 1]⟩ w) :
    (rowDims wf).start j idx 1 = 0 := by
  have h1 : ¬ (1 : Fin (Shape.rank ⟨2, ![n0, n1]⟩)) ∈ (rowDims wf).scatterDimsToOperandDims := by
    show ¬ (1 : Fin 2) ∈ [(0 : Fin 2)]; decide
  unfold ScatterDims.start
  rw [dif_neg h1]

/-- The row axis is inserted: no window coordinate there. -/
theorem rowDims_window0 (j : (⟨2, ![m, n1]⟩ : Shape).Idx) : (rowDims wf).window j 0 = 0 := by
  have h0 : ¬ (0 : Fin (Shape.rank ⟨2, ![n0, n1]⟩)) ∈ (rowDims wf).sKept := by
    show ¬ (0 : Fin 2) ∈ (List.finRange 2).filter (· ∉ [(0 : Fin 2)]); decide
  unfold ScatterDims.window
  rw [dif_neg h0]

/-- The window coordinate on the column axis is the update's column. -/
theorem rowDims_window1 (j : (⟨2, ![m, n1]⟩ : Shape).Idx) : (rowDims wf).window j 1 = (j 1).val := by
  have h1 : (1 : Fin (Shape.rank ⟨2, ![n0, n1]⟩)) ∈ (rowDims wf).sKept := by
    show (1 : Fin 2) ∈ (List.finRange 2).filter (· ∉ [(0 : Fin 2)]); decide
  unfold ScatterDims.window
  rw [dif_pos h1]
  rfl

/-- Update element `j` lands on operand element `(r, c)` exactly when the index of `j`'s row reads `r` and `j`'s column
    is `c`; an index outside the operand's rows lands nowhere. -/
theorem rowDims_resultIdx?_eq_some {w : Nat} (j : (⟨2, ![m, n1]⟩ : Shape).Idx) (idx : IVec ⟨2, ![m, 1]⟩ w)
    (r : Fin n0) (c : Fin n1) :
    (rowDims wf).resultIdx? j idx = some (ix2 r c) ↔ (idx (ix2 (j 0) 0)).toInt = (r.val : Int) ∧ j 1 = c := by
  have hr := r.isLt
  have hc := c.isLt
  have hj1 : (j 1).val < n1 := (j 1).isLt
  unfold ScatterDims.resultIdx?
  split_ifs with h
  · rw [Option.some.injEq]
    have h0 := h 0
    rw [rowDims_start0, rowDims_window0] at h0
    constructor
    · intro e
      have e0 : ((rowDims wf).start j idx 0 + ((rowDims wf).window j 0 : Nat)).toNat = r.val :=
        congrArg (fun f => (f 0).val) e
      have e1 : ((rowDims wf).start j idx 1 + ((rowDims wf).window j 1 : Nat)).toNat = c.val :=
        congrArg (fun f => (f 1).val) e
      rw [rowDims_start0, rowDims_window0] at e0
      rw [rowDims_start1, rowDims_window1] at e1
      refine ⟨by omega, Fin.ext (by omega)⟩
    · rintro ⟨e0, e1⟩
      funext a
      match a with
      | ⟨0, _⟩ =>
        refine Fin.ext ?_
        show ((rowDims wf).start j idx 0 + ((rowDims wf).window j 0 : Nat)).toNat = r.val
        rw [rowDims_start0, rowDims_window0]; omega
      | ⟨1, _⟩ =>
        refine Fin.ext ?_
        show ((rowDims wf).start j idx 1 + ((rowDims wf).window j 1 : Nat)).toNat = c.val
        rw [rowDims_start1, rowDims_window1, ← e1]; omega
  · constructor
    · intro e; cases e
    · rintro ⟨e0, e1⟩
      refine absurd (fun a => ?_) h
      match a with
      | ⟨0, _⟩ =>
        show 0 ≤ (rowDims wf).start j idx 0 + ((rowDims wf).window j 0 : Nat) ∧ (rowDims wf).start j idx 0 + ((rowDims wf).window j 0 : Nat) < (n0 : Int)
        rw [rowDims_start0, rowDims_window0]; omega
      | ⟨1, _⟩ =>
        show 0 ≤ (rowDims wf).start j idx 1 + ((rowDims wf).window j 1 : Nat) ∧ (rowDims wf).start j idx 1 + ((rowDims wf).window j 1 : Nat) < (n1 : Int)
        rw [rowDims_start1, rowDims_window1]; omega

/-- The updates that land on element (r, c) are those of the rows whose index reads r, at column c. -/
theorem rowDims_scatter_sum {w : Nat} (idx : IVec ⟨2, ![m, 1]⟩ w) (upd : (⟨2, ![m, n1]⟩ : Shape).Idx → EReal)
    (r : Fin n0) (c : Fin n1)
    [DecidablePred fun j : (⟨2, ![m, n1]⟩ : Shape).Idx => (rowDims wf).resultIdx? j idx = some (ix2 r c)] :
    ∑ j ∈ Finset.univ.filter (fun j => (rowDims wf).resultIdx? j idx = some (ix2 r c)), upd j
      = ∑ a : Fin m, if (idx (ix2 a 0)).toInt = (r.val : Int) then upd (ix2 a c) else 0 := by
  rw [Finset.sum_filter, sum_idx2]
  refine Finset.sum_congr rfl fun a _ => ?_
  by_cases h : (idx (ix2 a 0)).toInt = (r.val : Int)
  · rw [if_pos h, Finset.sum_eq_single c]
    · rw [if_pos ((rowDims_resultIdx?_eq_some wf _ idx r c).2 ⟨h, rfl⟩)]
    · intro b _ hb
      rw [if_neg fun e => hb ((rowDims_resultIdx?_eq_some wf _ idx r c).1 e).2]
    · intro hc; exact absurd (Finset.mem_univ c) hc
  · rw [if_neg h]
    refine Finset.sum_eq_zero fun b _ => ?_
    rw [if_neg fun e => h ((rowDims_resultIdx?_eq_some wf _ idx r c).1 e).1]

end RowScatter

/-! ## The host's scatter at the extended reals, and this program's two records -/

/-- At the extended reals the host's accumulating scatter at an element is the operand there plus the sum of the
    updates that land on it. -/
theorem hostScatterAdd_apply {s si su : Shape} {φ : FTy} {w : Nat} (D : ScatterDims s si su) (x : FVec Ideal s φ)
    (idx : IVec si w) (upd : FVec Ideal su φ) (i : s.Idx) :
    Host.scatterAdd D x idx upd i = x i + ∑ j ∈ Finset.univ.filter (fun j => D.resultIdx? j idx = some i), upd j := rfl

/-- The two scatters' dimension numbers are those of a scatter of rows by one scalar index. -/
theorem dims21 : scatter_S500x128_S1000000x1_S1000000x128_1_0_0_1
      = rowDims Cert.ReferenceIdeal.Gen.scatter_S500x128_S1000000x1_S1000000x128_1_0_0_1_wf := rfl
theorem dims25 : scatter_S500x1_S1000000x1_S1000000x1_1_0_0_1
      = rowDims Cert.ReferenceIdeal.Gen.scatter_S500x1_S1000000x1_S1000000x1_1_0_0_1_wf := rfl

/-! ## Index words -/

/-- A 32-bit word read signed is the number `r`, for `r` below 2³¹, exactly when it is `r`'s word. -/
theorem toInt_eq_iff (w : BitVec 32) (r : Nat) (hr : r < 2147483648) :
    w.toInt = (r : Int) ↔ w = BitVec.ofNat 32 r := by
  have hw := w.isLt
  constructor
  · intro e
    apply BitVec.eq_of_toNat_eq
    rw [BitVec.toNat_ofNat, Nat.mod_eq_of_lt (by omega)]
    rw [BitVec.toInt_eq_toNat_cond] at e
    split_ifs at e <;> omega
  · rintro rfl
    rw [BitVec.toInt_eq_toNat_cond, BitVec.toNat_ofNat, Nat.mod_eq_of_lt (by omega)]
    split_ifs <;> omega

/-- Keeping a value where the word reads `r` is multiplying it by the word's hit on `r`. -/
theorem ite_toInt_eq_hit_mul (w : BitVec 32) (r : Nat) (hr : r < 2147483648) (v : EReal) :
    (if w.toInt = (r : Int) then v else 0) = Cert.Forms.hit w r * v := by
  unfold Cert.Forms.hit
  by_cases h : w = BitVec.ofNat 32 r
  · rw [if_pos ((toInt_eq_iff w r hr).2 h), if_pos h, one_mul]
  · rw [if_neg fun e => h ((toInt_eq_iff w r hr).1 e), if_neg h, zero_mul]

/-! ## The entries by half, block and row -/

/-- The entries, numbered by half, block and row. -/
def entryEquiv : Fin 2 × Fin 125 × Fin 4000 ≃ Fin 1000000 where
  toFun x := Cert.Forms.entry x.1 x.2.1 x.2.2
  invFun n := (⟨n.val / 500000, by have := n.isLt; omega⟩, ⟨n.val / 4000 % 125, Nat.mod_lt _ (by omega)⟩,
    ⟨n.val % 4000, Nat.mod_lt _ (by omega)⟩)
  left_inv x := by
    obtain ⟨h, j, p⟩ := x
    have := h.isLt; have := j.isLt; have := p.isLt
    refine Prod.ext (Fin.ext ?_) (Prod.ext (Fin.ext ?_) (Fin.ext ?_))
    · show ((h.val * 125 + j.val) * 4000 + p.val) / 500000 = h.val; omega
    · show ((h.val * 125 + j.val) * 4000 + p.val) / 4000 % 125 = j.val; omega
    · show ((h.val * 125 + j.val) * 4000 + p.val) % 4000 = p.val; omega
  right_inv n := by
    have := n.isLt
    refine Fin.ext ?_
    show (n.val / 500000 * 125 + n.val / 4000 % 125) * 4000 + n.val % 4000 = n.val
    omega

/-- A sum over the entries is the sum over the halves, the blocks of a half and the rows of a block. -/
theorem sum_entries {M : Type*} [AddCommMonoid M] (g : Fin 1000000 → M) :
    ∑ n, g n = ∑ h : Fin 2, ∑ j : Fin 125, ∑ p : Fin 4000, g (Cert.Forms.entry h j p) := by
  rw [← Equiv.sum_comp entryEquiv g, Fintype.sum_prod_type]
  refine Finset.sum_congr rfl fun h _ => ?_
  rw [Fintype.sum_prod_type]
  rfl

/-! ## The three sums -/

/-- The index array both scatters read is the row index, one scalar per row. -/
theorem val_main_v20_row (x1 : IVec S1000000 32) (n : Fin 1000000) :
    val_main_v20 (F := Ideal) x1 (ix2 n 0) = x1 (ix1 n) := by
  rw [val_main_v20_apply]
  exact congrArg x1 (funext fun b => match b with | ⟨0, _⟩ => rfl)

/-- The second scatter reads the same index array. -/
theorem val_main_v24_row (x1 : IVec S1000000 32) (n : Fin 1000000) :
    val_main_v24 (F := Ideal) x1 (ix2 n 0) = x1 (ix1 n) := by
  rw [val_main_v24_apply]
  exact congrArg x1 (funext fun b => match b with | ⟨0, _⟩ => rfl)

/-- The row scatter: category `r`'s row sum at column `d`. -/
theorem ref_rowSums (x0 : FVec Ideal S1000000x128 .f32) (x1 : IVec S1000000 32) (r : Fin 500) (d : Fin 128) :
    val_main_v21 (F := Ideal) x0 x1 (ix2 r d) = Cert.Forms.rowSums x0 x1 r.val d := by
  have hr := r.isLt
  unfold val_main_v21
  rw [hostScatterAdd_apply, dims21, rowDims_scatter_sum, val_main_v19_apply, val_main_cst_3_apply, Ideal.ofBits_def,
    Ideal.ofBits_zero_f32, zero_add, sum_entries]
  unfold Cert.Forms.rowSums
  refine Finset.sum_congr rfl fun h _ => Finset.sum_congr rfl fun j _ => Finset.sum_congr rfl fun p _ => ?_
  rw [val_main_v20_row, ite_toInt_eq_hit_mul _ _ (by omega)]

/-- The scatter of ones: the number of entries of category `r`. -/
theorem ref_rowCounts (x1 : IVec S1000000 32) (r : Fin 500) :
    val_main_v25 (F := Ideal) x1 (ix2 r 0) = Cert.Forms.rowCounts x1 r.val := by
  have hr := r.isLt
  unfold val_main_v25
  rw [hostScatterAdd_apply, dims25, rowDims_scatter_sum, val_main_v23_apply, val_main_cst_5_apply, Ideal.ofBits_def,
    Ideal.ofBits_zero_f32, zero_add, sum_entries]
  unfold Cert.Forms.rowCounts
  refine Finset.sum_congr rfl fun h _ => Finset.sum_congr rfl fun j _ => Finset.sum_congr rfl fun p _ => ?_
  rw [val_main_v24_row, ite_toInt_eq_hit_mul _ _ (by omega), val_main_v22_apply, val_main_cst_4_apply, Ideal.ofBits_def,
    Ideal.ofBits_one_f32, mul_one]

/-- The plain reduce: the sum of all rows at column `d`. -/
theorem ref_allSums (x0 : FVec Ideal S1000000x128 .f32) (d : Fin 128) :
    val_main_v34 (F := Ideal) x0 (ix1 d) = Cert.Forms.allSums x0 d := by
  rw [val_main_v34_apply, val_main_cst_7_apply, Ideal.ofBits_def, Ideal.ofBits_zero_f32, zero_add, sum_entries]
  unfold Cert.Forms.allSums
  refine Finset.sum_congr rfl fun h _ => Finset.sum_congr rfl fun j _ => Finset.sum_congr rfl fun p _ => ?_
  exact congrArg x0 (funext fun a => match a with | ⟨0, _⟩ => rfl | ⟨1, _⟩ => rfl)

end Cert.ReferenceIdeal.RefSide

end
-- ==== Proof.Val.R0Pieces.lean ====
/-
  What each way of running a point of region 0 leaves, as the body's own arithmetic: a first step leaves the block's
  contributions added to zeros, a middle or last step leaves them added to what the accumulators held, and the last
  step's output blocks are the accumulators re-laid with a leading unit axis.  Then that arithmetic at an index, over
  the extended reals: the one-hot product is the sum of the rows whose index word hits the category, the lane sums are
  plain sums over the block's 4000 rows.
-/
import proofs.«401576_j111669149722_3_alg».proof.Proof.KI.R0Frame
import proofs.«401576_j111669149722_3_alg».proof.Proof.Val.Forms
import Idealize.ShloMosaic.PureOps.Ideal.Laws
import Idealize.ShloMosaic.Lib.Pipeline.Value
import Idealize.ShloMosaic.Lib.ValueLayout

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat Cfg Window)

/-- The accumulators and the staging buffers are stored and loaded whole: every rectangle sits at offset zero. -/
theorem off2_zero : (![0, 0] : Fin 2 → Nat) = fun _ => 0 := funext fun a => by fin_cases a <;> rfl
theorem off3_zero : (![0, 0, 0] : Fin 3 → Nat) = fun _ => 0 := funext fun a => by fin_cases a <;> rfl

section Pieces
variable {F : FTy → Type} [FloatOps F]

/-! A first step stores zeros into each accumulator and then the sum, whose accumulator operand is the zeros read back:
    the later store covers, so what is left is the sum over zeros. -/

theorem soutA_0_eq (c : Dev nD) (t : Fin cfg0.N) (h0 : t.val % 125 = 0) (h1 : ¬t.val % 125 = 124) (x0 : Vec F S4000x128 .f32) (x1 : Vec F S4000x1 .i32) :
    soutA_0 (F := F) c t h0 h1 x0 x1 = k0_pay9 x0 x1 (k0_pay5 (F := F)) := by
  unfold soutA_0
  rw [View.read_writes_eq_canon _ _ _ (scoverA_0 c t h0 h1 x0 x1)]
  unfold stepA kernelRun0_A
  dsimp only
  sl_unfold_words
  rw [View.canon_cons_unit_zero (S := S512x128) off2_zero, View.readCov_unit_zero (S := S512x128) _ off2_zero]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, View.ld_unit_zero (S := S4000x128) off2_zero, View.ld_unit_zero (S := S4000x1) off2_zero, View.ld_unit_zero (S := S512x128) off2_zero, View.ld_unit_zero (S := S1x128) off2_zero, View.ld_unit_zero (S := S1x512) off2_zero]
theorem soutA_1_eq (c : Dev nD) (t : Fin cfg0.N) (h0 : t.val % 125 = 0) (h1 : ¬t.val % 125 = 124) (x0 : Vec F S4000x128 .f32) (x1 : Vec F S4000x1 .i32) :
    soutA_1 (F := F) c t h0 h1 x0 x1 = k0_pay10 x0 (k0_pay6 (F := F)) := by
  unfold soutA_1
  rw [View.read_writes_eq_canon _ _ _ (scoverA_1 c t h0 h1 x0 x1)]
  unfold stepA kernelRun0_A
  dsimp only
  sl_unfold_words
  rw [View.canon_cons_unit_zero (S := S1x128) off2_zero, View.readCov_unit_zero (S := S1x128) _ off2_zero]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, View.ld_unit_zero (S := S4000x128) off2_zero, View.ld_unit_zero (S := S4000x1) off2_zero, View.ld_unit_zero (S := S512x128) off2_zero, View.ld_unit_zero (S := S1x128) off2_zero, View.ld_unit_zero (S := S1x512) off2_zero]
theorem soutA_2_eq (c : Dev nD) (t : Fin cfg0.N) (h0 : t.val % 125 = 0) (h1 : ¬t.val % 125 = 124) (x0 : Vec F S4000x128 .f32) (x1 : Vec F S4000x1 .i32) :
    soutA_2 (F := F) c t h0 h1 x0 x1 = k0_pay1 (k0_pay11 x1 (k0_pay7 (F := F))) := by
  unfold soutA_2
  rw [View.read_writes_eq_canon _ _ _ (scoverA_2 c t h0 h1 x0 x1)]
  unfold stepA kernelRun0_A
  dsimp only
  sl_unfold_words
  rw [View.canon_cons_unit_zero (S := S1x512) off2_zero, View.readCov_unit_zero (S := S1x512) _ off2_zero]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, View.ld_unit_zero (S := S4000x128) off2_zero, View.ld_unit_zero (S := S4000x1) off2_zero, View.ld_unit_zero (S := S512x128) off2_zero, View.ld_unit_zero (S := S1x128) off2_zero, View.ld_unit_zero (S := S1x512) off2_zero]

/-! A middle step leaves one store per accumulator: the sum over what the accumulator held. -/

theorem soutB_0_eq (c : Dev nD) (t : Fin cfg0.N) (h0 : ¬t.val % 125 = 0) (h1 : ¬t.val % 125 = 124) (x0 : Vec F S4000x128 .f32) (x1 : Vec F S4000x1 .i32) (xs0 : Vec F S512x128 .f32) (xs1 : Vec F S1x128 .f32) (xs2 : Vec F S1x512 .f32) :
    soutB_0 (F := F) c t h0 h1 x0 x1 xs0 xs1 xs2 = k0_pay9 x0 x1 xs0 := by
  unfold soutB_0
  rw [View.read_writes_eq_canon _ _ _ (scoverB_0 c t h0 h1 x0 x1 xs0 xs1 xs2)]
  unfold stepB kernelRun0_B
  dsimp only
  sl_unfold_words
  rw [View.canon_unit_zero off2_zero]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, View.ld_unit_zero (S := S4000x128) off2_zero, View.ld_unit_zero (S := S4000x1) off2_zero, View.ld_unit_zero (S := S512x128) off2_zero, View.ld_unit_zero (S := S1x128) off2_zero, View.ld_unit_zero (S := S1x512) off2_zero]
theorem soutB_1_eq (c : Dev nD) (t : Fin cfg0.N) (h0 : ¬t.val % 125 = 0) (h1 : ¬t.val % 125 = 124) (x0 : Vec F S4000x128 .f32) (x1 : Vec F S4000x1 .i32) (xs0 : Vec F S512x128 .f32) (xs1 : Vec F S1x128 .f32) (xs2 : Vec F S1x512 .f32) :
    soutB_1 (F := F) c t h0 h1 x0 x1 xs0 xs1 xs2 = k0_pay10 x0 xs1 := by
  unfold soutB_1
  rw [View.read_writes_eq_canon _ _ _ (scoverB_1 c t h0 h1 x0 x1 xs0 xs1 xs2)]
  unfold stepB kernelRun0_B
  dsimp only
  sl_unfold_words
  rw [View.canon_unit_zero off2_zero]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, View.ld_unit_zero (S := S4000x128) off2_zero, View.ld_unit_zero (S := S4000x1) off2_zero, View.ld_unit_zero (S := S512x128) off2_zero, View.ld_unit_zero (S := S1x128) off2_zero, View.ld_unit_zero (S := S1x512) off2_zero]
theorem soutB_2_eq (c : Dev nD) (t : Fin cfg0.N) (h0 : ¬t.val % 125 = 0) (h1 : ¬t.val % 125 = 124) (x0 : Vec F S4000x128 .f32) (x1 : Vec F S4000x1 .i32) (xs0 : Vec F S512x128 .f32) (xs1 : Vec F S1x128 .f32) (xs2 : Vec F S1x512 .f32) :
    soutB_2 (F := F) c t h0 h1 x0 x1 xs0 xs1 xs2 = k0_pay1 (k0_pay11 x1 xs2) := by
  unfold soutB_2
  rw [View.read_writes_eq_canon _ _ _ (scoverB_2 c t h0 h1 x0 x1 xs0 xs1 xs2)]
  unfold stepB kernelRun0_B
  dsimp only
  sl_unfold_words
  rw [View.canon_unit_zero off2_zero]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, View.ld_unit_zero (S := S4000x128) off2_zero, View.ld_unit_zero (S := S4000x1) off2_zero, View.ld_unit_zero (S := S512x128) off2_zero, View.ld_unit_zero (S := S1x128) off2_zero, View.ld_unit_zero (S := S1x512) off2_zero]

/-! A last step leaves the same sums, and copies each accumulator, read back after its store, to its output block. -/

theorem soutC_0_eq (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) :
    soutC_0 (F := F) c t h0 h1 x0 x1 xs0 xs1 xs2 = k0_pay9 x0 x1 xs0 := by
  unfold soutC_0
  rw [View.read_writes_eq_canon _ _ _ (scoverC_0 c t h0 h1 x0 x1 xs0 xs1 xs2)]
  unfold stepC kernelRun0_C
  dsimp only
  sl_unfold_words
  rw [View.canon_unit_zero off2_zero]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, View.ld_unit_zero (S := S4000x128) off2_zero, View.ld_unit_zero (S := S4000x1) off2_zero, View.ld_unit_zero (S := S512x128) off2_zero, View.ld_unit_zero (S := S1x128) off2_zero, View.ld_unit_zero (S := S1x512) off2_zero]
theorem soutC_1_eq (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) :
    soutC_1 (F := F) c t h0 h1 x0 x1 xs0 xs1 xs2 = k0_pay10 x0 xs1 := by
  unfold soutC_1
  rw [View.read_writes_eq_canon _ _ _ (scoverC_1 c t h0 h1 x0 x1 xs0 xs1 xs2)]
  unfold stepC kernelRun0_C
  dsimp only
  sl_unfold_words
  rw [View.canon_unit_zero off2_zero]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, View.ld_unit_zero (S := S4000x128) off2_zero, View.ld_unit_zero (S := S4000x1) off2_zero, View.ld_unit_zero (S := S512x128) off2_zero, View.ld_unit_zero (S := S1x128) off2_zero, View.ld_unit_zero (S := S1x512) off2_zero]
theorem soutC_2_eq (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) :
    soutC_2 (F := F) c t h0 h1 x0 x1 xs0 xs1 xs2 = k0_pay1 (k0_pay11 x1 xs2) := by
  unfold soutC_2
  rw [View.read_writes_eq_canon _ _ _ (scoverC_2 c t h0 h1 x0 x1 xs0 xs1 xs2)]
  unfold stepC kernelRun0_C
  dsimp only
  sl_unfold_words
  rw [View.canon_unit_zero off2_zero]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, View.ld_unit_zero (S := S4000x128) off2_zero, View.ld_unit_zero (S := S4000x1) off2_zero, View.ld_unit_zero (S := S512x128) off2_zero, View.ld_unit_zero (S := S1x128) off2_zero, View.ld_unit_zero (S := S1x512) off2_zero]
theorem outC_2_eq (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) :
    outC_2 (F := F) c t h0 h1 x0 x1 xs0 xs1 xs2 = k0_pay2 (k0_pay9 x0 x1 xs0) := by
  unfold outC_2
  rw [View.read_writes_eq_canon _ _ _ (coverC_2 c t h0 h1 x0 x1 xs0 xs1 xs2)]
  unfold stepC kernelRun0_C
  dsimp only
  sl_unfold_words
  rw [View.canon_unit_zero off3_zero]
  simp only [View.readCov_unit_zero (S := S512x128) _ off2_zero, View.readAt_eq_ld, (hs0_0 t).read_unread, (hs0_1 t).read_unread, (Memref.isWhole_whole cc0_scratch0).read_unread, (Memref.isWhole_whole cc0_scratch1).read_unread, (Memref.isWhole_whole cc0_scratch2).read_unread, View.ld_unit_zero (S := S4000x128) off2_zero, View.ld_unit_zero (S := S4000x1) off2_zero, View.ld_unit_zero (S := S512x128) off2_zero, View.ld_unit_zero (S := S1x128) off2_zero, View.ld_unit_zero (S := S1x512) off2_zero]
theorem outC_3_eq (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) :
    outC_3 (F := F) c t h0 h1 x0 x1 xs0 xs1 xs2 = k0_pay3 (k0_pay10 x0 xs1) := by
  unfold outC_3
  rw [View.read_writes_eq_canon _ _ _ (coverC_3 c t h0 h1 x0 x1 xs0 xs1 xs2)]
  unfold stepC kernelRun0_C
  dsimp only
  sl_unfold_words
  rw [View.canon_unit_zero off3_zero]
  simp only [View.readCov_unit_zero (S := S1x128) _ off2_zero, View.readAt_eq_ld, (hs0_0 t).read_unread, (hs0_1 t).read_unread, (Memref.isWhole_whole cc0_scratch0).read_unread, (Memref.isWhole_whole cc0_scratch1).read_unread, (Memref.isWhole_whole cc0_scratch2).read_unread, View.ld_unit_zero (S := S4000x128) off2_zero, View.ld_unit_zero (S := S4000x1) off2_zero, View.ld_unit_zero (S := S512x128) off2_zero, View.ld_unit_zero (S := S1x128) off2_zero, View.ld_unit_zero (S := S1x512) off2_zero]
theorem outC_4_eq (c : Dev nD) (t : Fin cfg0.N) (h0 : ¬t.val % 125 = 0) (h1 : t.val % 125 = 124) (x0 : Vec F S4000x128 .f32) (x1 : Vec F S4000x1 .i32) (xs0 : Vec F S512x128 .f32) (xs1 : Vec F S1x128 .f32) (xs2 : Vec F S1x512 .f32) :
    outC_4 (F := F) c t h0 h1 x0 x1 xs0 xs1 xs2 = k0_pay4 (k0_pay1 (k0_pay11 x1 xs2)) := by
  unfold outC_4
  rw [View.read_writes_eq_canon _ _ _ (coverC_4 c t h0 h1 x0 x1 xs0 xs1 xs2)]
  unfold stepC kernelRun0_C
  dsimp only
  sl_unfold_words
  rw [View.canon_unit_zero off3_zero]
  simp only [View.readCov_unit_zero (S := S1x512) _ off2_zero, View.readAt_eq_ld, (hs0_0 t).read_unread, (hs0_1 t).read_unread, (Memref.isWhole_whole cc0_scratch0).read_unread, (Memref.isWhole_whole cc0_scratch1).read_unread, (Memref.isWhole_whole cc0_scratch2).read_unread, View.ld_unit_zero (S := S4000x128) off2_zero, View.ld_unit_zero (S := S4000x1) off2_zero, View.ld_unit_zero (S := S512x128) off2_zero, View.ld_unit_zero (S := S1x128) off2_zero, View.ld_unit_zero (S := S1x512) off2_zero]

end Pieces

/-! ## The arithmetic at an index, over the extended reals -/

theorem pay5_apply (i : S512x128.Idx) : k0_pay5 (F := Ideal) i = 0 := by
  unfold k0_pay5
  rw [shapeCast_self]
  exact Ideal.ofBits_zero_f32
theorem pay6_apply (i : S1x128.Idx) : k0_pay6 (F := Ideal) i = 0 := by
  unfold k0_pay6
  rw [shapeCast_self]
  exact Ideal.ofBits_zero_f32
theorem pay7_apply (i : S1x512.Idx) : k0_pay7 (F := Ideal) i = 0 := by
  unfold k0_pay7
  rw [shapeCast_self]
  exact Ideal.ofBits_zero_f32

/-- A column read across a row: the one entry of row `p` of a `[a, 1]` array, at every column of the `[a, b]` array it is spread over. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison of the row's index word with the column number, as a one-bit word. -/
theorem pay8_apply (x1 : Vec Ideal S4000x1 .i32) (p : Fin 4000) (r : Fin 512) :
    k0_pay8 (F := Ideal) x1 (ix2 p r) = IntOp.cmpi .eq (x1 (ix2 p 0)) (BitVec.ofNat 32 r.val) := by
  unfold k0_pay8
  show IntOp.cmpi .eq (broadcastTo S4000x512 (shapeCast S4000x1 x1 shapeCasts_S4000x1_S4000x1) broadcasts_S4000x1_S4000x512 (ix2 p r))
      (iota .tc S4000x512 32 [1] iota_S4000x512_d1_w32 (ix2 p r)) = _
  rw [shapeCast_self]
  refine congrArg₂ (IntOp.cmpi .eq) ?_ ?_
  · exact broadcastTo_a1_ab_apply x1 broadcasts_S4000x1_S4000x512 p r
  · exact iota_single_apply .tc S4000x512 32 1 iota_S4000x512_d1_w32 (ix2 p r)

/-- A one-bit comparison widened and read as a number is one where the words agree and zero elsewhere. -/
theorem onehot_word (w v : BitVec 32) :
    (FloatOps.sitofp (F := Ideal) .f32 ((IntOp.cmpi .eq w v).setWidth 32) : EReal) = if w = v then 1 else 0 := by
  show (((( (IntOp.cmpi .eq w v).setWidth 32).toInt : ℝ)) : EReal) = _
  by_cases h : w = v
  · subst h
    simp [IntOp.cmpi]
  · have : (w == v) = false := by simpa using h
    simp [IntOp.cmpi, this, h]

theorem onehot_apply (x1 : Vec Ideal S4000x1 .i32) (p : Fin 4000) (r : Fin 512) :
    (sitofp .f32 (extui 32 (k0_pay8 (F := Ideal) x1) natLt_1_32) : FVec Ideal S4000x512 .f32) (ix2 p r) = Cert.Forms.hit (x1 (ix2 p 0)) r.val := by
  show FloatOps.sitofp (F := Ideal) .f32 ((k0_pay8 (F := Ideal) x1 (ix2 p r)).setWidth 32) = _
  rw [pay8_apply, onehot_word]
  rfl

/-! The product's operand indices: the contraction runs over the 4000 rows of both operands, the result's row is the
    one-hot operand's column and the result's column the values' column. -/

theorem lhs_dot_0 (i : S512x128.Idx) (q : dot_S4000x512_S4000x128_S512x128_0_0_1_1_n_n.contr.Idx) :
    (dot_S4000x512_S4000x128_S512x128_0_0_1_1_n_n.lhsIdx i q 0).val = (q ⟨0, by decide⟩).val :=
  dot_S4000x512_S4000x128_S512x128_0_0_1_1_n_n.lhsIdx_val_of_single rfl i q
theorem lhs_dot_1 (i : S512x128.Idx) (q : dot_S4000x512_S4000x128_S512x128_0_0_1_1_n_n.contr.Idx) :
    (dot_S4000x512_S4000x128_S512x128_0_0_1_1_n_n.lhsIdx i q 1).val = (i 0).val := by
  unfold DotDims.lhsIdx
  rw [dif_neg (show ¬(1 : Fin S4000x512.rank) ∈ dot_S4000x512_S4000x128_S512x128_0_0_1_1_n_n.lhsBatch by decide), dif_pos (show (1 : Fin S4000x512.rank) ∈ dot_S4000x512_S4000x128_S512x128_0_0_1_1_n_n.lhsNonContracting by decide)]
  rfl
theorem rhs_dot_0 (i : S512x128.Idx) (q : dot_S4000x512_S4000x128_S512x128_0_0_1_1_n_n.contr.Idx) :
    (dot_S4000x512_S4000x128_S512x128_0_0_1_1_n_n.rhsIdx i q 0).val = (q ⟨0, by decide⟩).val :=
  dot_S4000x512_S4000x128_S512x128_0_0_1_1_n_n.rhsIdx_val_of_single rfl i q
theorem rhs_dot_1 (i : S512x128.Idx) (q : dot_S4000x512_S4000x128_S512x128_0_0_1_1_n_n.contr.Idx) :
    (dot_S4000x512_S4000x128_S512x128_0_0_1_1_n_n.rhsIdx i q 1).val = (i 1).val := by
  unfold DotDims.rhsIdx
  rw [dif_neg (show ¬(1 : Fin S4000x128.rank) ∈ dot_S4000x512_S4000x128_S512x128_0_0_1_1_n_n.rhsBatch by decide), dif_pos (show (1 : Fin S4000x128.rank) ∈ dot_S4000x512_S4000x128_S512x128_0_0_1_1_n_n.rhsNonContracting by decide)]
  rfl

/-- The one-hot product added to the accumulator: the rows of the block whose index word hits category `r`. -/
theorem pay9_apply (x0 : Vec Ideal S4000x128 .f32) (x1 : Vec Ideal S4000x1 .i32) (s : Vec Ideal S512x128 .f32) (r : Fin 512) (d : Fin 128) :
    k0_pay9 (F := Ideal) x0 x1 s (ix2 r d) = s (ix2 r d) + ∑ p : Fin 4000, Cert.Forms.hit (x1 (ix2 p 0)) r.val * x0 (ix2 p d) := by
  unfold k0_pay9
  rw [shapeCast_self]
  show s (ix2 r d) + FloatOps.matmul dot_S4000x512_S4000x128_S512x128_0_0_1_1_n_n none
      (truncf .bf16 (sitofp .f32 (extui 32 (k0_pay8 (F := Ideal) x1) natLt_1_32) : FVec Ideal S4000x512 .f32) bitsLt_bf16_f32)
      (truncf .bf16 (x0 : FVec Ideal S4000x128 .f32) bitsLt_bf16_f32) (constant S512x128 .f32 0x00000000#32) (ix2 r d) = _
  refine congrArg (s (ix2 r d) + ·) ?_
  refine (Ideal.matmul_constant_zero_apply dot_S4000x512_S4000x128_S512x128_0_0_1_1_n_n none _ _ (ix2 r d)).trans ?_
  rw [← Equiv.sum_comp (ValueIdx.contrEquiv1 dot_S4000x512_S4000x128_S512x128_0_0_1_1_n_n 4000 rfl rfl).symm]
  refine Finset.sum_congr rfl fun k _ => ?_
  have hk := ValueIdx.contrEquiv1_symm_val dot_S4000x512_S4000x128_S512x128_0_0_1_1_n_n 4000 rfl rfl k
  have el : dot_S4000x512_S4000x128_S512x128_0_0_1_1_n_n.lhsIdx (ix2 r d) ((ValueIdx.contrEquiv1 dot_S4000x512_S4000x128_S512x128_0_0_1_1_n_n 4000 rfl rfl).symm k) = ix2 k r := funext fun a => Fin.ext (by
    match a with
    | ⟨0, _⟩ => exact (lhs_dot_0 _ _).trans hk
    | ⟨1, _⟩ => exact lhs_dot_1 _ _)
  have er : dot_S4000x512_S4000x128_S512x128_0_0_1_1_n_n.rhsIdx (ix2 r d) ((ValueIdx.contrEquiv1 dot_S4000x512_S4000x128_S512x128_0_0_1_1_n_n 4000 rfl rfl).symm k) = ix2 k d := funext fun a => Fin.ext (by
    match a with
    | ⟨0, _⟩ => exact (rhs_dot_0 _ _).trans hk
    | ⟨1, _⟩ => exact rhs_dot_1 _ _)
  rw [el, er]
  show (sitofp .f32 (extui 32 (k0_pay8 (F := Ideal) x1) natLt_1_32) : FVec Ideal S4000x512 .f32) (ix2 k r) * x0 (ix2 k d) = _
  rw [onehot_apply]

/-- A sum over the rows of a `[4000, n]` block, read at a column. -/
theorem colsum_apply {n : ℕ} (v : FVec Ideal ⟨2, ![4000, n]⟩ .f32) (h : (⟨2, ![4000, n]⟩ : Shape).Reduces [0] ⟨1, ![n]⟩)
    (hφ : FKind.Formats .f32) (hacc : (0x00000000#32 : BitVec 32) = FKind.add.neutral .f32 hφ) (c : Fin n) :
    multiReduction (F := Ideal) .add [0] ⟨1, ![n]⟩ v 0x00000000#32 h hφ hacc (ix1 c) = ∑ p : Fin 4000, v (ix2 p c) := by
  refine (Ideal.multiReduction_add_single v 0x00000000#32 h hφ hacc (ix1 c)).trans ?_
  refine Finset.sum_congr rfl fun p _ => congrArg v ?_
  funext a
  match a with
  | ⟨0, _⟩ => rfl
  | ⟨1, _⟩ => rfl

/-- The block's plain column sums added to the accumulator. -/
theorem pay10_apply (x0 : Vec Ideal S4000x128 .f32) (s : Vec Ideal S1x128 .f32) (d : Fin 128) :
    k0_pay10 (F := Ideal) x0 s (ix2 0 d) = s (ix2 0 d) + ∑ p : Fin 4000, x0 (ix2 p d) := by
  unfold k0_pay10
  rw [shapeCast_self]
  show s (ix2 0 d) + shapeCast S1x128 (multiReduction (F := Ideal) .add [0] S128 (x0 : FVec Ideal S4000x128 .f32) 0x00000000#32 reduces_S4000x128_S128 (.inl rfl) rfl) shapeCasts_S128_S1x128 (ix2 0 d) = _
  refine congrArg (s (ix2 0 d) + ·) ?_
  refine (shapeCast_a_1a_apply _ shapeCasts_S128_S1x128 0 d).trans ?_
  exact colsum_apply x0 reduces_S4000x128_S128 (.inl rfl) rfl d

/-- The block's hit counts added to the accumulator. -/
theorem pay11_apply (x1 : Vec Ideal S4000x1 .i32) (s : Vec Ideal S1x512 .f32) (r : Fin 512) :
    k0_pay1 (F := Ideal) (k0_pay11 x1 s) (ix2 0 r) = s (ix2 0 r) + ∑ p : Fin 4000, Cert.Forms.hit (x1 (ix2 p 0)) r.val := by
  unfold k0_pay1 k0_pay11
  rw [shapeCast_self]
  show s (ix2 0 r) + shapeCast S1x512 (multiReduction (F := Ideal) .add [0] S512 (sitofp .f32 (extui 32 (k0_pay8 (F := Ideal) x1) natLt_1_32) : FVec Ideal S4000x512 .f32) 0x00000000#32 reduces_S4000x512_S512 (.inl rfl) rfl) shapeCasts_S512_S1x512 (ix2 0 r) = _
  refine congrArg (s (ix2 0 r) + ·) ?_
  refine (shapeCast_a_1a_apply _ shapeCasts_S512_S1x512 0 r).trans ?_
  refine (colsum_apply _ reduces_S4000x512_S512 (.inl rfl) rfl r).trans ?_
  exact Finset.sum_congr rfl fun p _ => onehot_apply x1 p r

theorem pay2_apply (s : Vec Ideal S512x128 .f32) (r : Fin 512) (d : Fin 128) : k0_pay2 (F := Ideal) s (ix3 0 r d) = s (ix2 r d) := by
  unfold k0_pay2
  exact shapeCast_ab_1ab_apply s shapeCasts_S512x128_S1x512x128 0 r d
theorem pay3_apply (s : Vec Ideal S1x128 .f32) (d : Fin 128) : k0_pay3 (F := Ideal) s (ix3 0 0 d) = s (ix2 0 d) := by
  unfold k0_pay3
  exact shapeCast_ab_1ab_apply s shapeCasts_S1x128_S1x1x128 0 0 d
theorem pay4_apply (s : Vec Ideal S1x512 .f32) (r : Fin 512) : k0_pay4 (F := Ideal) s (ix3 0 0 r) = s (ix2 0 r) := by
  unfold k0_pay4
  exact shapeCast_ab_1ab_apply s shapeCasts_S1x512_S1x1x512 0 0 r

end Cert.KernelIdeal.Val

end
-- ==== Proof.Val.R0Value.lean ====
/-
  What region 0 leaves in its three result arrays, entry by entry.  The grid's 250 points are 2 halves of 125 steps; a
  point reads a block of 4000 rows of the values and of the index words, and adds, to three accumulators carried from step
  to step, the rows whose index word hits each category, all rows, and the hit counts.  A half's accumulators start from
  zero at its first step, so after step `j` they hold the sums over the half's blocks `0 … j`; at the half's last step
  they are copied, with a leading unit axis, to the half's block of each result array.  Hence the result arrays hold, per
  half, the sums over that half's 125 · 4000 entries.
-/
import proofs.«401576_j111669149722_3_alg».proof.Proof.Val.R0Pieces
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat Cfg Window)

namespace R0

/-! ## A run of 125 steps, summed -/

/-- A quantity carried through the points of a grid that starts afresh at every multiple of 125 and adds the point's
    own term at every other point is, at point `n`, the sum of the terms of its run of 125 up to `n`. -/
theorem run_eq_sum {β : Type*} [AddCommMonoid β] {N : ℕ} (f : (n : ℕ) → n < N → β) (M : ℕ → β)
    (h0 : ∀ (n : ℕ) (h : n < N), n % 125 = 0 → f n h = M n)
    (hs : ∀ (n : ℕ) (h : n + 1 < N), ¬(n + 1) % 125 = 0 → f (n + 1) h = f n (Nat.lt_of_succ_lt h) + M (n + 1)) :
    ∀ (n : ℕ) (h : n < N), f n h = ∑ s ∈ Finset.range (n % 125 + 1), M (n - n % 125 + s)
  | 0, h => by
    rw [h0 0 h rfl]; simp
  | n + 1, h => by
    by_cases hz : (n + 1) % 125 = 0
    · rw [h0 (n + 1) h hz, hz]; simp
    · rw [hs n h hz, run_eq_sum f M h0 hs n (Nat.lt_of_succ_lt h)]
      have e1 : (n + 1) % 125 = n % 125 + 1 := by omega
      have e2 : n + 1 - (n % 125 + 1) = n - n % 125 := by omega
      rw [e1, e2, Finset.sum_range_succ _ (n % 125 + 1)]
      congr 2
      omega

variable (V : (c : Dev nD) → (b : Ref sig .tc) → Buf (Elt Ideal) ((c : Thread nD τ).loc b))

/-! ## The arrays and the blocks a point reads -/

/-- The values as the region finds them: 1,000,000 rows of 128 lanes. -/
abbrev xarr (c : Dev nD) : Vec Ideal S1000000x128 .f32 := V c main_arg0
/-- The row indices as the region finds them: one index word per row. -/
abbrev iarr (c : Dev nD) : Vec Ideal S1000000x1 .i32 := V c main_v15
/-- The block of 4000 rows of the values that point `t` reads. -/
abbrev xblk (c : Dev nD) (t : Fin cfg0.N) : Vec Ideal S4000x128 .f32 := iblk0 V c 0 t
/-- The block of 4000 index words that point `t` reads. -/
abbrev iblk (c : Dev nD) (t : Fin cfg0.N) : Vec Ideal S4000x1 .i32 := iblk0 V c 1 t

/-- The block index of the two input windows at point `t` is `t` itself on the row axis and zero on the lane axis;
    the three output windows sit at block `t / 125` on their leading axis and at zero on the others. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 125 ∧ win0_2.index t (1 : Fin 3) = 0 ∧ win0_2.index t (2 : Fin 3) = 0
    ∧ win0_3.index t (0 : Fin 3) = t.val / 125 ∧ win0_3.index t (1 : Fin 3) = 0 ∧ win0_3.index t (2 : Fin 3) = 0
    ∧ win0_4.index t (0 : Fin 3) = t.val / 125 ∧ win0_4.index t (1 : Fin 3) = 0 ∧ win0_4.index t (2 : Fin 3) = 0 :=
  (by decide +kernel : ∀ t : Fin grid0.N, _)

/-- Row `p` of the values' block at point `t` is row `4000 t + p` of the array. -/
theorem xblk_apply (c : Dev nD) (t : Fin cfg0.N) (p : Fin 4000) (d : Fin 128) (q : Fin 1000000) (hq : q.val = t.val * 4000 + p.val) :
    xblk V c t (ix2 p d) = xarr V c (ix2 q d) := by
  obtain ⟨e0, e1, -⟩ := idx_facts t
  unfold xblk iblk0
  rw [View.read_apply]
  show V c main_arg0 _ = V c main_arg0 _
  congr 1
  funext a
  apply Fin.ext
  match a with
  | ⟨0, _⟩ => show win0_0.index t (0 : Fin 2) * 4000 + 1 * p.val = q.val; rw [e0]; omega
  | ⟨1, _⟩ => show win0_0.index t (1 : Fin 2) * 128 + 1 * d.val = d.val; rw [e1]; omega

/-- Row `p` of the index block at point `t` is the index word of row `4000 t + p`. -/
theorem iblk_apply (c : Dev nD) (t : Fin cfg0.N) (p : Fin 4000) (q : Fin 1000000) (hq : q.val = t.val * 4000 + p.val) :
    iblk V c t (ix2 p 0) = iarr V c (ix2 q 0) := by
  obtain ⟨-, -, e0, e1, -⟩ := idx_facts t
  unfold iblk iblk0
  rw [View.read_apply]
  show V c main_v15 _ = V c main_v15 _
  congr 1
  funext a
  apply Fin.ext
  match a with
  | ⟨0, _⟩ => show win0_1.index t (0 : Fin 2) * 4000 + 1 * p.val = q.val; rw [e0]; omega
  | ⟨1, _⟩ => show win0_1.index t (1 : Fin 2) * 1 + 1 * (0 : Fin 1).val = (0 : Fin 1).val; rw [e1]; rfl

/-! ## What a point adds -/

/-- What point `n` adds to the one-hot sums at category `r`, lane `d`: the rows of its block whose index word hits `r`. -/
def term0 (c : Dev nD) (r : Fin 512) (d : Fin 128) (n : ℕ) : EReal :=
  if h : n < cfg0.N then ∑ p : Fin 4000, Cert.Forms.hit (iblk V c ⟨n, h⟩ (ix2 p 0)) r.val * xblk V c ⟨n, h⟩ (ix2 p d) else 0
/-- What point `n` adds to the plain sums at lane `d`: all rows of its block. -/
def term1 (c : Dev nD) (d : Fin 128) (n : ℕ) : EReal :=
  if h : n < cfg0.N then ∑ p : Fin 4000, xblk V c ⟨n, h⟩ (ix2 p d) else 0
/-- What point `n` adds to the counts at category `r`: the hits among its block's index words. -/
def term2 (c : Dev nD) (r : Fin 512) (n : ℕ) : EReal :=
  if h : n < cfg0.N then ∑ p : Fin 4000, Cert.Forms.hit (iblk V c ⟨n, h⟩ (ix2 p 0)) r.val else 0

/-! ## The accumulators after a point -/

/-- At a half's first step the one-hot accumulator holds the step's own term (added to zeros). -/
theorem acc0_first (c : Dev nD) (r : Fin 512) (d : Fin 128) (n : ℕ) (h : n < cfg0.N) (h0 : n % 125 = 0) :
    ((outsAt0 V c n h).2.2.2.1 (ix2 r d) : EReal) = term0 V c r d n := by
  have h1 : ¬n % 125 = 124 := by omega
  rw [show outsAt0 V c n h = tupA V c ⟨n, h⟩ h0 h1 from outsAt0_A V c ⟨n, h⟩ h0 h1]
  dsimp only [tupA]
  refine (congrFun (soutA_0_eq (F := Ideal) c ⟨n, h⟩ h0 h1 (xblk V c ⟨n, h⟩) (iblk V c ⟨n, h⟩)) (ix2 r d)).trans ?_
  refine (pay9_apply (xblk V c ⟨n, h⟩) (iblk V c ⟨n, h⟩) (k0_pay5 (F := Ideal)) r d).trans ?_
  rw [pay5_apply, zero_add]
  unfold term0
  rw [dif_pos h]

/-- At every other step it holds what the step before left plus the step's own term. -/
theorem acc0_step (c : Dev nD) (r : Fin 512) (d : Fin 128) (n : ℕ) (h : n + 1 < cfg0.N) (hz : ¬(n + 1) % 125 = 0) :
    ((outsAt0 V c (n + 1) h).2.2.2.1 (ix2 r d) : EReal)
      = (outsAt0 V c n (Nat.lt_of_succ_lt h)).2.2.2.1 (ix2 r d) + term0 V c r d (n + 1) := by
  by_cases h1 : (n + 1) % 125 = 124
  · rw [show outsAt0 V c (n + 1) h = tupC V c ⟨n + 1, h⟩ hz h1 (outsAt0 V c n (Nat.lt_of_succ_lt h)) from outsAt0_C V c ⟨n + 1, h⟩ hz h1]
    dsimp only [tupC]
    refine (congrFun (soutC_0_eq (F := Ideal) c ⟨n + 1, h⟩ hz h1 (xblk V c ⟨n + 1, h⟩) (iblk V c ⟨n + 1, h⟩)
      (outsAt0 V c n (Nat.lt_of_succ_lt h)).2.2.2.1 (outsAt0 V c n (Nat.lt_of_succ_lt h)).2.2.2.2.1 (outsAt0 V c n (Nat.lt_of_succ_lt h)).2.2.2.2.2) (ix2 r d)).trans ?_
    refine (pay9_apply (xblk V c ⟨n + 1, h⟩) (iblk V c ⟨n + 1, h⟩) (outsAt0 V c n (Nat.lt_of_succ_lt h)).2.2.2.1 r d).trans ?_
    unfold term0
    rw [dif_pos h]
  · rw [show outsAt0 V c (n + 1) h = tupB V c ⟨n + 1, h⟩ hz h1 (outsAt0 V c n (Nat.lt_of_succ_lt h)) from outsAt0_B V c ⟨n + 1, h⟩ hz h1]
    dsimp only [tupB]
    refine (congrFun (soutB_0_eq (F := Ideal) c ⟨n + 1, h⟩ hz h1 (xblk V c ⟨n + 1, h⟩) (iblk V c ⟨n + 1, h⟩)
      (outsAt0 V c n (Nat.lt_of_succ_lt h)).2.2.2.1 (outsAt0 V c n (Nat.lt_of_succ_lt h)).2.2.2.2.1 (outsAt0 V c n (Nat.lt_of_succ_lt h)).2.2.2.2.2) (ix2 r d)).trans ?_
    refine (pay9_apply (xblk V c ⟨n + 1, h⟩) (iblk V c ⟨n + 1, h⟩) (outsAt0 V c n (Nat.lt_of_succ_lt h)).2.2.2.1 r d).trans ?_
    unfold term0
    rw [dif_pos h]

/-- After point `n` the one-hot accumulator holds the terms of the half's steps up to `n`. -/
theorem acc0_eq (c : Dev nD) (r : Fin 512) (d : Fin 128) (n : ℕ) (h : n < cfg0.N) :
    ((outsAt0 V c n h).2.2.2.1 (ix2 r d) : EReal) = ∑ s ∈ Finset.range (n % 125 + 1), term0 V c r d (n - n % 125 + s) :=
  run_eq_sum (fun n h => ((outsAt0 V c n h).2.2.2.1 (ix2 r d) : EReal)) (term0 V c r d) (acc0_first V c r d) (acc0_step V c r d) n h

/-- At a half's first step the plain-sum accumulator holds the step's own term. -/
theorem acc1_first (c : Dev nD) (d : Fin 128) (n : ℕ) (h : n < cfg0.N) (h0 : n % 125 = 0) :
    ((outsAt0 V c n h).2.2.2.2.1 (ix2 0 d) : EReal) = term1 V c d n := by
  have h1 : ¬n % 125 = 124 := by omega
  rw [show outsAt0 V c n h = tupA V c ⟨n, h⟩ h0 h1 from outsAt0_A V c ⟨n, h⟩ h0 h1]
  dsimp only [tupA]
  refine (congrFun (soutA_1_eq (F := Ideal) c ⟨n, h⟩ h0 h1 (xblk V c ⟨n, h⟩) (iblk V c ⟨n, h⟩)) (ix2 0 d)).trans ?_
  refine (pay10_apply (xblk V c ⟨n, h⟩) (k0_pay6 (F := Ideal)) d).trans ?_
  rw [pay6_apply, zero_add]
  unfold term1
  rw [dif_pos h]

/-- At every other step it holds what the step before left plus the step's own term. -/
theorem acc1_step (c : Dev nD) (d : Fin 128) (n : ℕ) (h : n + 1 < cfg0.N) (hz : ¬(n + 1) % 125 = 0) :
    ((outsAt0 V c (n + 1) h).2.2.2.2.1 (ix2 0 d) : EReal)
      = (outsAt0 V c n (Nat.lt_of_succ_lt h)).2.2.2.2.1 (ix2 0 d) + term1 V c d (n + 1) := by
  by_cases h1 : (n + 1) % 125 = 124
  · rw [show outsAt0 V c (n + 1) h = tupC V c ⟨n + 1, h⟩ hz h1 (outsAt0 V c n (Nat.lt_of_succ_lt h)) from outsAt0_C V c ⟨n + 1, h⟩ hz h1]
    dsimp only [tupC]
    refine (congrFun (soutC_1_eq (F := Ideal) c ⟨n + 1, h⟩ hz h1 (xblk V c ⟨n + 1, h⟩) (iblk V c ⟨n + 1, h⟩)
      (outsAt0 V c n (Nat.lt_of_succ_lt h)).2.2.2.1 (outsAt0 V c n (Nat.lt_of_succ_lt h)).2.2.2.2.1 (outsAt0 V c n (Nat.lt_of_succ_lt h)).2.2.2.2.2) (ix2 0 d)).trans ?_
    refine (pay10_apply (xblk V c ⟨n + 1, h⟩) (outsAt0 V c n (Nat.lt_of_succ_lt h)).2.2.2.2.1 d).trans ?_
    unfold term1
    rw [dif_pos h]
  · rw [show outsAt0 V c (n + 1) h = tupB V c ⟨n + 1, h⟩ hz h1 (outsAt0 V c n (Nat.lt_of_succ_lt h)) from outsAt0_B V c ⟨n + 1, h⟩ hz h1]
    dsimp only [tupB]
    refine (congrFun (soutB_1_eq (F := Ideal) c ⟨n + 1, h⟩ hz h1 (xblk V c ⟨n + 1, h⟩) (iblk V c ⟨n + 1, h⟩)
      (outsAt0 V c n (Nat.lt_of_succ_lt h)).2.2.2.1 (outsAt0 V c n (Nat.lt_of_succ_lt h)).2.2.2.2.1 (outsAt0 V c n (Nat.lt_of_succ_lt h)).2.2.2.2.2) (ix2 0 d)).trans ?_
    refine (pay10_apply (xblk V c ⟨n + 1, h⟩) (outsAt0 V c n (Nat.lt_of_succ_lt h)).2.2.2.2.1 d).trans ?_
    unfold term1
    rw [dif_pos h]

/-- After point `n` the plain-sum accumulator holds the terms of the half's steps up to `n`. -/
theorem acc1_eq (c : Dev nD) (d : Fin 128) (n : ℕ) (h : n < cfg0.N) :
    ((outsAt0 V c n h).2.2.2.2.1 (ix2 0 d) : EReal) = ∑ s ∈ Finset.range (n % 125 + 1), term1 V c d (n - n % 125 + s) :=
  run_eq_sum (fun n h => ((outsAt0 V c n h).2.2.2.2.1 (ix2 0 d) : EReal)) (term1 V c d) (acc1_first V c d) (acc1_step V c d) n h

/-- At a half's first step the count accumulator holds the step's own term. -/
theorem acc2_first (c : Dev nD) (r : Fin 512) (n : ℕ) (h : n < cfg0.N) (h0 : n % 125 = 0) :
    ((outsAt0 V c n h).2.2.2.2.2 (ix2 0 r) : EReal) = term2 V c r n := by
  have h1 : ¬n % 125 = 124 := by omega
  rw [show outsAt0 V c n h = tupA V c ⟨n, h⟩ h0 h1 from outsAt0_A V c ⟨n, h⟩ h0 h1]
  dsimp only [tupA]
  refine (congrFun (soutA_2_eq (F := Ideal) c ⟨n, h⟩ h0 h1 (xblk V c ⟨n, h⟩) (iblk V c ⟨n, h⟩)) (ix2 0 r)).trans ?_
  refine (pay11_apply (iblk V c ⟨n, h⟩) (k0_pay7 (F := Ideal)) r).trans ?_
  rw [pay7_apply, zero_add]
  unfold term2
  rw [dif_pos h]

/-- At every other step it holds what the step before left plus the step's own term. -/
theorem acc2_step (c : Dev nD) (r : Fin 512) (n : ℕ) (h : n + 1 < cfg0.N) (hz : ¬(n + 1) % 125 = 0) :
    ((outsAt0 V c (n + 1) h).2.2.2.2.2 (ix2 0 r) : EReal)
      = (outsAt0 V c n (Nat.lt_of_succ_lt h)).2.2.2.2.2 (ix2 0 r) + term2 V c r (n + 1) := by
  by_cases h1 : (n + 1) % 125 = 124
  · rw [show outsAt0 V c (n + 1) h = tupC V c ⟨n + 1, h⟩ hz h1 (outsAt0 V c n (Nat.lt_of_succ_lt h)) from outsAt0_C V c ⟨n + 1, h⟩ hz h1]
    dsimp only [tupC]
    refine (congrFun (soutC_2_eq (F := Ideal) c ⟨n + 1, h⟩ hz h1 (xblk V c ⟨n + 1, h⟩) (iblk V c ⟨n + 1, h⟩)
      (outsAt0 V c n (Nat.lt_of_succ_lt h)).2.2.2.1 (outsAt0 V c n (Nat.lt_of_succ_lt h)).2.2.2.2.1 (outsAt0 V c n (Nat.lt_of_succ_lt h)).2.2.2.2.2) (ix2 0 r)).trans ?_
    refine (pay11_apply (iblk V c ⟨n + 1, h⟩) (outsAt0 V c n (Nat.lt_of_succ_lt h)).2.2.2.2.2 r).trans ?_
    unfold term2
    rw [dif_pos h]
  · rw [show outsAt0 V c (n + 1) h = tupB V c ⟨n + 1, h⟩ hz h1 (outsAt0 V c n (Nat.lt_of_succ_lt h)) from outsAt0_B V c ⟨n + 1, h⟩ hz h1]
    dsimp only [tupB]
    refine (congrFun (soutB_2_eq (F := Ideal) c ⟨n + 1, h⟩ hz h1 (xblk V c ⟨n + 1, h⟩) (iblk V c ⟨n + 1, h⟩)
      (outsAt0 V c n (Nat.lt_of_succ_lt h)).2.2.2.1 (outsAt0 V c n (Nat.lt_of_succ_lt h)).2.2.2.2.1 (outsAt0 V c n (Nat.lt_of_succ_lt h)).2.2.2.2.2) (ix2 0 r)).trans ?_
    refine (pay11_apply (iblk V c ⟨n + 1, h⟩) (outsAt0 V c n (Nat.lt_of_succ_lt h)).2.2.2.2.2 r).trans ?_
    unfold term2
    rw [dif_pos h]

/-- After point `n` the count accumulator holds the terms of the half's steps up to `n`. -/
theorem acc2_eq (c : Dev nD) (r : Fin 512) (n : ℕ) (h : n < cfg0.N) :
    ((outsAt0 V c n h).2.2.2.2.2 (ix2 0 r) : EReal) = ∑ s ∈ Finset.range (n % 125 + 1), term2 V c r (n - n % 125 + s) :=
  run_eq_sum (fun n h => ((outsAt0 V c n h).2.2.2.2.2 (ix2 0 r) : EReal)) (term2 V c r) (acc2_first V c r) (acc2_step V c r) n h

/-! ## A point's terms over the arrays, and a half's sums -/

/-- Step `j` of half `h` is a point of the grid. -/
theorem pt_lt (hh : Fin 2) (j : Fin 125) : hh.val * 125 + j.val < cfg0.N := by
  rw [show cfg0.N = 250 from N_0]; have := hh.isLt; have := j.isLt; omega

/-- The one-hot term of step `j` of half `h`, over the arrays' own entries. -/
theorem term0_eq (c : Dev nD) (r : Fin 512) (d : Fin 128) (hh : Fin 2) (j : Fin 125) (n : ℕ) (hn : n = hh.val * 125 + j.val) :
    term0 V c r d n = ∑ p : Fin 4000, Cert.Forms.hit (iarr V c (ix2 (Cert.Forms.entry hh j p) 0)) r.val * xarr V c (ix2 (Cert.Forms.entry hh j p) d) := by
  have h : n < cfg0.N := by rw [hn]; exact pt_lt hh j
  unfold term0
  rw [dif_pos h]
  refine Finset.sum_congr rfl fun p _ => ?_
  have hq : (Cert.Forms.entry hh j p).val = (⟨n, h⟩ : Fin cfg0.N).val * 4000 + p.val := by
    show (hh.val * 125 + j.val) * 4000 + p.val = n * 4000 + p.val; rw [hn]
  rw [iblk_apply V c ⟨n, h⟩ p (Cert.Forms.entry hh j p) hq, xblk_apply V c ⟨n, h⟩ p d (Cert.Forms.entry hh j p) hq]

/-- The plain term of step `j` of half `h`, over the array's own entries. -/
theorem term1_eq (c : Dev nD) (d : Fin 128) (hh : Fin 2) (j : Fin 125) (n : ℕ) (hn : n = hh.val * 125 + j.val) :
    term1 V c d n = ∑ p : Fin 4000, xarr V c (ix2 (Cert.Forms.entry hh j p) d) := by
  have h : n < cfg0.N := by rw [hn]; exact pt_lt hh j
  unfold term1
  rw [dif_pos h]
  refine Finset.sum_congr rfl fun p _ => ?_
  have hq : (Cert.Forms.entry hh j p).val = (⟨n, h⟩ : Fin cfg0.N).val * 4000 + p.val := by
    show (hh.val * 125 + j.val) * 4000 + p.val = n * 4000 + p.val; rw [hn]
  rw [xblk_apply V c ⟨n, h⟩ p d (Cert.Forms.entry hh j p) hq]

/-- The count term of step `j` of half `h`, over the array's own entries. -/
theorem term2_eq (c : Dev nD) (r : Fin 512) (hh : Fin 2) (j : Fin 125) (n : ℕ) (hn : n = hh.val * 125 + j.val) :
    term2 V c r n = ∑ p : Fin 4000, Cert.Forms.hit (iarr V c (ix2 (Cert.Forms.entry hh j p) 0)) r.val := by
  have h : n < cfg0.N := by rw [hn]; exact pt_lt hh j
  unfold term2
  rw [dif_pos h]
  refine Finset.sum_congr rfl fun p _ => ?_
  have hq : (Cert.Forms.entry hh j p).val = (⟨n, h⟩ : Fin cfg0.N).val * 4000 + p.val := by
    show (hh.val * 125 + j.val) * 4000 + p.val = n * 4000 + p.val; rw [hn]
  rw [iblk_apply V c ⟨n, h⟩ p (Cert.Forms.entry hh j p) hq]

/-- Half `h`'s sum of the rows that hit category `r`, at lane `d`. -/
def hsums (c : Dev nD) (hh : Fin 2) (r : Fin 512) (d : Fin 128) : EReal :=
  ∑ j : Fin 125, ∑ p : Fin 4000, Cert.Forms.hit (iarr V c (ix2 (Cert.Forms.entry hh j p) 0)) r.val * xarr V c (ix2 (Cert.Forms.entry hh j p) d)
/-- Half `h`'s sum of all rows, at lane `d`. -/
def hgsums (c : Dev nD) (hh : Fin 2) (d : Fin 128) : EReal :=
  ∑ j : Fin 125, ∑ p : Fin 4000, xarr V c (ix2 (Cert.Forms.entry hh j p) d)
/-- Half `h`'s count of the entries that hit category `r`. -/
def hcounts (c : Dev nD) (hh : Fin 2) (r : Fin 512) : EReal :=
  ∑ j : Fin 125, ∑ p : Fin 4000, Cert.Forms.hit (iarr V c (ix2 (Cert.Forms.entry hh j p) 0)) r.val

/-- At a half's last step the run of steps summed is the whole half. -/
theorem half_sum (T : ℕ → EReal) (n : ℕ) (h1 : n % 125 = 124) (hh : Fin 2) (hhv : hh.val = n / 125) :
    ∑ s ∈ Finset.range (n % 125 + 1), T (n - n % 125 + s) = ∑ j : Fin 125, T (hh.val * 125 + j.val) := by
  rw [h1, show 124 + 1 = 125 from rfl, Finset.sum_range]
  refine Finset.sum_congr rfl fun j _ => ?_
  congr 1
  omega

/-! ## The output blocks at a half's last step -/

/-- Output block 2 at a half's last step is the one-hot accumulator re-laid: the half's one-hot sums. -/
theorem out2_last (c : Dev nD) (t : Fin cfg0.N) (h1 : t.val % 125 = 124) (hh : Fin 2) (hhv : hh.val = t.val / 125) (r : Fin 512) (d : Fin 128) :
    ((outsAt0 V c t.val t.isLt).1 (ix3 0 r d) : EReal) = hsums V c hh r d := by
  have h0 : ¬t.val % 125 = 0 := by omega
  have e : ((outsAt0 V c t.val t.isLt).1 (ix3 0 r d) : EReal) = (outsAt0 V c t.val t.isLt).2.2.2.1 (ix2 r d) := by
    rw [outsAt0_C V c t h0 h1]
    dsimp only [tupC]
    exact (congrFun (outC_2_eq (F := Ideal) c t h0 h1 (xblk V c t) (iblk V c t)
        (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) (ix3 0 r d)).trans
      ((pay2_apply _ r d).trans (congrFun (soutC_0_eq (F := Ideal) c t h0 h1 (xblk V c t) (iblk V c t)
        (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) (ix2 r d)).symm)
  rw [e, acc0_eq V c r d t.val t.isLt, half_sum (term0 V c r d) t.val h1 hh hhv]
  unfold hsums
  exact Finset.sum_congr rfl fun j _ => term0_eq V c r d hh j _ rfl

/-- Output block 3 at a half's last step is the plain-sum accumulator re-laid: the half's plain sums. -/
theorem out3_last (c : Dev nD) (t : Fin cfg0.N) (h1 : t.val % 125 = 124) (hh : Fin 2) (hhv : hh.val = t.val / 125) (d : Fin 128) :
    ((outsAt0 V c t.val t.isLt).2.1 (ix3 0 0 d) : EReal) = hgsums V c hh d := by
  have h0 : ¬t.val % 125 = 0 := by omega
  have e : ((outsAt0 V c t.val t.isLt).2.1 (ix3 0 0 d) : EReal) = (outsAt0 V c t.val t.isLt).2.2.2.2.1 (ix2 0 d) := by
    rw [outsAt0_C V c t h0 h1]
    dsimp only [tupC]
    exact (congrFun (outC_3_eq (F := Ideal) c t h0 h1 (xblk V c t) (iblk V c t)
        (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) (ix3 0 0 d)).trans
      ((pay3_apply _ d).trans (congrFun (soutC_1_eq (F := Ideal) c t h0 h1 (xblk V c t) (iblk V c t)
        (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) (ix2 0 d)).symm)
  rw [e, acc1_eq V c d t.val t.isLt, half_sum (term1 V c d) t.val h1 hh hhv]
  unfold hgsums
  exact Finset.sum_congr rfl fun j _ => term1_eq V c d hh j _ rfl

/-- Output block 4 at a half's last step is the count accumulator re-laid: the half's counts. -/
theorem out4_last (c : Dev nD) (t : Fin cfg0.N) (h1 : t.val % 125 = 124) (hh : Fin 2) (hhv : hh.val = t.val / 125) (r : Fin 512) :
    ((outsAt0 V c t.val t.isLt).2.2.1 (ix3 0 0 r) : EReal) = hcounts V c hh r := by
  have h0 : ¬t.val % 125 = 0 := by omega
  have e : ((outsAt0 V c t.val t.isLt).2.2.1 (ix3 0 0 r) : EReal) = (outsAt0 V c t.val t.isLt).2.2.2.2.2 (ix2 0 r) := by
    rw [outsAt0_C V c t h0 h1]
    dsimp only [tupC]
    exact (congrFun (outC_4_eq (F := Ideal) c t h0 h1 (xblk V c t) (iblk V c t)
        (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) (ix3 0 0 r)).trans
      ((pay4_apply _ r).trans (congrFun (soutC_2_eq (F := Ideal) c t h0 h1 (xblk V c t) (iblk V c t)
        (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2) (ix2 0 r)).symm)
  rw [e, acc2_eq V c r t.val t.isLt, half_sum (term2 V c r) t.val h1 hh hhv]
  unfold hcounts
  exact Finset.sum_congr rfl fun j _ => term2_eq V c r hh j _ rfl

/-! ## From blocks to the arrays -/

/-- What result array 0 ends holding: at `(h, r, d)` half `h`'s one-hot sum of category `r` at lane `d`. -/
abbrev sumsArr (c : Dev nD) : Vec Ideal S2x512x128 .f32 := fun i => hsums V c (i 0) (i 1) (i 2)
/-- What result array 1 ends holding: at `(h, 0, d)` half `h`'s plain sum at lane `d`. -/
abbrev gsumsArr (c : Dev nD) : Vec Ideal S2x1x128 .f32 := fun i => hgsums V c (i 0) (i 2)
/-- What result array 2 ends holding: at `(h, 0, r)` half `h`'s count of category `r`. -/
abbrev countsArr (c : Dev nD) : Vec Ideal S2x1x512 .f32 := fun i => hcounts V c (i 0) (i 2)

/-- The write-back of window 2, at a half's last step, writes the half's block of the one-hot sums. -/
theorem flushed2_eq (c : Dev nD) (t : Fin cfg0.N) (hf : (cfg0.win 2).flush t = true) :
    (dat0 V c).flushed 2 t = ((cfg0.win 2).blk t).view.read (Elt Ideal) (sumsArr V c) := by
  have h1 : t.val % 125 = 124 := (flush0_2 t).mp hf
  have hN : t.val < 250 := lt_of_lt_of_eq t.isLt (show cfg0.N = 250 from N_0)
  obtain ⟨-, -, -, -, e0, e1, e2, -⟩ := idx_facts t
  show (cfg0.win 2).cut (grid0.coords t) ((dat0 V c).after 2 t) = _
  rw [after0_2]
  refine funext fun (y : S1x512x128.Idx) => ?_
  obtain ⟨y0, y1, y2, rfl⟩ : ∃ (y0 : Fin 1) (y1 : Fin 512) (y2 : Fin 128), y = ix3 y0 y1 y2 := ⟨y 0, y 1, y 2, eq_ix3 y⟩
  obtain rfl : y0 = 0 := Subsingleton.elim _ _
  have eb : ((cfg0.win 2).blk t).view.emb (ix3 (0 : Fin 1) y1 y2) = (ix3 (⟨t.val / 125, by omega⟩ : Fin 2) y1 y2 : S2x512x128.Idx) := by
    funext a; apply Fin.ext
    match a with
    | ⟨0, _⟩ => show win0_2.index t (0 : Fin 3) * 1 + 1 * 0 = t.val / 125; rw [e0]; omega
    | ⟨1, _⟩ => show win0_2.index t (1 : Fin 3) * 512 + 1 * y1.val = y1.val; rw [e1]; omega
    | ⟨2, _⟩ => show win0_2.index t (2 : Fin 3) * 128 + 1 * y2.val = y2.val; rw [e2]; omega
  rw [View.read_apply]
  show ((outsAt0 V c t.val t.isLt).1 (ix3 0 y1 y2) : EReal) = sumsArr V c (((cfg0.win 2).blk t).view.emb (ix3 (0 : Fin 1) y1 y2))
  rw [eb]
  exact out2_last V c t h1 ⟨t.val / 125, by omega⟩ rfl y1 y2

/-- The write-back of window 3, at a half's last step, writes the half's block of the plain sums. -/
theorem flushed3_eq (c : Dev nD) (t : Fin cfg0.N) (hf : (cfg0.win 3).flush t = true) :
    (dat0 V c).flushed 3 t = ((cfg0.win 3).blk t).view.read (Elt Ideal) (gsumsArr V c) := by
  have h1 : t.val % 125 = 124 := (flush0_3 t).mp hf
  have hN : t.val < 250 := lt_of_lt_of_eq t.isLt (show cfg0.N = 250 from N_0)
  obtain ⟨-, -, -, -, -, -, -, e0, e1, e2, -⟩ := idx_facts t
  show (cfg0.win 3).cut (grid0.coords t) ((dat0 V c).after 3 t) = _
  rw [after0_3]
  refine funext fun (y : S1x1x128.Idx) => ?_
  obtain ⟨y0, y1, y2, rfl⟩ : ∃ (y0 : Fin 1) (y1 : Fin 1) (y2 : Fin 128), y = ix3 y0 y1 y2 := ⟨y 0, y 1, y 2, eq_ix3 y⟩
  obtain rfl : y0 = 0 := Subsingleton.elim _ _
  obtain rfl : y1 = 0 := Subsingleton.elim _ _
  have eb : ((cfg0.win 3).blk t).view.emb (ix3 (0 : Fin 1) (0 : Fin 1) y2) = (ix3 (⟨t.val / 125, by omega⟩ : Fin 2) (0 : Fin 1) y2 : S2x1x128.Idx) := by
    funext a; apply Fin.ext
    match a with
    | ⟨0, _⟩ => show win0_3.index t (0 : Fin 3) * 1 + 1 * 0 = t.val / 125; rw [e0]; omega
    | ⟨1, _⟩ => show win0_3.index t (1 : Fin 3) * 1 + 1 * 0 = 0; rw [e1]
    | ⟨2, _⟩ => show win0_3.index t (2 : Fin 3) * 128 + 1 * y2.val = y2.val; rw [e2]; omega
  rw [View.read_apply]
  show ((outsAt0 V c t.val t.isLt).2.1 (ix3 0 0 y2) : EReal) = gsumsArr V c (((cfg0.win 3).blk t).view.emb (ix3 (0 : Fin 1) (0 : Fin 1) y2))
  rw [eb]
  exact out3_last V c t h1 ⟨t.val / 125, by omega⟩ rfl y2

/-- The write-back of window 4, at a half's last step, writes the half's block of the counts. -/
theorem flushed4_eq (c : Dev nD) (t : Fin cfg0.N) (hf : (cfg0.win 4).flush t = true) :
    (dat0 V c).flushed 4 t = ((cfg0.win 4).blk t).view.read (Elt Ideal) (countsArr V c) := by
  have h1 : t.val % 125 = 124 := (flush0_4 t).mp hf
  have hN : t.val < 250 := lt_of_lt_of_eq t.isLt (show cfg0.N = 250 from N_0)
  obtain ⟨-, -, -, -, -, -, -, -, -, -, e0, e1, e2⟩ := idx_facts t
  show (cfg0.win 4).cut (grid0.coords t) ((dat0 V c).after 4 t) = _
  rw [after0_4]
  refine funext fun (y : S1x1x512.Idx) => ?_
  obtain ⟨y0, y1, y2, rfl⟩ : ∃ (y0 : Fin 1) (y1 : Fin 1) (y2 : Fin 512), y = ix3 y0 y1 y2 := ⟨y 0, y 1, y 2, eq_ix3 y⟩
  obtain rfl : y0 = 0 := Subsingleton.elim _ _
  obtain rfl : y1 = 0 := Subsingleton.elim _ _
  have eb : ((cfg0.win 4).blk t).view.emb (ix3 (0 : Fin 1) (0 : Fin 1) y2) = (ix3 (⟨t.val / 125, by omega⟩ : Fin 2) (0 : Fin 1) y2 : S2x1x512.Idx) := by
    funext a; apply Fin.ext
    match a with
    | ⟨0, _⟩ => show win0_4.index t (0 : Fin 3) * 1 + 1 * 0 = t.val / 125; rw [e0]; omega
    | ⟨1, _⟩ => show win0_4.index t (1 : Fin 3) * 1 + 1 * 0 = 0; rw [e1]
    | ⟨2, _⟩ => show win0_4.index t (2 : Fin 3) * 512 + 1 * y2.val = y2.val; rw [e2]; omega
  rw [View.read_apply]
  show ((outsAt0 V c t.val t.isLt).2.2.1 (ix3 0 0 y2) : EReal) = countsArr V c (((cfg0.win 4).blk t).view.emb (ix3 (0 : Fin 1) (0 : Fin 1) y2))
  rw [eb]
  exact out4_last V c t h1 ⟨t.val / 125, by omega⟩ rfl y2

/-- Every entry of result array 0 lies in the block its half's last step writes back. -/
theorem cover2 (i : S2x512x128.Idx) : ∃ t : Fin cfg0.N, (cfg0.win 2).flush t = true ∧ i ∈ ((cfg0.win 2).blk t).view.set := by
  have hi0 : (i 0).val < 2 := (i 0).isLt
  have hi1 : (i 1).val < 512 := (i 1).isLt
  have hi2 : (i 2).val < 128 := (i 2).isLt
  obtain ⟨t, ht⟩ : ∃ t : Fin cfg0.N, t.val = 125 * (i 0).val + 124 :=
    ⟨⟨125 * (i 0).val + 124, by rw [show cfg0.N = 250 from N_0]; omega⟩, rfl⟩
  obtain ⟨-, -, -, -, e0, e1, e2, -⟩ := idx_facts t
  refine ⟨t, (flush0_2 t).mpr (by omega), ?_⟩
  show i ∈ ((View.whole main_v16_0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 512 ≤ (i 1).val ∧ (i 1).val < win0_2.index t (1 : Fin 3) * 512 + 512; rw [e1]; omega
  | ⟨2, _⟩ => show win0_2.index t (2 : Fin 3) * 128 ≤ (i 2).val ∧ (i 2).val < win0_2.index t (2 : Fin 3) * 128 + 128; rw [e2]; omega

/-- Every entry of result array 1 lies in the block its half's last step writes back. -/
theorem cover3 (i : S2x1x128.Idx) : ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 128 := (i 2).isLt
  obtain ⟨t, ht⟩ : ∃ t : Fin cfg0.N, t.val = 125 * (i 0).val + 124 :=
    ⟨⟨125 * (i 0).val + 124, by rw [show cfg0.N = 250 from N_0]; omega⟩, rfl⟩
  obtain ⟨-, -, -, -, -, -, -, e0, e1, e2, -⟩ := idx_facts t
  refine ⟨t, (flush0_3 t).mpr (by omega), ?_⟩
  show i ∈ ((View.whole main_v16_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 1 ≤ (i 1).val ∧ (i 1).val < win0_3.index t (1 : Fin 3) * 1 + 1; rw [e1]; omega
  | ⟨2, _⟩ => show win0_3.index t (2 : Fin 3) * 128 ≤ (i 2).val ∧ (i 2).val < win0_3.index t (2 : Fin 3) * 128 + 128; rw [e2]; omega

/-- Every entry of result array 2 lies in the block its half's last step writes back. -/
theorem cover4 (i : S2x1x512.Idx) : ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 512 := (i 2).isLt
  obtain ⟨t, ht⟩ : ∃ t : Fin cfg0.N, t.val = 125 * (i 0).val + 124 :=
    ⟨⟨125 * (i 0).val + 124, by rw [show cfg0.N = 250 from N_0]; omega⟩, rfl⟩
  obtain ⟨-, -, -, -, -, -, -, -, -, -, e0, e1, e2⟩ := idx_facts t
  refine ⟨t, (flush0_4 t).mpr (by omega), ?_⟩
  show i ∈ ((View.whole main_v16_2).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; rw [e0]; omega
  | ⟨1, _⟩ => show win0_4.index t (1 : Fin 3) * 1 ≤ (i 1).val ∧ (i 1).val < win0_4.index t (1 : Fin 3) * 1 + 1; rw [e1]; omega
  | ⟨2, _⟩ => show win0_4.index t (2 : Fin 3) * 512 ≤ (i 2).val ∧ (i 2).val < win0_4.index t (2 : Fin 3) * 512 + 512; rw [e2]; omega

end R0

open R0

/-! ## The three result arrays after the region -/

/-- Result array 0 after the region: half `h`'s sum, over its 125 · 4000 entries, of the rows whose index word hits
    category `r`, at lane `d`. -/
theorem r0_sums (V : (c : Dev nD) → (b : Ref sig .tc) → Buf (Elt Ideal) ((c : Thread nD τ).loc b)) (c : Dev nD) (h : Fin 2) (r : Fin 512) (d : Fin 128) :
    ((dat0 V c).arrAt 2 cfg0.N (ix3 h r d) : EReal)
      = ∑ j : Fin 125, ∑ p : Fin 4000, Cert.Forms.hit ((V c main_v15 : S1000000x1.Idx → BitVec 32) (ix2 (Cert.Forms.entry h j p) 0)) r.val
          * (V c main_arg0 : S1000000x128.Idx → EReal) (ix2 (Cert.Forms.entry h j p) d) :=
  congrFun ((dat0 V c).arrAt_eq_of_cover 2 (sumsArr V c) (flushed2_eq V c) cover2) (ix3 h r d)

/-- Result array 1 after the region: half `h`'s sum of all its entries' rows, at lane `d`. -/
theorem r0_gsums (V : (c : Dev nD) → (b : Ref sig .tc) → Buf (Elt Ideal) ((c : Thread nD τ).loc b)) (c : Dev nD) (h : Fin 2) (d : Fin 128) :
    ((dat0 V c).arrAt 3 cfg0.N (ix3 h 0 d) : EReal)
      = (∑ j : Fin 125, ∑ p : Fin 4000, (V c main_arg0 : S1000000x128.Idx → EReal) (ix2 (Cert.Forms.entry h j p) d) : EReal) :=
  congrFun ((dat0 V c).arrAt_eq_of_cover 3 (gsumsArr V c) (flushed3_eq V c) cover3) (ix3 h 0 d)

/-- Result array 2 after the region: half `h`'s count of the entries whose index word hits category `r`. -/
theorem r0_counts (V : (c : Dev nD) → (b : Ref sig .tc) → Buf (Elt Ideal) ((c : Thread nD τ).loc b)) (c : Dev nD) (h : Fin 2) (r : Fin 512) :
    ((dat0 V c).arrAt 4 cfg0.N (ix3 h 0 r) : EReal)
      = ∑ j : Fin 125, ∑ p : Fin 4000, Cert.Forms.hit ((V c main_v15 : S1000000x1.Idx → BitVec 32) (ix2 (Cert.Forms.entry h j p) 0)) r.val :=
  congrFun ((dat0 V c).arrAt_eq_of_cover 4 (countsArr V c) (flushed4_eq V c) cover4) (ix3 h 0 r)

end Cert.KernelIdeal.Val

end
-- ==== Proof.Val.R1Value.lean ====
/-
  The combine region's result, read at an index.

  At each of its 125 points the region multiplies a block of 8000 rows of the values by the 128×128 weight, adds the bias
  along the rows and the same rows of the table term, and scales by the literal ¼; nothing is carried between points.
  So the result array after the region is one function of the four arrays the region reads: at row n, column e,
  ((Σₖ values(n, k) · weight(k, e)) + bias(e) + table(n, e)) · ¼. The steps: the body's arithmetic at one element of a
  block; each input block as rows of its array; what a point writes back as its block of the whole-array function; the
  blocks tile the array, row n lying in block n / 8000.
-/
import proofs.«401576_j111669149722_3_alg».proof.Proof.KI.R1Frame
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

theorem lhs_mm_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhs_mm_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhs_mm_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhs_mm_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The block product into the zero accumulator, at row p and column e: row p of the left block against column e of the weight. -/
theorem mm_apply (l : FVec Ideal S8000x128 .bf16) (r : FVec Ideal S128x128 .bf16) (p : Fin 8000) (e : Fin 128) :
    matmul dot_S8000x128_S128x128_S8000x128_1_0_0_1_n_n none l r (constant (F := Ideal) S8000x128 .f32 0x00000000#32) (ix2 p e)
      = ∑ k : Fin 128, l (ix2 p k) * r (ix2 k e) := by
  show FloatOps.matmul _ _ _ _ _ _ = _
  rw [Ideal.matmul_constant_zero_apply, ← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ix2 p e) ((ValueIdx.contrEquiv1 dot_S8000x128_S128x128_S8000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S8000x128_S128x128_S8000x128_1_0_0_1_n_n.rhsIdx (ix2 p e) ((ValueIdx.contrEquiv1 dot_S8000x128_S128x128_S8000x128_1_0_0_1_n_n 128 rfl rfl).symm k) = ix2 k e := funext fun a => Fin.ext (by
    match a with
    | ⟨0, _⟩ => exact (rhs_mm_0 _ _).trans hk
    | ⟨1, _⟩ => exact rhs_mm_1 _ _)
  rw [el, er]

/-- The body's arithmetic at row p, column e of the block. -/
theorem pay_apply (x0 : FVec Ideal S8000x128 .f32) (x2 : FVec Ideal S128x128 .f32) (x3 : FVec Ideal S128 .f32) (x1 : FVec Ideal S8000x128 .bf16)
    (p : Fin 8000) (e : Fin 128) :
    k1_pay1 (F := Ideal) x0 x2 x3 x1 (ix2 p e)
      = (((∑ k : Fin 128, x0 (ix2 p k) * x2 (ix2 k e)) + x3 (ix1 e)) + x1 (ix2 p e)) * Ideal.ofBits .f32 0x3E800000#32 := by
  unfold k1_pay1
  rw [mulf_apply, addf_apply, addf_apply, mm_apply, broadcast_apply, extf_apply, shapeCast_self,
    broadcastTo_1b_ab_apply, shapeCast_a_1a_apply]
  rfl

section
variable (V : (c : Dev nD) → (b : Ref sig .tc) → Buf (Elt Ideal) ((c : Thread nD τ).loc b))

/-- The whole result array as one function of the four arrays the region reads: at row n, column e, row n of the values
    against column e of the weight, plus the bias at e, plus the table term at (n, e), the sum scaled by the literal. -/
def G1 (a0 a1 : S1000000x128.Idx → EReal) (a2 : S128x128.Idx → EReal) (a3 : S128.Idx → EReal) : S1000000x128.Idx → EReal := fun i =>
  (((∑ k : Fin 128, a0 (ix2 (i 0) k) * a2 (ix2 k (i 1))) + a3 (ix1 (i 1))) + a1 i) * Ideal.ofBits .f32 0x3E800000#32

/-- The index maps over the grid: the three row-blocked windows sit at block row t, column block 0; the weight and the
    bias at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Row p of the values' block at point t is row 8000 t + p of the values. -/
theorem iblk0_at (c : Dev nD) (t : Fin cfg1.N) (p : Fin 8000) (k : Fin 128) (i : S1000000x128.Idx)
    (h0 : (i 0).val = t.val * 8000 + p.val) (h1 : (i 1).val = k.val) :
    (iblk1 V c 0 t : Vec Ideal S8000x128 .f32) (ix2 p k) = (V c main_arg0 : S1000000x128.Idx → EReal) i := by
  obtain ⟨f0, f1, -⟩ := idx_facts t
  unfold iblk1
  rw [View.read_apply]
  show V c main_arg0 _ = V c main_arg0 _
  congr 1
  funext a
  apply Fin.ext
  match a with
  | ⟨0, _⟩ => show win1_0.index t (0 : Fin 2) * 8000 + 1 * p.val = (i 0).val; omega
  | ⟨1, _⟩ => show win1_0.index t (1 : Fin 2) * 128 + 1 * k.val = (i 1).val; omega

/-- Row p of the table term's block at point t is row 8000 t + p of the table term. -/
theorem iblk1_at (c : Dev nD) (t : Fin cfg1.N) (p : Fin 8000) (k : Fin 128) (i : S1000000x128.Idx)
    (h0 : (i 0).val = t.val * 8000 + p.val) (h1 : (i 1).val = k.val) :
    (iblk1 V c 1 t : Vec Ideal S8000x128 .bf16) (ix2 p k) = (V c main_v66 : S1000000x128.Idx → EReal) i := by
  obtain ⟨-, -, f0, f1, -⟩ := idx_facts t
  unfold iblk1
  rw [View.read_apply]
  show V c main_v66 _ = V c main_v66 _
  congr 1
  funext a
  apply Fin.ext
  match a with
  | ⟨0, _⟩ => show win1_1.index t (0 : Fin 2) * 8000 + 1 * p.val = (i 0).val; omega
  | ⟨1, _⟩ => show win1_1.index t (1 : Fin 2) * 128 + 1 * k.val = (i 1).val; omega

/-- The weight's block at every point is the weight. -/
theorem iblk2_at (c : Dev nD) (t : Fin cfg1.N) (k e : Fin 128) (i : S128x128.Idx)
    (h0 : (i 0).val = k.val) (h1 : (i 1).val = e.val) :
    (iblk1 V c 2 t : Vec Ideal S128x128 .f32) (ix2 k e) = (V c main_arg3 : S128x128.Idx → EReal) i := by
  obtain ⟨-, -, -, -, f0, f1, -⟩ := idx_facts t
  unfold iblk1
  rw [View.read_apply]
  show V c main_arg3 _ = V c main_arg3 _
  congr 1
  funext a
  apply Fin.ext
  match a with
  | ⟨0, _⟩ => show win1_2.index t (0 : Fin 2) * 128 + 1 * k.val = (i 0).val; omega
  | ⟨1, _⟩ => show win1_2.index t (1 : Fin 2) * 128 + 1 * e.val = (i 1).val; omega

/-- The bias's block at every point is the bias. -/
theorem iblk3_at (c : Dev nD) (t : Fin cfg1.N) (e : Fin 128) (i : S128.Idx) (h0 : (i 0).val = e.val) :
    (iblk1 V c 3 t : Vec Ideal S128 .f32) (ix1 e) = (V c main_arg4 : S128.Idx → EReal) i := by
  obtain ⟨-, -, -, -, -, -, f0, -⟩ := idx_facts t
  unfold iblk1
  rw [View.read_apply]
  show V c main_arg4 _ = V c main_arg4 _
  congr 1
  funext a
  apply Fin.ext
  match a with
  | ⟨0, _⟩ => show win1_3.index t (0 : Fin 1) * 128 + 1 * e.val = (i 0).val; omega

/-- Row p of the result's block at point t is row 8000 t + p of the result … -/
theorem emb4_0 (t : Fin cfg1.N) (p : Fin 8000) (e : Fin 128) :
    ((((cfg1.win 4).blk t).view.emb (ix2 p e) : S1000000x128.Idx) 0).val = t.val * 8000 + p.val := by
  obtain ⟨-, -, -, -, -, -, -, f0, f1⟩ := idx_facts t
  show win1_4.index t (0 : Fin 2) * 8000 + 1 * p.val = _; omega
/-- … at the same column. -/
theorem emb4_1 (t : Fin cfg1.N) (p : Fin 8000) (e : Fin 128) :
    ((((cfg1.win 4).blk t).view.emb (ix2 p e) : S1000000x128.Idx) 1).val = e.val := by
  obtain ⟨-, -, -, -, -, -, -, f0, f1⟩ := idx_facts t
  show win1_4.index t (1 : Fin 2) * 128 + 1 * e.val = _; omega

/-- What point t leaves at row p, column e of the result's block is the whole-array function at the block's place. -/
theorem flushed_at (c : Dev nD) (t : Fin cfg1.N) (p : Fin 8000) (e : Fin 128) :
    k1_pay1 (F := Ideal) (iblk1 V c 0 t) (iblk1 V c 2 t) (iblk1 V c 3 t) (iblk1 V c 1 t) (ix2 p e)
      = G1 (V c main_arg0) (V c main_v66) (V c main_arg3) (V c main_arg4) (((cfg1.win 4).blk t).view.emb (ix2 p e)) := by
  rw [pay_apply]
  unfold G1
  refine congrArg (· * Ideal.ofBits .f32 0x3E800000#32) ?_
  refine congrArg₂ (· + ·) (congrArg₂ (· + ·) (Finset.sum_congr rfl fun k _ => ?_) ?_) ?_
  · rw [iblk0_at V c t p k (ix2 ((((cfg1.win 4).blk t).view.emb (ix2 p e) : S1000000x128.Idx) 0) k) (emb4_0 t p e) rfl,
      iblk2_at V c t k e (ix2 k ((((cfg1.win 4).blk t).view.emb (ix2 p e) : S1000000x128.Idx) 1)) rfl (emb4_1 t p e)]
  · exact iblk3_at V c t e _ (emb4_1 t p e)
  · exact iblk1_at V c t p e _ (emb4_0 t p e) (emb4_1 t p e)

/-- What point t writes back is its block of the whole-array function. -/
theorem flushed_eq (c : Dev nD) (t : Fin cfg1.N) :
    (dat1 V c).flushed 4 t
      = ((cfg1.win 4).blk t).view.read (Elt Ideal) (G1 (V c main_arg0) (V c main_v66) (V c main_arg3) (V c main_arg4)) := by
  show (cfg1.win 4).cut (grid1.coords t) ((dat1 V c).after 4 t) = _
  rw [after1_4]
  unfold out1_4
  rw [View.canon_unit_zero hz2]
  simp only [View.ld_unit_zero (S := S8000x128) hz2, View.ld_unit_zero (S := S128x128) hz2, View.ld_unit_zero (S := S128) hz1]
  funext j
  obtain ⟨p, e, rfl⟩ : ∃ (p : Fin 8000) (e : Fin 128), j = ix2 p e := ⟨j 0, j 1, eq_ix2 j⟩
  exact flushed_at V c t p e

/-- An index is in point t's block of the result when each coordinate is in the block's range on its axis. -/
theorem mem_blk4 (t : Fin cfg1.N) (i : S1000000x128.Idx) :
    i ∈ ((cfg1.win 4).blk t).view.set ↔ ∀ a : Fin 2, win1_4.index t a * S8000x128.size a ≤ (i a).val
      ∧ (i a).val < win1_4.index t a * S8000x128.size a + S8000x128.size a := by
  show i ∈ ((View.whole main_v67).slice (win1_4.rect t)).set ↔ _
  rw [View.set_slice_whole, Rect.mem_set_unit]
  exact Iff.rfl

/-- Row n of the result lies in the block of point n / 8000, and every point writes its block back. -/
theorem cover4 (i : S1000000x128.Idx) :
    ∃ t : Fin cfg1.N, (cfg1.win 4).flush t = true ∧ i ∈ ((cfg1.win 4).blk t).view.set := by
  have hi0 : (i 0).val < 1000000 := idx2_lt0 i
  have hi1 : (i 1).val < 128 := idx2_lt1 i
  have hN : cfg1.N = 125 := N_1
  have ht : (i 0).val / 8000 < cfg1.N := by rw [hN]; omega
  obtain ⟨-, -, -, -, -, -, -, f0, f1⟩ := idx_facts ⟨(i 0).val / 8000, ht⟩
  refine ⟨⟨(i 0).val / 8000, ht⟩, flush1_4 _, ?_⟩
  rw [mem_blk4]
  intro a
  match a with
  | ⟨0, _⟩ =>
    show win1_4.index ⟨(i 0).val / 8000, ht⟩ (0 : Fin 2) * 8000 ≤ (i 0).val
      ∧ (i 0).val < win1_4.index ⟨(i 0).val / 8000, ht⟩ (0 : Fin 2) * 8000 + 8000
    rw [f0]; show (i 0).val / 8000 * 8000 ≤ (i 0).val ∧ (i 0).val < (i 0).val / 8000 * 8000 + 8000; omega
  | ⟨1, _⟩ =>
    show win1_4.index ⟨(i 0).val / 8000, ht⟩ (1 : Fin 2) * 128 ≤ (i 1).val
      ∧ (i 1).val < win1_4.index ⟨(i 0).val / 8000, ht⟩ (1 : Fin 2) * 128 + 128
    rw [f1]; omega

/-- The result array after the region: the whole-array function of the four arrays the region reads. -/
theorem r1_final (c : Dev nD) :
    (dat1 V c).arrAt 4 cfg1.N = G1 (V c main_arg0) (V c main_v66) (V c main_arg3) (V c main_arg4) :=
  (dat1 V c).arrAt_eq_of_cover 4 _ (fun t _ => flushed_eq V c t) cover4

/-- The result at row n, column e, with the four arrays the region reads named by the functions they are. -/
theorem r1_apply (c : Dev nD) (n : Fin 1000000) (e : Fin 128)
    (a0 a1 : S1000000x128.Idx → EReal) (a2 : S128x128.Idx → EReal) (a3 : S128.Idx → EReal)
    (h0 : a0 = V c main_arg0) (h1 : a1 = V c main_v66) (h2 : a2 = V c main_arg3) (h3 : a3 = V c main_arg4) :
    (dat1 V c).arrAt 4 cfg1.N (ix2 n e)
      = (((∑ k : Fin 128, a0 (ix2 n k) * a2 (ix2 k e)) + a3 (ix1 e)) + a1 (ix2 n e)) * Ideal.ofBits .f32 0x3E800000#32 := by
  subst h0 h1 h2 h3
  rw [r1_final]
  rfl

end

end Cert.KernelIdeal.Val

end
-- ==== Proof.Val.HostRead.lean ====
/-
  The two stretches of host operations around region 0, read one stage at a time.  Every buffer a stretch writes is
  stated over the buffers one step upstream (and the arrays no operation writes over the launch memory), so that a
  proof downstream never opens more than one stage: the row indices reshaped to a column and the point-axis table
  before region 0; after it the two halves' partial sums added, the camera-axis table, the global-mean row, the two
  gathers, and their sum with the mean row, which is what region 1 combines.

  How a stage is read: the line of operations is cut in front of the stage's first operation, the contents at the cut
  are named as one valuation, and only the operations behind the cut are followed.  Every operand of a stage is written
  in front of the cut or not at all, so both sides reduce to the same term over the named contents.
-/
import proofs.«401576_j111669149722_3_alg».proof.Proof.KI.Run
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.StableHlo

/-- The contents after a line of host operations, with the line cut at position `k`: the contents after the first `k`
    operations, carried through the rest. -/
theorem after_cut (k : Nat) (ops : List (HloOp τ sig (Elt Ideal))) (V : Valuation τ sig (Elt Ideal)) :
    StableHlo.after ops V = StableHlo.after (ops.drop k) (StableHlo.after (ops.take k) V) := by
  rw [← StableHlo.after_append, List.take_append_drop]

section Stages

variable (Wp : Valuation τ sig (Elt Ideal))

/-- a buffer after the first host stretch, from contents `Wp` -/
abbrev A0 (r : Ref sig .tc) := StableHlo.after (hostOps0 (F := Ideal)) Wp (Proc.devRef .tc r)
/-- a buffer after the second host stretch, from contents `Wp` -/
abbrev A1 (r : Ref sig .tc) := StableHlo.after (hostOps1 (F := Ideal)) Wp (Proc.devRef .tc r)

/-- Reads a stage of the first host stretch, the line cut in front of operation `k`. -/
local macro "stage0" k:num : tactic =>
  `(tactic| (dsimp only [A0]
             rw [after_cut $k hostOps0 _]
             generalize StableHlo.after (List.take $k (hostOps0 (F := Ideal))) _ = V'
             dsimp only [hostOps0, List.drop]
             after_results_simp
             all_goals (first | with_reducible rfl | rfl)))
/-- Reads a stage of the second host stretch, the line cut in front of operation `k`. -/
local macro "stage1" k:num : tactic =>
  `(tactic| (dsimp only [A1]
             rw [after_cut $k hostOps1 _]
             generalize StableHlo.after (List.take $k (hostOps1 (F := Ideal))) _ = V'
             dsimp only [hostOps1, List.drop]
             after_results_simp
             all_goals (first | with_reducible rfl | rfl)))

/-! ## The layout steps at an index, over plain arrays -/

section AtIndex

/-- The last stage at an entry: the two tables' entries and the broadcast row's entry, added; the narrowing conversion
    is the identity on extended reals. -/
theorem last_apply (a b : FVec Ideal S1000000x128 .f32) (g : FVec Ideal S1x128 .f32) (n : Fin 1000000) (e : Fin 128) :
    truncf (F := Ideal) .bf16 (addf (F := Ideal) (addf (F := Ideal) a b)
        (broadcastInDim S1000000x128 ![0, 1] bcast_S1x128_S1000000x128_0_1 g)) bitsLt_bf16_f32 (ix2 n e)
      = (a (ix2 n e) + b (ix2 n e)) + g (ix2 (0 : Fin 1) e) := by
  refine (truncf_apply (φ := .f32) (ψ := .bf16) (addf (F := Ideal) (addf (F := Ideal) a b) (broadcastInDim S1000000x128 ![0, 1] bcast_S1x128_S1000000x128_0_1 g)) bitsLt_bf16_f32 (ix2 n e)).trans ?_
  refine (addf_apply _ _ _).trans ?_
  refine congrArg₂ (fun x y : EReal => x + y) (addf_apply _ _ _) ?_
  exact broadcastInDim_apply _ _ _ (ix2 n e) (ix2 (0 : Fin 1) e) fun ax => by
    match ax with
    | ⟨0, _⟩ => rfl
    | ⟨1, _⟩ => rfl

/-- Half `h` of a [2, 512, 128] array, as a [512, 128] array, at (k, d). -/
theorem half_rows_apply (o : FVec Ideal S2x512x128 .f32) (h : Fin 2) (off : Fin 3 → Nat) (hs : S2x512x128.Slices off S1x512x128)
    (hoff : off = ![h.val, 0, 0]) (k : Fin 512) (d : Fin 128) :
    shapeCast S512x128 (extractStridedSlice S1x512x128 off o hs) shapeCasts_S1x512x128_S512x128 (ix2 k d) = o (ix3 h k d) := by
  subst hoff
  refine (shapeCast_1ab_ab_apply _ _ k d).trans ?_
  exact extractStridedSlice_apply _ _ _ _ (ix3 h k d) fun ax => by
    match ax with
    | ⟨0, _⟩ => exact (Nat.add_zero _).symm
    | ⟨1, _⟩ => exact (Nat.zero_add _).symm
    | ⟨2, _⟩ => exact (Nat.zero_add _).symm

/-- The two halves of the first output added and cut to 500 rows, at (r, d). -/
theorem halves_rows_apply (o : FVec Ideal S2x512x128 .f32) (r : Fin 500) (d : Fin 128) :
    extractStridedSlice S500x128 ![0, 0]
        (addf (F := Ideal)
          (shapeCast S512x128 (extractStridedSlice S1x512x128 ![0, 0, 0] o slices_S2x512x128_S1x512x128_0_0_0) shapeCasts_S1x512x128_S512x128)
          (shapeCast S512x128 (extractStridedSlice S1x512x128 ![1, 0, 0] o slices_S2x512x128_S1x512x128_1_0_0) shapeCasts_S1x512x128_S512x128))
        slices_S512x128_S500x128_0_0 (ix2 r d)
      = o (ix3 (0 : Fin 2) (⟨r.val, by omega⟩ : Fin 512) d) + o (ix3 (1 : Fin 2) (⟨r.val, by omega⟩ : Fin 512) d) := by
  refine (slice2_axis0_apply 0 _ _ r d (⟨r.val, by omega⟩ : Fin 512) (Nat.zero_add _).symm).trans ?_
  refine (addf_apply _ _ _).trans ?_
  exact congrArg₂ (fun x y : EReal => x + y)
    (half_rows_apply o 0 _ _ rfl _ d) (half_rows_apply o 1 _ _ rfl _ d)

/-- Half `h` of a [2, 1, 512] array, as a [1, 512] array, at (0, k). -/
theorem half_counts_apply (o : FVec Ideal S2x1x512 .f32) (h : Fin 2) (off : Fin 3 → Nat) (hs : S2x1x512.Slices off S1x1x512)
    (hoff : off = ![h.val, 0, 0]) (k : Fin 512) :
    shapeCast S1x512 (extractStridedSlice S1x1x512 off o hs) shapeCasts_S1x1x512_S1x512 (ix2 (0 : Fin 1) k) = o (ix3 h (0 : Fin 1) k) := by
  subst hoff
  refine (shapeCast_1ab_ab_apply _ _ (0 : Fin 1) k).trans ?_
  exact extractStridedSlice_apply _ _ _ _ (ix3 h (0 : Fin 1) k) fun ax => by
    match ax with
    | ⟨0, _⟩ => exact (Nat.add_zero _).symm
    | ⟨1, _⟩ => rfl
    | ⟨2, _⟩ => exact (Nat.zero_add _).symm

/-- The two halves of the third output added, cut to 500 entries and stood up as a column, at (r, 0). -/
theorem halves_counts_apply (o : FVec Ideal S2x1x512 .f32) (r : Fin 500) :
    broadcastInDim S500x1 ![0] bcast_S500_S500x1_0
        (shapeCast S500
          (extractStridedSlice S1x500 ![0, 0]
            (addf (F := Ideal)
              (shapeCast S1x512 (extractStridedSlice S1x1x512 ![0, 0, 0] o slices_S2x1x512_S1x1x512_0_0_0) shapeCasts_S1x1x512_S1x512)
              (shapeCast S1x512 (extractStridedSlice S1x1x512 ![1, 0, 0] o slices_S2x1x512_S1x1x512_1_0_0) shapeCasts_S1x1x512_S1x512))
            slices_S1x512_S1x500_0_0)
          shapeCasts_S1x500_S500) (ix2 r (0 : Fin 1))
      = o (ix3 (0 : Fin 2) (0 : Fin 1) (⟨r.val, by omega⟩ : Fin 512)) + o (ix3 (1 : Fin 2) (0 : Fin 1) (⟨r.val, by omega⟩ : Fin 512)) := by
  refine (broadcastInDim_apply _ _ _ (ix2 r (0 : Fin 1)) (ix1 r) fun ax => by match ax with | ⟨0, _⟩ => rfl).trans ?_
  refine (shapeCast_1a_a_apply _ _ r).trans ?_
  refine (slice2_axis1_apply 0 _ _ (0 : Fin 1) r (⟨r.val, by omega⟩ : Fin 512) (Nat.zero_add _).symm).trans ?_
  refine (addf_apply _ _ _).trans ?_
  exact congrArg₂ (fun x y : EReal => x + y)
    (half_counts_apply o 0 _ _ rfl _) (half_counts_apply o 1 _ _ rfl _)

/-- Half `h` of a [2, 1, 128] array, as a [1, 128] array, at (0, d). -/
theorem half_total_apply (o : FVec Ideal S2x1x128 .f32) (h : Fin 2) (off : Fin 3 → Nat) (hs : S2x1x128.Slices off S1x1x128)
    (hoff : off = ![h.val, 0, 0]) (d : Fin 128) :
    shapeCast S1x128 (extractStridedSlice S1x1x128 off o hs) shapeCasts_S1x1x128_S1x128 (ix2 (0 : Fin 1) d) = o (ix3 h (0 : Fin 1) d) := by
  subst hoff
  refine (shapeCast_1ab_ab_apply _ _ (0 : Fin 1) d).trans ?_
  exact extractStridedSlice_apply _ _ _ _ (ix3 h (0 : Fin 1) d) fun ax => by
    match ax with
    | ⟨0, _⟩ => exact (Nat.add_zero _).symm
    | ⟨1, _⟩ => rfl
    | ⟨2, _⟩ => exact (Nat.zero_add _).symm

/-- The two halves of the second output added, at (0, d). -/
theorem halves_total_apply (o : FVec Ideal S2x1x128 .f32) (d : Fin 128) :
    addf (F := Ideal)
        (shapeCast S1x128 (extractStridedSlice S1x1x128 ![0, 0, 0] o slices_S2x1x128_S1x1x128_0_0_0) shapeCasts_S1x1x128_S1x128)
        (shapeCast S1x128 (extractStridedSlice S1x1x128 ![1, 0, 0] o slices_S2x1x128_S1x1x128_1_0_0) shapeCasts_S1x1x128_S1x128)
        (ix2 (0 : Fin 1) d)
      = o (ix3 (0 : Fin 2) (0 : Fin 1) d) + o (ix3 (1 : Fin 2) (0 : Fin 1) d) := by
  refine (addf_apply _ _ _).trans ?_
  exact congrArg₂ (fun x y : EReal => x + y)
    (half_total_apply o 0 _ _ rfl d) (half_total_apply o 1 _ _ rfl d)

/-- An index vector stood up as a column reads, at (n, 0), the vector at n: the two have the same row-major position. -/
theorem column_apply (x : IVec S1000000 32) (n : Fin 1000000) :
    shapeCast S1000000x1 x shapeCasts_S1000000_S1000000x1 (ix2 n (0 : Fin 1)) = x (ix1 n) :=
  shapeCast_apply x _ (ix2 n (0 : Fin 1)) (ix1 n) (by
    rw [Shape.rowMajor_val_one, Shape.rowMajor_val_two]
    show n.val = n.val * 1 + 0
    omega)

end AtIndex

/-! ## The first host stretch -/

/-- The point-axis table as one function of the values, the point indices and the dense layer: the rows scattered and
    added by point, divided by max(count, 1) (the counts are ones scattered the same way), through the dense layer. -/
def colTable (x0 : FVec Ideal S1000000x128 .f32) (x2 : IVec S1000000 32) (x5 : FVec Ideal S128x128 .f32)
    (x6 : FVec Ideal S128 .f32) : FVec Ideal S50000x128 .f32 :=
  addf (F := Ideal)
    (Host.dotGeneral (F := Ideal) (φ₂ := .f32) dot_S50000x128_S128x128_S50000x128_1_0_0_1_n_n none
      (Host.divf (F := Ideal)
        (Host.scatterAdd (F := Ideal) scatter_S50000x128_S1000000x1_S1000000x128_1_0_0_1
          (broadcastInDim S50000x128 ![] bcast_S_S50000x128 (constant (F := Ideal) S_ .f32 0x00000000#32))
          (broadcastInDim S1000000x1 ![0] bcast_S1000000_S1000000x1_0 x2)
          x0)
        (broadcastInDim S50000x128 ![0, 1] bcast_S50000x1_S50000x128_0_1
          (maximumf (F := Ideal)
            (Host.scatterAdd (F := Ideal) scatter_S50000x1_S1000000x1_S1000000x1_1_0_0_1
              (broadcastInDim S50000x1 ![] bcast_S_S50000x1 (constant (F := Ideal) S_ .f32 0x00000000#32))
              (broadcastInDim S1000000x1 ![0] bcast_S1000000_S1000000x1_0 x2)
              (broadcastInDim S1000000x1 ![] bcast_S_S1000000x1 (constant (F := Ideal) S_ .f32 0x3F800000#32)))
            (broadcastInDim S50000x1 ![] bcast_S_S50000x1 (constant (F := Ideal) S_ .f32 0x3F800000#32)))))
      x5)
    (broadcastInDim S50000x128 ![0, 1] bcast_S1x128_S50000x128_0_1 (broadcastInDim S1x128 ![1] bcast_S128_S1x128_1 x6))

/-- The point-axis table is that function of the four arguments. -/
theorem st14 :
    @Eq (FVec Ideal S50000x128 .f32) (A0 Wp main_v14)
      (colTable (A0 Wp main_arg0) (A0 Wp main_arg2) (A0 Wp main_arg5) (A0 Wp main_arg6)) := by
  unfold colTable
  stage0 0

/-- The row indices as a column: the reshape of the index vector. -/
theorem st15 :
    @Eq (IVec S1000000x1 32) (A0 Wp main_v15)
      (shapeCast S1000000x1 (A0 Wp main_arg1) shapeCasts_S1000000_S1000000x1) := by
  stage0 19

/-! ## The second host stretch -/

/-- The result: the two gathered tables added, the mean row added to every entry, and the narrowing conversion. -/
theorem st66 :
    @Eq (FVec Ideal S1000000x128 .bf16) (A1 Wp main_v66)
      (truncf (F := Ideal) .bf16 (addf (F := Ideal) (addf (F := Ideal) (A1 Wp main_v55) (A1 Wp main_v62))
          (broadcastInDim S1000000x128 ![0, 1] bcast_S1x128_S1000000x128_0_1 (A1 Wp main_v48))) bitsLt_bf16_f32) := by
  stage1 52

/-- The camera-axis sums: the two halves' parts of the first output added, the first 500 rows kept. -/
theorem st35 :
    @Eq (FVec Ideal S500x128 .f32) (A1 Wp main_v35)
      (extractStridedSlice S500x128 ![0, 0]
        (addf (F := Ideal)
          (shapeCast S512x128 (extractStridedSlice S1x512x128 ![0, 0, 0] (A1 Wp main_v16_0) slices_S2x512x128_S1x512x128_0_0_0) shapeCasts_S1x512x128_S512x128)
          (shapeCast S512x128 (extractStridedSlice S1x512x128 ![1, 0, 0] (A1 Wp main_v16_0) slices_S2x512x128_S1x512x128_1_0_0) shapeCasts_S1x512x128_S512x128))
        slices_S512x128_S500x128_0_0) := by
  stage1 0

/-- The camera-axis counts: the two halves' parts of the third output added, the first 500 kept, as a column. -/
theorem st34 :
    @Eq (FVec Ideal S500x1 .f32) (A1 Wp main_v34)
      (broadcastInDim S500x1 ![0] bcast_S500_S500x1_0
        (shapeCast S500
          (extractStridedSlice S1x500 ![0, 0]
            (addf (F := Ideal)
              (shapeCast S1x512 (extractStridedSlice S1x1x512 ![0, 0, 0] (A1 Wp main_v16_2) slices_S2x1x512_S1x1x512_0_0_0) shapeCasts_S1x1x512_S1x512)
              (shapeCast S1x512 (extractStridedSlice S1x1x512 ![1, 0, 0] (A1 Wp main_v16_2) slices_S2x1x512_S1x1x512_1_0_0) shapeCasts_S1x1x512_S1x512))
            slices_S1x512_S1x500_0_0)
          shapeCasts_S1x500_S500)) := by
  stage1 0

/-- The sum of all entries' rows: the two halves' parts of the second output added. -/
theorem st26 :
    @Eq (FVec Ideal S1x128 .f32) (A1 Wp main_v26)
      (addf (F := Ideal)
        (shapeCast S1x128 (extractStridedSlice S1x1x128 ![0, 0, 0] (A1 Wp main_v16_1) slices_S2x1x128_S1x1x128_0_0_0) shapeCasts_S1x1x128_S1x128)
        (shapeCast S1x128 (extractStridedSlice S1x1x128 ![1, 0, 0] (A1 Wp main_v16_1) slices_S2x1x128_S1x1x128_1_0_0) shapeCasts_S1x1x128_S1x128)) := by
  stage1 0

/-- The camera-axis table: the sums divided by max(count, 1), through the dense layer. -/
theorem st43 :
    @Eq (FVec Ideal S500x128 .f32) (A1 Wp main_v43)
      (addf (F := Ideal)
        (Host.dotGeneral (F := Ideal) (φ₂ := .f32) dot_S500x128_S128x128_S500x128_1_0_0_1_n_n none
          (Host.divf (F := Ideal) (A1 Wp main_v35)
            (broadcastInDim S500x128 ![0, 1] bcast_S500x1_S500x128_0_1
              (maximumf (F := Ideal) (A1 Wp main_v34) (broadcastInDim S500x1 ![] bcast_S_S500x1 (constant (F := Ideal) S_ .f32 0x3F800000#32)))))
          (A1 Wp main_arg7))
        (broadcastInDim S500x128 ![0, 1] bcast_S1x128_S500x128_0_1 (broadcastInDim S1x128 ![1] bcast_S128_S1x128_1 (A1 Wp main_arg8)))) := by
  stage1 19

/-- The global-mean row: the sum of all rows divided by the number of entries, through the dense layer. -/
theorem st48 :
    @Eq (FVec Ideal S1x128 .f32) (A1 Wp main_v48)
      (addf (F := Ideal)
        (Host.dotGeneral (F := Ideal) (φ₂ := .f32) dot_S1x128_S128x128_S1x128_1_0_0_1_n_n none
          (Host.divf (F := Ideal) (A1 Wp main_v26) (broadcastInDim S1x128 ![] bcast_S_S1x128 (constant (F := Ideal) S_ .f32 0x49742400#32)))
          (A1 Wp main_arg9))
        (broadcastInDim S1x128 ![1] bcast_S128_S1x128_1 (A1 Wp main_arg10))) := by
  stage1 28

/-- The point-axis table gathered at every entry's point index (a negative index wrapped once). -/
theorem st55 :
    @Eq (FVec Ideal S1000000x128 .f32) (A1 Wp main_v55)
      (Host.gather gather_S50000x128_S1000000x1_S1000000x128_1_0_n_n_0_1_1128 (A1 Wp main_v14)
        (broadcastInDim S1000000x1 ![0] bcast_S1000000_S1000000x1_0
          (select (cmpi .slt (A1 Wp main_arg2) (broadcastInDim S1000000 ![] bcast_S_S1000000 (constantI S_ 32 0#32)))
            (addi (A1 Wp main_arg2) (broadcastInDim S1000000 ![] bcast_S_S1000000 (constantI S_ 32 50000#32)))
            (A1 Wp main_arg2)))) := by
  stage1 34

/-- The camera-axis table gathered at every entry's camera index (a negative index wrapped once). -/
theorem st62 :
    @Eq (FVec Ideal S1000000x128 .f32) (A1 Wp main_v62)
      (Host.gather gather_S500x128_S1000000x1_S1000000x128_1_0_n_n_0_1_1128 (A1 Wp main_v43)
        (broadcastInDim S1000000x1 ![0] bcast_S1000000_S1000000x1_0
          (select (cmpi .slt (A1 Wp main_arg1) (broadcastInDim S1000000 ![] bcast_S_S1000000 (constantI S_ 32 0#32)))
            (addi (A1 Wp main_arg1) (broadcastInDim S1000000 ![] bcast_S_S1000000 (constantI S_ 32 500#32)))
            (A1 Wp main_arg1)))) := by
  stage1 43

end Stages

section Read

variable (m : (ℓ : Loc nD τ sig) → Buf (Elt Ideal) ℓ) (ρ : Dev nD → PrngReg) (c : Dev nD)

/-! ## What neither host stretch nor region 0 writes -/

/-- The values are region 0's first window and are written by nothing. -/
theorem V3_main_arg0 : V3 m ρ c main_arg0 = m ((c : Thread nD τ).loc main_arg0) :=
  calc W3 m ρ c (Proc.devRef .tc main_arg0)
    _ = W2 m ρ c (Proc.devRef .tc main_arg0) := W3_keep m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_keep m ρ c main_arg0 (by decide)
/-- The reshaped row indices are region 0's second window: it reads them and writes nothing there. -/
theorem V3_main_v15 : V3 m ρ c main_v15 = V1 m ρ c main_v15 :=
  calc W3 m ρ c (Proc.devRef .tc main_v15)
    _ = W2 m ρ c (Proc.devRef .tc main_v15) := W3_keep m ρ c main_v15 (by decide)
    _ = W1 m ρ c (Proc.devRef .tc main_v15) := (W2_arr m ρ c 1).trans (((dat0 (V1 m ρ) c).arrAt_in 1 rfl _).trans (A_eq0 (V1 m ρ) c 1))
/-- The point-axis table is written by the first host stretch only. -/
theorem V3_main_v14 : V3 m ρ c main_v14 = V1 m ρ c main_v14 :=
  (W3_keep m ρ c main_v14 (by decide)).trans (W2_of_ne m ρ c main_v14 (by decide))
/-- An argument that is no array of region 0 and that no host operation writes is as launched. -/
theorem V3_keep (r : Ref sig .tc) (h3 : r ∉ hostOps1_W) (h2 : ∀ w, Pipeline.arrRef spec0 w ≠ r) (h1 : r ∉ hostOps0_W) :
    V3 m ρ c r = m ((c : Thread nD τ).loc r) :=
  (W3_keep m ρ c r h3).trans ((W2_of_ne m ρ c r h2).trans (W1_keep m ρ c r h1))
theorem V3_main_arg1 : V3 m ρ c main_arg1 = m ((c : Thread nD τ).loc main_arg1) := V3_keep m ρ c main_arg1 (by decide) (by decide) (by decide)
theorem V3_main_arg2 : V3 m ρ c main_arg2 = m ((c : Thread nD τ).loc main_arg2) := V3_keep m ρ c main_arg2 (by decide) (by decide) (by decide)
theorem V3_main_arg3 : V3 m ρ c main_arg3 = m ((c : Thread nD τ).loc main_arg3) := V3_keep m ρ c main_arg3 (by decide) (by decide) (by decide)
theorem V3_main_arg4 : V3 m ρ c main_arg4 = m ((c : Thread nD τ).loc main_arg4) := V3_keep m ρ c main_arg4 (by decide) (by decide) (by decide)
theorem V3_main_arg7 : V3 m ρ c main_arg7 = m ((c : Thread nD τ).loc main_arg7) := V3_keep m ρ c main_arg7 (by decide) (by decide) (by decide)
theorem V3_main_arg8 : V3 m ρ c main_arg8 = m ((c : Thread nD τ).loc main_arg8) := V3_keep m ρ c main_arg8 (by decide) (by decide) (by decide)
theorem V3_main_arg9 : V3 m ρ c main_arg9 = m ((c : Thread nD τ).loc main_arg9) := V3_keep m ρ c main_arg9 (by decide) (by decide) (by decide)
theorem V3_main_arg10 : V3 m ρ c main_arg10 = m ((c : Thread nD τ).loc main_arg10) := V3_keep m ρ c main_arg10 (by decide) (by decide) (by decide)

/-! ## The buffers by name, each at its literal type -/

/-- region 0's first output as the second host stretch finds it: the per-half camera-axis sums -/
abbrev O0 : S2x512x128.Idx → EReal := W2 m ρ c (Proc.devRef .tc main_v16_0)
/-- region 0's second output: the per-half sums of all rows -/
abbrev O1 : S2x1x128.Idx → EReal := W2 m ρ c (Proc.devRef .tc main_v16_1)
/-- region 0's third output: the per-half camera-axis counts -/
abbrev O2 : S2x1x512.Idx → EReal := W2 m ρ c (Proc.devRef .tc main_v16_2)
/-- the second host stretch's result, which region 1 combines -/
abbrev T66 : S1000000x128.Idx → EReal := V3 m ρ c main_v66
/-- the point-axis table gathered per entry -/
abbrev T55 : S1000000x128.Idx → EReal := V3 m ρ c main_v55
/-- the camera-axis table gathered per entry -/
abbrev T62 : S1000000x128.Idx → EReal := V3 m ρ c main_v62
/-- the global-mean row through its dense layer -/
abbrev T48 : S1x128.Idx → EReal := V3 m ρ c main_v48
/-- the sum of all rows -/
abbrev T26 : S1x128.Idx → EReal := V3 m ρ c main_v26
/-- the camera-axis sums -/
abbrev T35 : S500x128.Idx → EReal := V3 m ρ c main_v35
/-- the camera-axis counts, as a column -/
abbrev T34 : S500x1.Idx → EReal := V3 m ρ c main_v34

/-- The second host stretch writes none of region 0's outputs. -/
theorem V3_main_v16_0 : @Eq (FVec Ideal S2x512x128 .f32) (V3 m ρ c main_v16_0) (O0 m ρ c) := W3_keep m ρ c main_v16_0 (by decide)
theorem V3_main_v16_1 : @Eq (FVec Ideal S2x1x128 .f32) (V3 m ρ c main_v16_1) (O1 m ρ c) := W3_keep m ρ c main_v16_1 (by decide)
theorem V3_main_v16_2 : @Eq (FVec Ideal S2x1x512 .f32) (V3 m ρ c main_v16_2) (O2 m ρ c) := W3_keep m ρ c main_v16_2 (by decide)

/-! ## The first host stretch, over the launch memory -/

/-- The reshaped row indices at (n, 0): entry n's row index. -/
theorem v15_apply (n : Fin 1000000) :
    (V1 m ρ c main_v15 : S1000000x1.Idx → BitVec 32) (ix2 n (0 : Fin 1))
      = (m ((c : Thread nD τ).loc main_arg1) : S1000000.Idx → BitVec 32) (ix1 n) :=
  ((congrFun (st15 (W0 m ρ c)) (ix2 n (0 : Fin 1))).trans (column_apply _ n)).trans
    (congrFun (W1_keep m ρ c main_arg1 (by decide)) (ix1 n))

/-- The point-axis table is `colTable` of the values, the point indices and the dense layer's weight and bias. -/
theorem v14_eq :
    @Eq (FVec Ideal S50000x128 .f32) (V1 m ρ c main_v14)
      (colTable (m ((c : Thread nD τ).loc main_arg0)) (m ((c : Thread nD τ).loc main_arg2))
        (m ((c : Thread nD τ).loc main_arg5)) (m ((c : Thread nD τ).loc main_arg6))) := by
  have h := st14 (W0 m ρ c)
  rw [show A0 (W0 m ρ c) main_arg0 = m ((c : Thread nD τ).loc main_arg0) from W1_keep m ρ c main_arg0 (by decide),
    show A0 (W0 m ρ c) main_arg2 = m ((c : Thread nD τ).loc main_arg2) from W1_keep m ρ c main_arg2 (by decide),
    show A0 (W0 m ρ c) main_arg5 = m ((c : Thread nD τ).loc main_arg5) from W1_keep m ρ c main_arg5 (by decide),
    show A0 (W0 m ρ c) main_arg6 = m ((c : Thread nD τ).loc main_arg6) from W1_keep m ρ c main_arg6 (by decide)] at h
  exact h

/-! ## The second host stretch, over region 0's outputs -/

/-- The result at an entry: the two gathered rows and the mean row, added. -/
theorem v66_apply (n : Fin 1000000) (e : Fin 128) :
    T66 m ρ c (ix2 n e) = (T55 m ρ c (ix2 n e) + T62 m ρ c (ix2 n e)) + T48 m ρ c (ix2 (0 : Fin 1) e) :=
  (congrFun (st66 (W2 m ρ c)) (ix2 n e)).trans (last_apply _ _ _ n e)

/-- Camera row `r`, column `d` of the camera-axis sums: the two halves' entries of the first output added. -/
theorem v35_apply (r : Fin 500) (d : Fin 128) :
    T35 m ρ c (ix2 r d)
      = O0 m ρ c (ix3 (0 : Fin 2) (⟨r.val, by omega⟩ : Fin 512) d) + O0 m ρ c (ix3 (1 : Fin 2) (⟨r.val, by omega⟩ : Fin 512) d) :=
  ((congrFun (st35 (W2 m ρ c)) (ix2 r d)).trans (halves_rows_apply _ r d)).trans
    (congrArg₂ (fun x y : EReal => x + y) (congrFun (V3_main_v16_0 m ρ c) _) (congrFun (V3_main_v16_0 m ρ c) _))

/-- Camera `r`'s count: the two halves' entries of the third output added. -/
theorem v34_apply (r : Fin 500) :
    T34 m ρ c (ix2 r (0 : Fin 1))
      = O2 m ρ c (ix3 (0 : Fin 2) (0 : Fin 1) (⟨r.val, by omega⟩ : Fin 512)) + O2 m ρ c (ix3 (1 : Fin 2) (0 : Fin 1) (⟨r.val, by omega⟩ : Fin 512)) :=
  ((congrFun (st34 (W2 m ρ c)) (ix2 r (0 : Fin 1))).trans (halves_counts_apply _ r)).trans
    (congrArg₂ (fun x y : EReal => x + y) (congrFun (V3_main_v16_2 m ρ c) _) (congrFun (V3_main_v16_2 m ρ c) _))

/-- Column `d` of the sum of all rows: the two halves' entries of the second output added. -/
theorem v26_apply (d : Fin 128) :
    T26 m ρ c (ix2 (0 : Fin 1) d)
      = O1 m ρ c (ix3 (0 : Fin 2) (0 : Fin 1) d) + O1 m ρ c (ix3 (1 : Fin 2) (0 : Fin 1) d) :=
  ((congrFun (st26 (W2 m ρ c)) (ix2 (0 : Fin 1) d)).trans (halves_total_apply _ d)).trans
    (congrArg₂ (fun x y : EReal => x + y) (congrFun (V3_main_v16_1 m ρ c) _) (congrFun (V3_main_v16_1 m ρ c) _))

/-- The camera-axis table over the camera-axis sums and counts and the dense layer's weight and bias. -/
theorem v43_eq :
    @Eq (FVec Ideal S500x128 .f32) (V3 m ρ c main_v43)
      (addf (F := Ideal)
        (Host.dotGeneral (F := Ideal) (φ₂ := .f32) dot_S500x128_S128x128_S500x128_1_0_0_1_n_n none
          (Host.divf (F := Ideal) (V3 m ρ c main_v35)
            (broadcastInDim S500x128 ![0, 1] bcast_S500x1_S500x128_0_1
              (maximumf (F := Ideal) (V3 m ρ c main_v34) (broadcastInDim S500x1 ![] bcast_S_S500x1 (constant (F := Ideal) S_ .f32 0x3F800000#32)))))
          (m ((c : Thread nD τ).loc main_arg7)))
        (broadcastInDim S500x128 ![0, 1] bcast_S1x128_S500x128_0_1 (broadcastInDim S1x128 ![1] bcast_S128_S1x128_1 (m ((c : Thread nD τ).loc main_arg8))))) := by
  have h := st43 (W2 m ρ c)
  rw [show A1 (W2 m ρ c) main_arg7 = m ((c : Thread nD τ).loc main_arg7) from V3_main_arg7 m ρ c,
    show A1 (W2 m ρ c) main_arg8 = m ((c : Thread nD τ).loc main_arg8) from V3_main_arg8 m ρ c] at h
  exact h

/-- The global-mean row over the sum of all rows and the dense layer's weight and bias. -/
theorem v48_eq :
    @Eq (FVec Ideal S1x128 .f32) (V3 m ρ c main_v48)
      (addf (F := Ideal)
        (Host.dotGeneral (F := Ideal) (φ₂ := .f32) dot_S1x128_S128x128_S1x128_1_0_0_1_n_n none
          (Host.divf (F := Ideal) (V3 m ρ c main_v26) (broadcastInDim S1x128 ![] bcast_S_S1x128 (constant (F := Ideal) S_ .f32 0x49742400#32)))
          (m ((c : Thread nD τ).loc main_arg9)))
        (broadcastInDim S1x128 ![1] bcast_S128_S1x128_1 (m ((c : Thread nD τ).loc main_arg10)))) := by
  have h := st48 (W2 m ρ c)
  rw [show A1 (W2 m ρ c) main_arg9 = m ((c : Thread nD τ).loc main_arg9) from V3_main_arg9 m ρ c,
    show A1 (W2 m ρ c) main_arg10 = m ((c : Thread nD τ).loc main_arg10) from V3_main_arg10 m ρ c] at h
  exact h

/-- The point-axis table gathered at every entry's point index. -/
theorem v55_eq :
    @Eq (FVec Ideal S1000000x128 .f32) (V3 m ρ c main_v55)
      (Host.gather gather_S50000x128_S1000000x1_S1000000x128_1_0_n_n_0_1_1128 (V1 m ρ c main_v14)
        (broadcastInDim S1000000x1 ![0] bcast_S1000000_S1000000x1_0
          (select (cmpi .slt (m ((c : Thread nD τ).loc main_arg2)) (broadcastInDim S1000000 ![] bcast_S_S1000000 (constantI S_ 32 0#32)))
            (addi (m ((c : Thread nD τ).loc main_arg2)) (broadcastInDim S1000000 ![] bcast_S_S1000000 (constantI S_ 32 50000#32)))
            (m ((c : Thread nD τ).loc main_arg2))))) := by
  have h := st55 (W2 m ρ c)
  rw [show A1 (W2 m ρ c) main_v14 = V1 m ρ c main_v14 from V3_main_v14 m ρ c,
    show A1 (W2 m ρ c) main_arg2 = m ((c : Thread nD τ).loc main_arg2) from V3_main_arg2 m ρ c] at h
  exact h

/-- The camera-axis table gathered at every entry's camera index. -/
theorem v62_eq :
    @Eq (FVec Ideal S1000000x128 .f32) (V3 m ρ c main_v62)
      (Host.gather gather_S500x128_S1000000x1_S1000000x128_1_0_n_n_0_1_1128 (V3 m ρ c main_v43)
        (broadcastInDim S1000000x1 ![0] bcast_S1000000_S1000000x1_0
          (select (cmpi .slt (m ((c : Thread nD τ).loc main_arg1)) (broadcastInDim S1000000 ![] bcast_S_S1000000 (constantI S_ 32 0#32)))
            (addi (m ((c : Thread nD τ).loc main_arg1)) (broadcastInDim S1000000 ![] bcast_S_S1000000 (constantI S_ 32 500#32)))
            (m ((c : Thread nD τ).loc main_arg1))))) := by
  have h := st62 (W2 m ρ c)
  rw [show A1 (W2 m ρ c) main_arg1 = m ((c : Thread nD τ).loc main_arg1) from V3_main_arg1 m ρ c] at h
  exact h

end Read

end Cert.KernelIdeal.Val

end
-- ==== Proof.Val.Bridge.lean ====
/-
  The bridge: the kernel program's result array is the reference's result.
  Region 1 leaves (values · W_all + b_all + T) · ¼ at every entry, where T is what the host wrote between the kernels: the
  gathered point-axis table plus the gathered camera-axis table plus the global-mean row.  The point-axis table is the
  same host operations in both programs.  The camera-axis table and the global-mean row are the same host operations
  applied to region 0's results, and those are the reference's segment sums, counts and total: the two halves' one-hot
  sums added are the sums of the rows whose index word names the camera, which is what the reference's scatter adds up.
  The last four additions are grouped differently on the two sides; addition of extended reals is associative.
-/
import proofs.«401576_j111669149722_3_alg».proof.Proof.KI.Run
import proofs.«401576_j111669149722_3_alg».proof.Proof.Val.RefChain
import proofs.«401576_j111669149722_3_alg».proof.Proof.Val.RefSeg
import proofs.«401576_j111669149722_3_alg».proof.Proof.Val.R0Value
import proofs.«401576_j111669149722_3_alg».proof.Proof.Val.R1Value
import proofs.«401576_j111669149722_3_alg».proof.Proof.Val.HostRead
import proofs.«401576_j111669149722_3_alg».proof.Proof.Gen.ReferenceIdeal.Run
import proofs.«401576_j111669149722_3_alg».proof.Defs
import Idealize.ShloMosaic.Lib.ValueIdx
import proofs.«401576_j111669149722_3_alg».proof.Proof.Gen.KernelIdeal
import proofs.«401576_j111669149722_3_alg».proof.Proof.Gen.Pre_finite_inputs

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat Cfg Window)
open Cert.ReferenceIdeal.RefSide (ref_apply ref_term_eq ref_rowSums ref_rowCounts ref_allSums)

section
variable (m : (ℓ : Loc nD τ sig) → Buf (Elt Ideal) ℓ) (ρ : Dev nD → PrngReg) (c : Dev nD)

/-- The values as the first kernel finds them are the launch array. -/
theorem V1_main_arg0 : V1 m ρ c main_arg0 = (m ((c : Thread nD τ).loc main_arg0)) := W1_keep m ρ c main_arg0 (by decide)

/-! ## The camera-axis sums, counts and the global sum: the kernel's are the reference's -/

set_option maxHeartbeats 2000000 in
/-- The two halves' one-hot sums added, at a camera `r < 500`: the reference's segment sum. -/
theorem ksums_apply (r : Fin 500) (d : Fin 128) :
    T35 m ρ c (ix2 r d) = Cert.ReferenceIdeal.Read.val_main_v21 (F := Ideal) (m ((c : Thread nD τ).loc main_arg0)) (m ((c : Thread nD τ).loc main_arg1)) (ix2 r d) := by
  have hr : r.val < 512 := by have := r.isLt; omega
  have e0 : O0 m ρ c = (dat0 (V1 m ρ) c).arrAt 2 cfg0.N := W2_arr m ρ c 2
  have h0 := (congrFun e0 (ix3 (0 : Fin 2) (⟨r.val, hr⟩ : Fin 512) d)).trans (r0_sums (V1 m ρ) c 0 ⟨r.val, hr⟩ d)
  have h1 := (congrFun e0 (ix3 (1 : Fin 2) (⟨r.val, hr⟩ : Fin 512) d)).trans (r0_sums (V1 m ρ) c 1 ⟨r.val, hr⟩ d)
  refine (v35_apply m ρ c r d).trans ((congrArg₂ (· + ·) h0 h1).trans ?_)
  rw [ref_rowSums]
  unfold Cert.Forms.rowSums
  rw [Fin.sum_univ_two]
  refine congrArg₂ (· + ·) ?_ ?_ <;>
    exact Finset.sum_congr rfl fun j _ => Finset.sum_congr rfl fun p _ =>
      congrArg₂ (· * ·) (congrArg (fun w => Cert.Forms.hit w r.val) (v15_apply m ρ c _)) (congrFun (V1_main_arg0 m ρ c) _)
theorem ksums_eq : @Eq (FVec Ideal S500x128 .f32) (V3 m ρ c main_v35) (Cert.ReferenceIdeal.Read.val_main_v21 (F := Ideal) (m ((c : Thread nD τ).loc main_arg0)) (m ((c : Thread nD τ).loc main_arg1))) := by
  funext i
  obtain ⟨r, d, rfl⟩ : ∃ (r : Fin 500) (d : Fin 128), i = ix2 r d := ⟨i 0, i 1, eq_ix2 i⟩
  exact ksums_apply m ρ c r d

set_option maxHeartbeats 2000000 in
/-- The two halves' hit counts added, at a camera `r < 500`: the reference's segment count. -/
theorem kcounts_apply (r : Fin 500) :
    T34 m ρ c (ix2 r (0 : Fin 1)) = Cert.ReferenceIdeal.Read.val_main_v25 (F := Ideal) (m ((c : Thread nD τ).loc main_arg1)) (ix2 r (0 : Fin 1)) := by
  have hr : r.val < 512 := by have := r.isLt; omega
  have e2 : O2 m ρ c = (dat0 (V1 m ρ) c).arrAt 4 cfg0.N := W2_arr m ρ c 4
  have h0 := (congrFun e2 (ix3 (0 : Fin 2) (0 : Fin 1) (⟨r.val, hr⟩ : Fin 512))).trans (r0_counts (V1 m ρ) c 0 ⟨r.val, hr⟩)
  have h1 := (congrFun e2 (ix3 (1 : Fin 2) (0 : Fin 1) (⟨r.val, hr⟩ : Fin 512))).trans (r0_counts (V1 m ρ) c 1 ⟨r.val, hr⟩)
  refine (v34_apply m ρ c r).trans ((congrArg₂ (· + ·) h0 h1).trans ?_)
  rw [ref_rowCounts]
  unfold Cert.Forms.rowCounts
  rw [Fin.sum_univ_two]
  refine congrArg₂ (· + ·) ?_ ?_ <;>
    exact Finset.sum_congr rfl fun j _ => Finset.sum_congr rfl fun p _ =>
      congrArg (fun w => Cert.Forms.hit w r.val) (v15_apply m ρ c _)
theorem kcounts_eq : @Eq (FVec Ideal S500x1 .f32) (V3 m ρ c main_v34) (Cert.ReferenceIdeal.Read.val_main_v25 (F := Ideal) (m ((c : Thread nD τ).loc main_arg1))) := by
  funext i
  obtain ⟨r, z, rfl⟩ : ∃ (r : Fin 500) (z : Fin 1), i = ix2 r z := ⟨i 0, i 1, eq_ix2 i⟩
  obtain rfl : z = 0 := Subsingleton.elim _ _
  exact kcounts_apply m ρ c r

set_option maxHeartbeats 2000000 in
/-- The two halves' plain sums added: the reference's sum over all entries, as a one-row array. -/
theorem kgsum_apply (d : Fin 128) :
    T26 m ρ c (ix2 (0 : Fin 1) d) = Cert.ReferenceIdeal.Read.val_main_v35 (F := Ideal) (m ((c : Thread nD τ).loc main_arg0)) (ix2 (0 : Fin 1) d) := by
  have e1 : O1 m ρ c = (dat0 (V1 m ρ) c).arrAt 3 cfg0.N := W2_arr m ρ c 3
  have h0 := (congrFun e1 (ix3 (0 : Fin 2) (0 : Fin 1) d)).trans (r0_gsums (V1 m ρ) c 0 d)
  have h1 := (congrFun e1 (ix3 (1 : Fin 2) (0 : Fin 1) d)).trans (r0_gsums (V1 m ρ) c 1 d)
  refine (v26_apply m ρ c d).trans ((congrArg₂ (· + ·) h0 h1).trans ?_)
  rw [Cert.ReferenceIdeal.Read.val_main_v35_apply,
    show Cert.ReferenceIdeal.Read.idx_main_v35 (ix2 (0 : Fin 1) d) = ix1 d from funext fun a => Fin.ext (by match a with | ⟨0, _⟩ => rfl),
    ref_allSums]
  unfold Cert.Forms.allSums
  rw [Fin.sum_univ_two]
  refine congrArg₂ (· + ·) ?_ ?_ <;>
    exact Finset.sum_congr rfl fun j _ => Finset.sum_congr rfl fun p _ => congrFun (V1_main_arg0 m ρ c) _
theorem kgsum_eq : @Eq (FVec Ideal S1x128 .f32) (V3 m ρ c main_v26) (Cert.ReferenceIdeal.Read.val_main_v35 (F := Ideal) (m ((c : Thread nD τ).loc main_arg0))) := by
  funext i
  obtain ⟨z, d, rfl⟩ : ∃ (z : Fin 1) (d : Fin 128), i = ix2 z d := ⟨i 0, i 1, eq_ix2 i⟩
  obtain rfl : z = 0 := Subsingleton.elim _ _
  exact kgsum_apply m ρ c d

/-! ## The three table terms are the reference's stages -/

set_option maxHeartbeats 2000000 in
/-- The gathered point-axis table: the same operations on the same arguments. -/
theorem tableP_eq : @Eq (FVec Ideal S1000000x128 .f32) (V3 m ρ c main_v55)
    (Cert.ReferenceIdeal.Read.val_main_v47 (F := Ideal) (m ((c : Thread nD τ).loc main_arg0)) (m ((c : Thread nD τ).loc main_arg2)) (m ((c : Thread nD τ).loc main_arg5)) (m ((c : Thread nD τ).loc main_arg6))) := by
  rw [v55_eq, v14_eq]
  rfl
set_option maxHeartbeats 2000000 in
/-- The gathered camera-axis table: the same operations on equal sums and counts. -/
theorem tableC_eq : @Eq (FVec Ideal S1000000x128 .f32) (V3 m ρ c main_v62)
    (Cert.ReferenceIdeal.Read.val_main_v55 (F := Ideal) (m ((c : Thread nD τ).loc main_arg0)) (m ((c : Thread nD τ).loc main_arg1)) (m ((c : Thread nD τ).loc main_arg7)) (m ((c : Thread nD τ).loc main_arg8))) := by
  rw [v62_eq, v43_eq, ksums_eq, kcounts_eq]
  rfl
set_option maxHeartbeats 2000000 in
/-- The global-mean row: the same operations on equal sums. -/
theorem tableG_eq : @Eq (FVec Ideal S1x128 .f32) (V3 m ρ c main_v48)
    (Cert.ReferenceIdeal.Read.val_main_v40 (F := Ideal) (m ((c : Thread nD τ).loc main_arg0)) (m ((c : Thread nD τ).loc main_arg9)) (m ((c : Thread nD τ).loc main_arg10))) := by
  rw [v48_eq, kgsum_eq]
  rfl

/-! ## The result -/

/-- Re-association of the last four additions. -/
theorem assoc4 (S b P C G q : EReal) : ((S + b) + ((P + C) + G)) * q = ((((S + b) + P) + C) + G) * q := by
  simp only [add_assoc]

set_option maxHeartbeats 2000000 in
/-- What the second kernel's write-backs leave in the result array is the reference's result, element by element. -/
theorem result_eq : @Eq (FVec Ideal S1000000x128 .f32) ((dat1 (V3 m ρ) c).arrAt 4 cfg1.N)
    (Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  funext i
  obtain ⟨n, e, rfl⟩ : ∃ (n : Fin 1000000) (e : Fin 128), i = ix2 n e := ⟨i 0, i 1, eq_ix2 i⟩
  refine (r1_apply (V3 m ρ) c n e (m ((c : Thread nD τ).loc main_arg0)) (T66 m ρ c) (m ((c : Thread nD τ).loc main_arg3)) (m ((c : Thread nD τ).loc main_arg4))
    (V3_main_arg0 m ρ c).symm rfl (V3_main_arg3 m ρ c).symm (V3_main_arg4 m ρ c).symm).trans ?_
  rw [ref_apply, v66_apply]
  rw [show T55 m ρ c = _ from tableP_eq m ρ c, show T62 m ρ c = _ from tableC_eq m ρ c, show T48 m ρ c = _ from tableG_eq m ρ c]
  exact assoc4 _ _ _ _ _ _

end

/-- THE VALUE CLAIM: from memories agreeing on the eleven arguments both idealized programs run to the end, and the
    kernel program's result array equals the reference's as extended reals, element by element. -/
theorem algebraic : Cert.algebraic_KernelIdeal_ReferenceIdeal := by
  intro m ρ m' ρ' _ hagree
  refine ⟨fun c => (dat1 (V3 m ρ) c).arrAt 4 cfg1.N, run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [e0, e1, e2, e3, e4, e5, e6, e7, e8, e9, e10]
  exact (ref_term_eq _ _ _ _ _ _ _ _ _ _ _).trans (result_eq m ρ c).symm

end Cert.KernelIdeal.Val

end
-- ==== Proof.lean ====
/-
  The kernel computes, for one million (camera, point) entries of 128 features,
      out = (values · W_all + b_all + out_rows[col] + out_cols[row] + out_both) · ¼
  in two kernel launches around plain host operations: the camera-axis segment sums, the per-camera counts and the
  global sum come out of the first launch as one-hot products and lane sums accumulated block by block on two halves of
  the entries, the three small table terms are gathered and added on the host, and the second launch adds them to the
  entry-wise projection.  The reference computes the same with two segment sums, a mean, three small matrix products,
  two gathers and one big matrix product.  Over the extended reals the two agree for EVERY pair of index arrays: an
  index word that names no camera is dropped by the reference's scatter (its start is read signed and not clamped) and
  matches no column of the kernel's one-hot comparison either; a sum of 0/1 multiples of rows is the sum of the selected
  rows; sums may be regrouped by halves, blocks and rows; and the last four additions may be re-associated.  No step
  needs the inputs to be finite.
  The frames of the two kernel programs are one text read at two float instances: each launch's body obligation at every
  grid point, the first launch's three accumulators named between points, and the program's four segments in order.  The
  reference's frame is its own run with the result dropped; the idealization rewrote nothing, so `preserves` is `True`.
-/
import proofs.«401576_j111669149722_3_alg».proof.Defs
import proofs.«401576_j111669149722_3_alg».proof.Proof.K.Run
import proofs.«401576_j111669149722_3_alg».proof.Proof.KI.Run
import proofs.«401576_j111669149722_3_alg».proof.Proof.Val.Bridge
import Idealize.ShloMosaic.Adequacy
import Idealize.ShloMosaic.Init

noncomputable section

namespace Cert.Proof

open Idealize.ShloMosaic Idealize.SL.Sem

/-- The word-level kernel program runs to the end, faults nowhere and leaves its eleven argument arrays unchanged. -/
theorem frame_k : Cert.frame_Kernel := fun m ρ _ => Cert.Kernel.Fr.frame m ρ
/-- The same of the idealized kernel program. -/
theorem frame_ki : Cert.frame_KernelIdeal := fun m ρ _ => Cert.KernelIdeal.Fr.frame m ρ
/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.KernelIdeal.Val.algebraic⟩

end Cert.Proof

end
